-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v49) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S1200000x64 : Shape := ⟨2, ![1200000, 64]⟩
abbrev S1x16 : Shape := ⟨2, ![1, 16]⟩
abbrev S208x128 : Shape := ⟨2, ![208, 128]⟩
abbrev S128 : Shape := ⟨1, ![128]⟩
abbrev S128x64 : Shape := ⟨2, ![128, 64]⟩
abbrev S64 : Shape := ⟨1, ![64]⟩
abbrev S144x128 : Shape := ⟨2, ![144, 128]⟩
abbrev S128x16 : Shape := ⟨2, ![128, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000x64 : S_.BroadcastsInDim S1200000x64 (![] : Fin 0 → Fin S1200000x64.rank)
  reducesTo_S1200000x64_S_d0_1 : S1200000x64.ReducesTo [0, 1] S_
  bcast_S_S1x16 : S_.BroadcastsInDim S1x16 (![] : Fin 0 → Fin S1x16.rank)
  reducesTo_S1x16_S_d0_1 : S1x16.ReducesTo [0, 1] S_
  bcast_S_S208x128 : S_.BroadcastsInDim S208x128 (![] : Fin 0 → Fin S208x128.rank)
  reducesTo_S208x128_S_d0_1 : S208x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S144x128 : S_.BroadcastsInDim S144x128 (![] : Fin 0 → Fin S144x128.rank)
  reducesTo_S144x128_S_d0_1 : S144x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S2x1200000 : S_.BroadcastsInDim S2x1200000 (![] : Fin 0 → Fin S2x1200000.rank)
  reducesTo_S2x1200000_S_d0_1 : S2x1200000.ReducesTo [0, 1] S_

variable [Facts]

def fn_part4 {F : FTy → Type} [FloatOps F] (main_arg1 : IVec S2x1200000 32) (main_arg15 : FVec F S16 .f32) (main_v63 : IVec S_ 1) (main_v67 : IVec S_ 1) : IVec S_ 1 :=
  let main_v68 : IVec S_ 1 := andi main_v63 main_v67
  let main_v69 : FVec F S16 .f32 := Host.absf main_arg15
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_c_28 : IVec S_ 32 := constantI S_ 32 0#32
  let main_v74 : IVec S2x1200000 32 := broadcastInDim S2x1200000 ![] bcast_S_S2x1200000 main_c_28
  let main_v75 : IVec S2x1200000 1 := cmpi .sge main_arg1 main_v74
  let main_c_29 : IVec S_ 1 := constantI S_ 1 1#1
  let main_v76 : IVec S_ 1 := (fun x v => Host.reduce IntOp.andi x v reducesTo_S2x1200000_S_d0_1 h_S_) main_v75 main_c_29
  let main_v77 : IVec S_ 1 := andi main_v73 main_v76
  let main_c_30 : IVec S_ 32 := constantI S_ 32 99999#32
  let main_v78 : IVec S2x1200000 32 := broadcastInDim S2x1200000 ![] bcast_S_S2x1200000 main_c_30
  let main_v79 : IVec S2x1200000 1 := cmpi .sle main_arg1 main_v78
  let main_c_31 : IVec S_ 1 := constantI S_ 1 1#1
  let main_v80 : IVec S_ 1 := (fun x v => Host.reduce IntOp.andi x v reducesTo_S2x1200000_S_d0_1 h_S_) main_v79 main_c_31
  let main_v81 : IVec S_ 1 := andi main_v77 main_v80
  main_v81

def fn_part3 {F : FTy → Type} [FloatOps F] (main_arg1 : IVec S2x1200000 32) (main_arg12 : FVec F S144x128 .f32) (main_arg13 : FVec F S128 .f32) (main_arg14 : FVec F S128x16 .f32) (main_arg15 : FVec F S16 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S144x128 .f32 := Host.absf main_arg12
  let main_cst_20 : FVec F S_ .f32 := constant S_ .f32 0x7F800000#32
  let main_v55 : FVec F S144x128 .f32 := broadcastInDim S144x128 ![] bcast_S_S144x128 main_cst_20
  let main_v56 : IVec S144x128 1 := cmpf .olt main_v54 main_v55
  let main_c_21 : IVec S_ 1 := constantI S_ 1 1#1
  let main_v57 : IVec S_ 1 := (fun x v => Host.reduce IntOp.andi x v reducesTo_S144x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x16 .f32 := Host.absf main_arg14
  let main_cst_24 : FVec F S_ .f32 := constant S_ .f32 0x7F800000#32
  let main_v65 : FVec F S128x16 .f32 := broadcastInDim S128x16 ![] bcast_S_S128x16 main_cst_24
  let main_v66 : IVec S128x16 1 := cmpf .olt main_v64 main_v65
  let main_c_25 : IVec S_ 1 := constantI S_ 1 1#1
  let main_v67 : IVec S_ 1 := (fun x v => Host.reduce IntOp.andi x v reducesTo_S128x16_S_d0_1 h_S_) main_v66 main_c_25
  fn_part4 (F := F) main_arg1 main_arg15 main_v63 main_v67

def fn_part2 {F : FTy → Type} [FloatOps F] (main_arg1 : IVec S2x1200000 32) (main_arg8 : FVec F S144x128 .f32) (main_arg9 : FVec F S128 .f32) (main_arg10 : FVec F S128x64 .f32) (main_arg11 : FVec F S64 .f32) (main_arg12 : FVec F S144x128 .f32) (main_arg13 : FVec F S128 .f32) (main_arg14 : FVec F S128x16 .f32) (main_arg15 : FVec F S16 .f32) (main_v33 : IVec S_ 1) : IVec S_ 1 :=
  let main_v34 : FVec F S144x128 .f32 := Host.absf main_arg8
  let main_cst_12 : FVec F S_ .f32 := constant S_ .f32 0x7F800000#32
  let main_v35 : FVec F S144x128 .f32 := broadcastInDim S144x128 ![] bcast_S_S144x128 main_cst_12
  let main_v36 : IVec S144x128 1 := cmpf .olt main_v34 main_v35
  let main_c_13 : IVec S_ 1 := constantI S_ 1 1#1
  let main_v37 : IVec S_ 1 := (fun x v => Host.reduce IntOp.andi x v reducesTo_S144x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_arg12 main_arg13 main_arg14 main_arg15 main_v48 main_v49 main_v50

def fn_part1 {F : FTy → Type} [FloatOps F] (main_arg1 : IVec S2x1200000 32) (main_arg5 : FVec F S128 .f32) (main_arg6 : FVec F S128x64 .f32) (main_arg7 : FVec F S64 .f32) (main_arg8 : FVec F S144x128 .f32) (main_arg9 : FVec F S128 .f32) (main_arg10 : FVec F S128x64 .f32) (main_arg11 : FVec F S64 .f32) (main_arg12 : FVec F S144x128 .f32) (main_arg13 : FVec F S128 .f32) (main_arg14 : FVec F S128x16 .f32) (main_arg15 : FVec F S16 .f32) (main_v13 : IVec S_ 1) (main_v16 : IVec S208x128 1) : IVec S_ 1 :=
  let main_c_5 : IVec S_ 1 := constantI S_ 1 1#1
  let main_v17 : IVec S_ 1 := (fun x v => Host.reduce IntOp.andi x v reducesTo_S208x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S100000x64 .f32) (main_arg1 : IVec S2x1200000 32) (main_arg2 : FVec F S1200000x64 .f32) (main_arg3 : FVec F S1x16 .f32) (main_arg4 : FVec F S208x128 .f32) (main_arg5 : FVec F S128 .f32) (main_arg6 : FVec F S128x64 .f32) (main_arg7 : FVec F S64 .f32) (main_arg8 : FVec F S144x128 .f32) (main_arg9 : FVec F S128 .f32) (main_arg10 : FVec F S128x64 .f32) (main_arg11 : FVec F S64 .f32) (main_arg12 : FVec F S144x128 .f32) (main_arg13 : FVec F S128 .f32) (main_arg14 : FVec F S128x16 .f32) (main_arg15 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000x64 .f32 := Host.absf main_arg2
  let main_cst_0 : FVec F S_ .f32 := constant S_ .f32 0x7F800000#32
  let main_v5 : FVec F S1200000x64 .f32 := broadcastInDim S1200000x64 ![] bcast_S_S1200000x64 main_cst_0
  let main_v6 : IVec S1200000x64 1 := cmpf .olt main_v4 main_v5
  let main_c_1 : IVec S_ 1 := constantI S_ 1 1#1
  let main_v7 : IVec S_ 1 := (fun x v => Host.reduce IntOp.andi x v reducesTo_S1200000x64_S_d0_1 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S208x128 .f32 := Host.absf main_arg4
  let main_cst_4 : FVec F S_ .f32 := constant S_ .f32 0x7F800000#32
  let main_v15 : FVec F S208x128 .f32 := broadcastInDim S208x128 ![] bcast_S_S208x128 main_cst_4
  let main_v16 : IVec S208x128 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S100000x64 : Shape := ⟨2, ![100000, 64]⟩
abbrev S2x1200000 : Shape := ⟨2, ![2, 1200000]⟩
abbrev S1200000x64 : Shape := ⟨2, ![1200000, 64]⟩
abbrev S1x16 : Shape := ⟨2, ![1, 16]⟩
abbrev S208x128 : Shape := ⟨2, ![208, 128]⟩
abbrev S128 : Shape := ⟨1, ![128]⟩
abbrev S128x64 : Shape := ⟨2, ![128, 64]⟩
abbrev S64 : Shape := ⟨1, ![64]⟩
abbrev S144x128 : Shape := ⟨2, ![144, 128]⟩
abbrev S128x16 : Shape := ⟨2, ![128, 16]⟩
abbrev S16 : Shape := ⟨1, ![16]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1 : Shape := ⟨1, ![1]⟩
abbrev S1x1 : Shape := ⟨2, ![1, 1]⟩
abbrev S64x128 : Shape := ⟨2, ![64, 128]⟩
abbrev S1x128 : Shape := ⟨2, ![1, 128]⟩
abbrev S16x128 : Shape := ⟨2, ![16, 128]⟩
abbrev S1x64 : Shape := ⟨2, ![1, 64]⟩
abbrev S4800x64 : Shape := ⟨2, ![4800, 64]⟩
abbrev S4800x128 : Shape := ⟨2, ![4800, 128]⟩
abbrev S100000 : Shape := ⟨1, ![100000]⟩
abbrev S100000x1 : Shape := ⟨2, ![100000, 1]⟩
abbrev S5000x64 : Shape := ⟨2, ![5000, 64]⟩
abbrev S5000x128 : Shape := ⟨2, ![5000, 128]⟩
abbrev S1x144 : Shape := ⟨2, ![1, 144]⟩

abbrev nBuf : Space → Nat
  | .hbm => 122
  | .vmem => 25
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000x64, .f32⟩
  | .hbm, ⟨3, _⟩ => ⟨S1x16, .f32⟩
  | .hbm, ⟨4, _⟩ => ⟨S208x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S144x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S144x128, .f32⟩
  | .hbm, ⟨13, _⟩ => ⟨S128, .f32⟩
  | .hbm, ⟨14, _⟩ => ⟨S128x16, .f32⟩
  | .hbm, ⟨15, _⟩ => ⟨S16, .f32⟩
  | .hbm, ⟨16, _⟩ => ⟨S1x1200000, .i32⟩
  | .hbm, ⟨17, _⟩ => ⟨S1200000, .i32⟩
  | .hbm, ⟨18, _⟩ => ⟨S1x1200000, .i32⟩
  | .hbm, ⟨19, _⟩ => ⟨S1200000, .i32⟩
  | .hbm, ⟨20, _⟩ => ⟨S_, .i32⟩
  | .hbm, ⟨21, _⟩ => ⟨S1200000, .i32⟩
  | .hbm, ⟨22, _⟩ => ⟨S1200000, .i1⟩
  | .hbm, ⟨23, _⟩ => ⟨S_, .i32⟩
  | .hbm, ⟨24, _⟩ => ⟨S1200000, .i32⟩
  | .hbm, ⟨25, _⟩ => ⟨S1200000, .i32⟩
  | .hbm, ⟨26, _⟩ => ⟨S1200000, .i32⟩
  | .hbm, ⟨27, _⟩ => ⟨S1200000x1, .i32⟩
  | .hbm, ⟨28, _⟩ => ⟨S1, .i32⟩
  | .hbm, ⟨29, _⟩ => ⟨S_, .i32⟩
  | .hbm, ⟨30, _⟩ => ⟨S1200000x1, .i32⟩
  | .hbm, ⟨31, _⟩ => ⟨S1200000x1, .i1⟩
  | .hbm, ⟨32, _⟩ => ⟨S1x1, .i32⟩
  | .hbm, ⟨33, _⟩ => ⟨S1200000x1, .i32⟩
  | .hbm, ⟨34, _⟩ => ⟨S1200000x1, .i1⟩
  | .hbm, ⟨35, _⟩ => ⟨S1200000x1, .i1⟩
  | .hbm, ⟨36, _⟩ => ⟨S_, .i1⟩
  | .hbm, ⟨37, _⟩ => ⟨S1200000, .i1⟩
  | .hbm, ⟨38, _⟩ => ⟨S1200000x64, .f32⟩
  | .hbm, ⟨39, _⟩ => ⟨S1200000x64, .i1⟩
  | .hbm, ⟨40, _⟩ => ⟨S_, .f32⟩
  | .hbm, ⟨41, _⟩ => ⟨S1200000x64, .f32⟩
  | .hbm, ⟨42, _⟩ => ⟨S1200000x64, .f32⟩
  | .hbm, ⟨43, _⟩ => ⟨S_, .i32⟩
  | .hbm, ⟨44, _⟩ => ⟨S1200000, .i32⟩
  | .hbm, ⟨45, _⟩ => ⟨S1200000, .i1⟩
  | .hbm, ⟨46, _⟩ => ⟨S_, .i32⟩
  | .hbm, ⟨47, _⟩ => ⟨S1200000, .i32⟩
  | .hbm, ⟨48, _⟩ => ⟨S1200000, .i32⟩
  | .hbm, ⟨49, _⟩ => ⟨S1200000, .i32⟩
  | .hbm, ⟨50, _⟩ => ⟨S1200000x1, .i32⟩
  | .hbm, ⟨51, _⟩ => ⟨S1, .i32⟩
  | .hbm, ⟨52, _⟩ => ⟨S_, .i32⟩
  | .hbm, ⟨53, _⟩ => ⟨S1200000x1, .i32⟩
  | .hbm, ⟨54, _⟩ => ⟨S1200000x1, .i1⟩
  | .hbm, ⟨55, _⟩ => ⟨S1x1, .i32⟩
  | .hbm, ⟨56, _⟩ => ⟨S1200000x1, .i32⟩
  | .hbm, ⟨57, _⟩ => ⟨S1200000x1, .i1⟩
  | .hbm, ⟨58, _⟩ => ⟨S1200000x1, .i1⟩
  | .hbm, ⟨59, _⟩ => ⟨S_, .i1⟩
  | .hbm, ⟨60, _⟩ => ⟨S1200000, .i1⟩
  | .hbm, ⟨61, _⟩ => ⟨S1200000x64, .f32⟩
  | .hbm, ⟨62, _⟩ => ⟨S1200000x64, .i1⟩
  | .hbm, ⟨63, _⟩ => ⟨S_, .f32⟩
  | .hbm, ⟨64, _⟩ => ⟨S1200000x64, .f32⟩
  | .hbm, ⟨65, _⟩ => ⟨S1200000x64, .f32⟩
  | .hbm, ⟨66, _⟩ => ⟨S64x128, .f32⟩
  | .hbm, ⟨67, _⟩ => ⟨S64x128, .f32⟩
  | .hbm, ⟨68, _⟩ => ⟨S64x128, .f32⟩
  | .hbm, ⟨69, _⟩ => ⟨S1x128, .f32⟩
  | .hbm, ⟨70, _⟩ => ⟨S16x128, .f32⟩
  | .hbm, ⟨71, _⟩ => ⟨S1x128, .f32⟩
  | .hbm, ⟨72, _⟩ => ⟨S1x128, .f32⟩
  | .hbm, ⟨73, _⟩ => ⟨S1x64, .f32⟩
  | .hbm, ⟨74, _⟩ => ⟨S1200000x64, .f32⟩
  | .hbm, ⟨75, _⟩ => ⟨S_, .f32⟩
  | .hbm, ⟨76, _⟩ => ⟨S100000x64, .f32⟩
  | .hbm, ⟨77, _⟩ => ⟨S1200000x1, .i32⟩
  | .hbm, ⟨78, _⟩ => ⟨S100000x64, .f32⟩
  | .hbm, ⟨79, _⟩ => ⟨S_, .f32⟩
  | .hbm, ⟨80, _⟩ => ⟨S1200000, .f32⟩
  | .hbm, ⟨81, _⟩ => ⟨S_, .f32⟩
  | .hbm, ⟨82, _⟩ => ⟨S100000, .f32⟩
  | .hbm, ⟨83, _⟩ => ⟨S1200000x1, .i32⟩
  | .hbm, ⟨84, _⟩ => ⟨S100000, .f32⟩
  | .hbm, ⟨85, _⟩ => ⟨S_, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S100000x1, .f32⟩
  | .hbm, ⟨90, _⟩ => ⟨S100000x64, .f32⟩
  | .hbm, ⟨91, _⟩ => ⟨S100000x64, .f32⟩
  | .hbm, ⟨92, _⟩ => ⟨S64x128, .f32⟩
  | .hbm, ⟨93, _⟩ => ⟨S64x128, .f32⟩
  | .hbm, ⟨94, _⟩ => ⟨S1x128, .f32⟩
  | .hbm, ⟨95, _⟩ => ⟨S16x128, .f32⟩
  | .hbm, ⟨96, _⟩ => ⟨S1x128, .f32⟩
  | .hbm, ⟨97, _⟩ => ⟨S1x128, .f32⟩
  | .hbm, ⟨98, _⟩ => ⟨S1x64, .f32⟩
  | .hbm, ⟨99, _⟩ => ⟨S100000x64, .f32⟩
  | .hbm, ⟨100, _⟩ => ⟨S_, .f32⟩
  | .hbm, ⟨101, _⟩ => ⟨S64, .f32⟩
  | .hbm, ⟨102, _⟩ => ⟨S1x64, .f32⟩
  | .hbm, ⟨103, _⟩ => ⟨S_, .f32⟩
  | .hbm, ⟨104, _⟩ => ⟨S1x64, .f32⟩
  | .hbm, ⟨105, _⟩ => ⟨S1x64, .f32⟩
  | .hbm, ⟨106, _⟩ => ⟨S_, .f32⟩
  | .hbm, ⟨107, _⟩ => ⟨S64, .f32⟩
  | .hbm, ⟨108, _⟩ => ⟨S1x64, .f32⟩
  | .hbm, ⟨109, _⟩ => ⟨S_, .f32⟩
  | .hbm, ⟨110, _⟩ => ⟨S1x64, .f32⟩
  | .hbm, ⟨111, _⟩ => ⟨S1x64, .f32⟩
  | .hbm, ⟨112, _⟩ => ⟨S1x144, .f32⟩
  | .hbm, ⟨113, _⟩ => ⟨S1x128, .f32⟩
  | .hbm, ⟨114, _⟩ => ⟨S1x128, .f32⟩
  | .hbm, ⟨115, _⟩ => ⟨S1x128, .f32⟩
  | .hbm, ⟨116, _⟩ => ⟨S_, .f32⟩
  | .hbm, ⟨117, _⟩ => ⟨S1x128, .f32⟩
  | .hbm, ⟨118, _⟩ => ⟨S1x128, .f32⟩
  | .hbm, ⟨119, _⟩ => ⟨S1x16, .f32⟩
  | .hbm, ⟨120, _⟩ => ⟨S1x16, .f32⟩
  | .hbm, ⟨121, _⟩ => ⟨S1x16, .f32⟩
  | .local _ .vmem, ⟨0, _⟩ => ⟨S4800x64, .f32⟩
  | .local _ .vmem, ⟨1, _⟩ => ⟨S4800x64, .f32⟩
  | .local _ .vmem, ⟨2, _⟩ => ⟨S4800x64, .f32⟩
  | .local _ .vmem, ⟨3, _⟩ => ⟨S4800x64, .f32⟩
  | .local _ .vmem, ⟨4, _⟩ => ⟨S4800x64, .f32⟩
  | .local _ .vmem, ⟨5, _⟩ => ⟨S4800x64, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S1x128, .f32⟩
  | .local _ .vmem, ⟨10, _⟩ => ⟨S128x64, .f32⟩
  | .local _ .vmem, ⟨11, _⟩ => ⟨S1x64, .f32⟩
  | .local _ .vmem, ⟨12, _⟩ => ⟨S4800x64, .f32⟩
  | .local _ .vmem, ⟨13, _⟩ => ⟨S4800x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x128, .f32⟩
  | .local _ .vmem, ⟨19, _⟩ => ⟨S64x128, .f32⟩
  | .local _ .vmem, ⟨20, _⟩ => ⟨S1x128, .f32⟩
  | .local _ .vmem, ⟨21, _⟩ => ⟨S128x64, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v4 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v5 : Ref sig .tc := ⟨.hbm, 65, rfl⟩
abbrev main_v6 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_cst : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_cst_0 : Ref sig .tc := ⟨.hbm, 79, rfl⟩
abbrev main_v18 : Ref sig .tc := ⟨.hbm, 80, rfl⟩
abbrev main_cst_1 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_cst_2 : Ref sig .tc := ⟨.hbm, 85, rfl⟩
abbrev main_call2_v0 : Ref sig .tc := ⟨.hbm, 86, rfl⟩
abbrev main_call2_v1 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_cst_3 : Ref sig .tc := ⟨.hbm, 100, rfl⟩
abbrev main_v34 : Ref sig .tc := ⟨.hbm, 101, rfl⟩
abbrev main_v35 : Ref sig .tc := ⟨.hbm, 102, rfl⟩
abbrev main_cst_4 : Ref sig .tc := ⟨.hbm, 103, rfl⟩
abbrev main_v36 : Ref sig .tc := ⟨.hbm, 104, rfl⟩
abbrev main_v37 : Ref sig .tc := ⟨.hbm, 105, rfl⟩
abbrev main_cst_5 : Ref sig .tc := ⟨.hbm, 106, rfl⟩
abbrev main_v38 : Ref sig .tc := ⟨.hbm, 107, rfl⟩
abbrev main_v39 : Ref sig .tc := ⟨.hbm, 108, rfl⟩
abbrev main_cst_6 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_call3_cst : Ref sig .tc := ⟨.hbm, 116, rfl⟩
abbrev main_call3_v0 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4800x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4800x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4800x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4800x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S1200000x1 : S_.BroadcastsInDim S1200000x1 (![] : Fin 0 → Fin S1200000x1.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  reducesTo_S1200000x1_S1200000_d1 : S1200000x1.ReducesTo [1] S1200000
  h_S_ : 0 < S_.numel
  bcast_S1200000_S1200000x64_0 : S1200000.BroadcastsInDim S1200000x64 (![0] : Fin 1 → Fin S1200000x64.rank)
  bcast_S_S1200000x64 : S_.BroadcastsInDim S1200000x64 (![] : Fin 0 → Fin S1200000x64.rank)
  slices_S208x128_S64x128_16_0 : S208x128.Slices ![16, 0] S64x128
  slices_S208x128_S64x128_80_0 : S208x128.Slices ![80, 0] S64x128
  slices_S208x128_S64x128_144_0 : S208x128.Slices ![144, 0] S64x128
  shapeCasts_S128_S1x128 : S128.ShapeCasts S1x128
  slices_S208x128_S16x128_0_0 : S208x128.Slices ![0, 0] S16x128
  shapeCasts_S64_S1x64 : S64.ShapeCasts S1x64
  inb_S4800x64_S4800x64_0_0 : ∀ a, (![0, 0] : Fin 2 → Nat) a + S4800x64.size a ≤ S4800x64.size a
  h_S4800x64 : 0 < S4800x64.numel
  shapeCasts_S4800x64_S4800x64 : S4800x64.ShapeCasts S4800x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4800x128 : S1x128.Broadcasts S4800x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4800x64 : S1x64.Broadcasts S4800x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S144x128_S64x128_16_0 : S144x128.Slices ![16, 0] S64x128
  slices_S144x128_S64x128_80_0 : S144x128.Slices ![80, 0] S64x128
  slices_S144x128_S16x128_0_0 : S144x128.Slices ![0, 0] S16x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x128_S5000x128 : S1x128.Broadcasts S5000x128
  broadcasts_S1x64_S5000x64 : S1x64.Broadcasts S5000x64
  reducesTo_S1200000x64_S64_d0 : S1200000x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  reducesTo_S100000x64_S64_d0 : S100000x64.ReducesTo [0] S64
  concatenates_S1x64_S1x64_S1x16_S1x144_d1 : Shape.Concatenates [S1x64, S1x64, S1x16] S1x144 1
  bcast_S128_S1x128_1 : S128.BroadcastsInDim S1x128 (![1] : Fin 1 → Fin S1x128.rank)
  bcast_S_S1x128 : S_.BroadcastsInDim S1x128 (![] : Fin 0 → Fin S1x128.rank)
  bcast_S16_S1x16_1 : S16.BroadcastsInDim S1x16 (![1] : Fin 1 → Fin S1x16.rank)
  gather_S100000x64_S1200000x1_S1200000x64_1_0_n_n_0_1_164_wf : GatherDims.WF S100000x64 S1200000x1 S1200000x64 [1] [0] [] [0] [] 1 ![1, 64]
  dot_S1x16_S16x128_S1x128_1_0_0_1_n_n_wf : DotDims.WF S1x16 S16x128 S1x128 [1] [0] [0] [1] [] []
  dot_S4800x64_S64x128_S4800x128_1_0_0_1_n_n_wf : DotDims.WF S4800x64 S64x128 S4800x128 [1] [0] [0] [1] [] []
  dot_S4800x128_S128x64_S4800x64_1_0_0_1_n_n_wf : DotDims.WF S4800x128 S128x64 S4800x64 [1] [0] [0] [1] [] []
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  dot_S1x144_S144x128_S1x128_1_0_0_1_n_n_wf : DotDims.WF S1x144 S144x128 S1x128 [1] [0] [0] [1] [] []
  dot_S1x128_S128x16_S1x16_1_0_0_1_n_n_wf : DotDims.WF S1x128 S128x16 S1x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4800x64.size a ≤ S1200000x64.size a
  hwx0_0 : ∀ i : grid0.Coords, EltTy.bits .f32 = 32 ∨ (Rect.block (s := S1200000x64) S4800x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4800x64.size a ≤ S1200000x64.size a
  hwx0_1 : ∀ i : grid0.Coords, EltTy.bits .f32 = 32 ∨ (Rect.block (s := S1200000x64) S4800x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4800x64.size a ≤ S1200000x64.size a
  hwx0_2 : ∀ i : grid0.Coords, EltTy.bits .f32 = 32 ∨ (Rect.block (s := S1200000x64) S4800x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4800x64.size a ≤ S1200000x64.size a
  hwx0_9 : ∀ i : grid0.Coords, EltTy.bits .f32 = 32 ∨ (Rect.block (s := S1200000x64) S4800x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S1x16_S16x128_S1x128_1_0_0_1_n_n : DotDims S1x16 S16x128 S1x128 where
  lhsContracting := [1]
  rhsContracting := [0]
  lhsNonContracting := [0]
  rhsNonContracting := [1]
  lhsBatch := []
  rhsBatch := []
  wf := dot_S1x16_S16x128_S1x128_1_0_0_1_n_n_wf
def dot_S4800x64_S64x128_S4800x128_1_0_0_1_n_n : DotDims S4800x64 S64x128 S4800x128 where
  lhsContracting := [1]
  rhsContracting := [0]
  lhsNonContracting := [0]
  rhsNonContracting := [1]
  lhsBatch := []
  rhsBatch := []
  wf := dot_S4800x64_S64x128_S4800x128_1_0_0_1_n_n_wf
def dot_S4800x128_S128x64_S4800x64_1_0_0_1_n_n : DotDims S4800x128 S128x64 S4800x64 where
  lhsContracting := [1]
  rhsContracting := [0]
  lhsNonContracting := [0]
  rhsNonContracting := [1]
  lhsBatch := []
  rhsBatch := []
  wf := dot_S4800x128_S128x64_S4800x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S1x144_S144x128_S1x128_1_0_0_1_n_n : DotDims S1x144 S144x128 S1x128 where
  lhsContracting := [1]
  rhsContracting := [0]
  lhsNonContracting := [0]
  rhsNonContracting := [1]
  lhsBatch := []
  rhsBatch := []
  wf := dot_S1x144_S144x128_S1x128_1_0_0_1_n_n_wf
def dot_S1x128_S128x16_S1x16_1_0_0_1_n_n : DotDims S1x128 S128x16 S1x16 where
  lhsContracting := [1]
  rhsContracting := [0]
  lhsNonContracting := [0]
  rhsNonContracting := [1]
  lhsBatch := []
  rhsBatch := []
  wf := dot_S1x128_S128x16_S1x16_1_0_0_1_n_n_wf

abbrev win0_0 : Pipeline.Window sig grid0 :=
  Pipeline.Window.ofSpec (Memref.whole main_v4) S4800x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4800x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4800x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S4800x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S1200000x64 : Shape := ⟨2, ![1200000, 64]⟩
abbrev S1x16 : Shape := ⟨2, ![1, 16]⟩
abbrev S208x128 : Shape := ⟨2, ![208, 128]⟩
abbrev S128 : Shape := ⟨1, ![128]⟩
abbrev S128x64 : Shape := ⟨2, ![128, 64]⟩
abbrev S64 : Shape := ⟨1, ![64]⟩
abbrev S144x128 : Shape := ⟨2, ![144, 128]⟩
abbrev S128x16 : Shape := ⟨2, ![128, 16]⟩
abbrev S16 : Shape := ⟨1, ![16]⟩
abbrev S1x1200000 : Shape := ⟨2, ![1, 1200000]⟩
abbrev S1200000 : Shape := ⟨1, ![1200000]⟩
abbrev S1200000x16 : Shape := ⟨2, ![1200000, 16]⟩
abbrev S_ : Shape := ⟨0, ![]⟩
abbrev S1200000x1 : Shape := ⟨2, ![1200000, 1]⟩
abbrev S1200000x208 : Shape := ⟨2, ![1200000, 208]⟩
abbrev S1200000x128 : Shape := ⟨2, ![1200000, 128]⟩
abbrev S1x128 : Shape := ⟨2, ![1, 128]⟩
abbrev S1x64 : Shape := ⟨2, ![1, 64]⟩
abbrev S100000 : Shape := ⟨1, ![100000]⟩
abbrev S100000x1 : Shape := ⟨2, ![100000, 1]⟩
abbrev S100000x16 : Shape := ⟨2, ![100000, 16]⟩
abbrev S100000x144 : Shape := ⟨2, ![100000, 144]⟩
abbrev S100000x128 : Shape := ⟨2, ![100000, 128]⟩
abbrev S1x144 : Shape := ⟨2, ![1, 144]⟩

abbrev nBuf : Space → Nat
  | .hbm => 103
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000x64, .f32⟩
  | .hbm, ⟨3, _⟩ => ⟨S1x16, .f32⟩
  | .hbm, ⟨4, _⟩ => ⟨S208x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S144x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S144x128, .f32⟩
  | .hbm, ⟨13, _⟩ => ⟨S128, .f32⟩
  | .hbm, ⟨14, _⟩ => ⟨S128x16, .f32⟩
  | .hbm, ⟨15, _⟩ => ⟨S16, .f32⟩
  | .hbm, ⟨16, _⟩ => ⟨S1x1200000, .i32⟩
  | .hbm, ⟨17, _⟩ => ⟨S1200000, .i32⟩
  | .hbm, ⟨18, _⟩ => ⟨S1x1200000, .i32⟩
  | .hbm, ⟨19, _⟩ => ⟨S1200000, .i32⟩
  | .hbm, ⟨20, _⟩ => ⟨S1200000x16, .f32⟩
  | .hbm, ⟨21, _⟩ => ⟨S_, .i32⟩
  | .hbm, ⟨22, _⟩ => ⟨S1200000, .i32⟩
  | .hbm, ⟨23, _⟩ => ⟨S1200000, .i1⟩
  | .hbm, ⟨24, _⟩ => ⟨S_, .i32⟩
  | .hbm, ⟨25, _⟩ => ⟨S1200000, .i32⟩
  | .hbm, ⟨26, _⟩ => ⟨S1200000, .i32⟩
  | .hbm, ⟨27, _⟩ => ⟨S1200000, .i32⟩
  | .hbm, ⟨28, _⟩ => ⟨S1200000x1, .i32⟩
  | .hbm, ⟨29, _⟩ => ⟨S1200000x64, .f32⟩
  | .hbm, ⟨30, _⟩ => ⟨S_, .i32⟩
  | .hbm, ⟨31, _⟩ => ⟨S1200000, .i32⟩
  | .hbm, ⟨32, _⟩ => ⟨S1200000, .i1⟩
  | .hbm, ⟨33, _⟩ => ⟨S_, .i32⟩
  | .hbm, ⟨34, _⟩ => ⟨S1200000, .i32⟩
  | .hbm, ⟨35, _⟩ => ⟨S1200000, .i32⟩
  | .hbm, ⟨36, _⟩ => ⟨S1200000, .i32⟩
  | .hbm, ⟨37, _⟩ => ⟨S1200000x1, .i32⟩
  | .hbm, ⟨38, _⟩ => ⟨S1200000x64, .f32⟩
  | .hbm, ⟨39, _⟩ => ⟨S1200000x208, .f32⟩
  | .hbm, ⟨40, _⟩ => ⟨S1200000x128, .f32⟩
  | .hbm, ⟨41, _⟩ => ⟨S1x128, .f32⟩
  | .hbm, ⟨42, _⟩ => ⟨S1200000x128, .f32⟩
  | .hbm, ⟨43, _⟩ => ⟨S1200000x128, .f32⟩
  | .hbm, ⟨44, _⟩ => ⟨S_, .f32⟩
  | .hbm, ⟨45, _⟩ => ⟨S1200000x128, .f32⟩
  | .hbm, ⟨46, _⟩ => ⟨S1200000x128, .f32⟩
  | .hbm, ⟨47, _⟩ => ⟨S1200000x64, .f32⟩
  | .hbm, ⟨48, _⟩ => ⟨S1x64, .f32⟩
  | .hbm, ⟨49, _⟩ => ⟨S1200000x64, .f32⟩
  | .hbm, ⟨50, _⟩ => ⟨S1200000x64, .f32⟩
  | .hbm, ⟨51, _⟩ => ⟨S_, .f32⟩
  | .hbm, ⟨52, _⟩ => ⟨S100000x64, .f32⟩
  | .hbm, ⟨53, _⟩ => ⟨S1200000x1, .i32⟩
  | .hbm, ⟨54, _⟩ => ⟨S100000x64, .f32⟩
  | .hbm, ⟨55, _⟩ => ⟨S_, .f32⟩
  | .hbm, ⟨56, _⟩ => ⟨S1200000, .f32⟩
  | .hbm, ⟨57, _⟩ => ⟨S_, .f32⟩
  | .hbm, ⟨58, _⟩ => ⟨S100000, .f32⟩
  | .hbm, ⟨59, _⟩ => ⟨S1200000x1, .i32⟩
  | .hbm, ⟨60, _⟩ => ⟨S100000, .f32⟩
  | .hbm, ⟨61, _⟩ => ⟨S_, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S100000x16, .f32⟩
  | .hbm, ⟨69, _⟩ => ⟨S100000x144, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S64, .f32⟩
  | .hbm, ⟨83, _⟩ => ⟨S1x64, .f32⟩
  | .hbm, ⟨84, _⟩ => ⟨S_, .f32⟩
  | .hbm, ⟨85, _⟩ => ⟨S1x64, .f32⟩
  | .hbm, ⟨86, _⟩ => ⟨S1x64, .f32⟩
  | .hbm, ⟨87, _⟩ => ⟨S_, .f32⟩
  | .hbm, ⟨88, _⟩ => ⟨S64, .f32⟩
  | .hbm, ⟨89, _⟩ => ⟨S1x64, .f32⟩
  | .hbm, ⟨90, _⟩ => ⟨S_, .f32⟩
  | .hbm, ⟨91, _⟩ => ⟨S1x64, .f32⟩
  | .hbm, ⟨92, _⟩ => ⟨S1x64, .f32⟩
  | .hbm, ⟨93, _⟩ => ⟨S1x144, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S_, .f32⟩
  | .hbm, ⟨98, _⟩ => ⟨S1x128, .f32⟩
  | .hbm, ⟨99, _⟩ => ⟨S1x128, .f32⟩
  | .hbm, ⟨100, _⟩ => ⟨S1x16, .f32⟩
  | .hbm, ⟨101, _⟩ => ⟨S1x16, .f32⟩
  | .hbm, ⟨102, _⟩ => ⟨S1x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call0_cst : Ref sig .tc := ⟨.hbm, 44, rfl⟩
abbrev main_call0_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_call1_v0 : Ref sig .tc := ⟨.hbm, 62, rfl⟩
abbrev main_call1_v1 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call2_cst : Ref sig .tc := ⟨.hbm, 74, rfl⟩
abbrev main_call2_v0 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_6 : Ref sig .tc := ⟨.hbm, 81, rfl⟩
abbrev main_v51 : Ref sig .tc := ⟨.hbm, 82, rfl⟩
abbrev main_v52 : Ref sig .tc := ⟨.hbm, 83, rfl⟩
abbrev main_cst_7 : Ref sig .tc := ⟨.hbm, 84, rfl⟩
abbrev main_v53 : Ref sig .tc := ⟨.hbm, 85, rfl⟩
abbrev main_v54 : Ref sig .tc := ⟨.hbm, 86, rfl⟩
abbrev main_cst_8 : Ref sig .tc := ⟨.hbm, 87, rfl⟩
abbrev main_v55 : Ref sig .tc := ⟨.hbm, 88, rfl⟩
abbrev main_v56 : Ref sig .tc := ⟨.hbm, 89, rfl⟩
abbrev main_cst_9 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_call3_cst : Ref sig .tc := ⟨.hbm, 97, rfl⟩
abbrev main_call3_v0 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S1x16_S1200000x16_0_1 : S1x16.BroadcastsInDim S1200000x16 (![0, 1] : Fin 2 → Fin S1200000x16.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  concatenates_S1200000x16_S1200000x64_S1200000x64_S1200000x64_S1200000x208_d1 : Shape.Concatenates [S1200000x16, S1200000x64, S1200000x64, S1200000x64] S1200000x208 1
  bcast_S128_S1x128_1 : S128.BroadcastsInDim S1x128 (![1] : Fin 1 → Fin S1x128.rank)
  bcast_S1x128_S1200000x128_0_1 : S1x128.BroadcastsInDim S1200000x128 (![0, 1] : Fin 2 → Fin S1200000x128.rank)
  bcast_S_S1200000x128 : S_.BroadcastsInDim S1200000x128 (![] : Fin 0 → Fin S1200000x128.rank)
  bcast_S64_S1x64_1 : S64.BroadcastsInDim S1x64 (![1] : Fin 1 → Fin S1x64.rank)
  bcast_S1x64_S1200000x64_0_1 : S1x64.BroadcastsInDim S1200000x64 (![0, 1] : Fin 2 → Fin S1200000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1x16_S100000x16_0_1 : S1x16.BroadcastsInDim S100000x16 (![0, 1] : Fin 2 → Fin S100000x16.rank)
  concatenates_S100000x16_S100000x64_S100000x64_S100000x144_d1 : Shape.Concatenates [S100000x16, S100000x64, S100000x64] S100000x144 1
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x64_S100000x64_0_1 : S1x64.BroadcastsInDim S100000x64 (![0, 1] : Fin 2 → Fin S100000x64.rank)
  reducesTo_S1200000x64_S64_d0 : S1200000x64.ReducesTo [0] S64
  h_S_ : 0 < S_.numel
  bcast_S_S1x64 : S_.BroadcastsInDim S1x64 (![] : Fin 0 → Fin S1x64.rank)
  reducesTo_S100000x64_S64_d0 : S100000x64.ReducesTo [0] S64
  concatenates_S1x64_S1x64_S1x16_S1x144_d1 : Shape.Concatenates [S1x64, S1x64, S1x16] S1x144 1
  bcast_S_S1x128 : S_.BroadcastsInDim S1x128 (![] : Fin 0 → Fin S1x128.rank)
  bcast_S16_S1x16_1 : S16.BroadcastsInDim S1x16 (![1] : Fin 1 → Fin S1x16.rank)
  gather_S100000x64_S1200000x1_S1200000x64_1_0_n_n_0_1_164_wf : GatherDims.WF S100000x64 S1200000x1 S1200000x64 [1] [0] [] [0] [] 1 ![1, 64]
  dot_S1200000x208_S208x128_S1200000x128_1_0_0_1_n_n_wf : DotDims.WF S1200000x208 S208x128 S1200000x128 [1] [0] [0] [1] [] []
  dot_S1200000x128_S128x64_S1200000x64_1_0_0_1_n_n_wf : DotDims.WF S1200000x128 S128x64 S1200000x64 [1] [0] [0] [1] [] []
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x144_S144x128_S100000x128_1_0_0_1_n_n_wf : DotDims.WF S100000x144 S144x128 S100000x128 [1] [0] [0] [1] [] []
  dot_S100000x128_S128x64_S100000x64_1_0_0_1_n_n_wf : DotDims.WF S100000x128 S128x64 S100000x64 [1] [0] [0] [1] [] []
  dot_S1x144_S144x128_S1x128_1_0_0_1_n_n_wf : DotDims.WF S1x144 S144x128 S1x128 [1] [0] [0] [1] [] []
  dot_S1x128_S128x16_S1x16_1_0_0_1_n_n_wf : DotDims.WF S1x128 S128x16 S1x16 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S1200000x208_S208x128_S1200000x128_1_0_0_1_n_n : DotDims S1200000x208 S208x128 S1200000x128 where
  lhsContracting := [1]
  rhsContracting := [0]
  lhsNonContracting := [0]
  rhsNonContracting := [1]
  lhsBatch := []
  rhsBatch := []
  wf := dot_S1200000x208_S208x128_S1200000x128_1_0_0_1_n_n_wf
def dot_S1200000x128_S128x64_S1200000x64_1_0_0_1_n_n : DotDims S1200000x128 S128x64 S1200000x64 where
  lhsContracting := [1]
  rhsContracting := [0]
  lhsNonContracting := [0]
  rhsNonContracting := [1]
  lhsBatch := []
  rhsBatch := []
  wf := dot_S1200000x128_S128x64_S1200000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x144_S144x128_S100000x128_1_0_0_1_n_n : DotDims S100000x144 S144x128 S100000x128 where
  lhsContracting := [1]
  rhsContracting := [0]
  lhsNonContracting := [0]
  rhsNonContracting := [1]
  lhsBatch := []
  rhsBatch := []
  wf := dot_S100000x144_S144x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1x144_S144x128_S1x128_1_0_0_1_n_n : DotDims S1x144 S144x128 S1x128 where
  lhsContracting := [1]
  rhsContracting := [0]
  lhsNonContracting := [0]
  rhsNonContracting := [1]
  lhsBatch := []
  rhsBatch := []
  wf := dot_S1x144_S144x128_S1x128_1_0_0_1_n_n_wf
def dot_S1x128_S128x16_S1x16_1_0_0_1_n_n : DotDims S1x128 S128x16 S1x16 where
  lhsContracting := [1]
  rhsContracting := [0]
  lhsNonContracting := [0]
  rhsNonContracting := [1]
  lhsBatch := []
  rhsBatch := []
  wf := dot_S1x128_S128x16_S1x16_1_0_0_1_n_n_wf

class Facts : Prop extends Facts₀ where

variable [Facts]
-- ==== Proof.K.Region0.lean ====
/-
  Region 0: the edge network, one block of 4800 edges per grid point (250 points).
  At a point the body reads nine input blocks whole — the gathered source rows, the gathered target rows, the edge
  attributes (4800 x 64 each), the three 64 x 128 slices of the first layer's weights, the effective first bias
  (1 x 128), the second layer's weights (128 x 64) and its bias (1 x 64) — and stores ONE 4800 x 64 block,
  a pure function of those nine (three products summed, plus the bias row, clipped below at zero, one more product,
  plus the second bias row). This module says what that stored block is (`out0_9`), that the body computes it on any
  staging buffers holding the nine blocks (`sound_kernel0`), and packages it as the pipeline's proof data: the
  arrays as the region finds them, every input buffer holding its block at every point, the output buffer the
  stored block (`dat0`, `body_obligation0`). Everything is stated at any float instance.
-/
import proofs.«408850_j13786845020469_1_alg».proof.Proof.Gen.Kernel.Launch
import proofs.«408850_j13786845020469_1_alg».proof.Proof.Gen.Kernel.Skeleton
import proofs.«408850_j13786845020469_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array (as the region finds it) that the point's index map names. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry contents at every point, whether the
    pipeline fetched it there or kept the previous point's (the block index did not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the entry contents at every point, whether the
    pipeline fetched it there or kept the previous point's (the block index did not move). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the entry contents at every point, whether the
    pipeline fetched it there or kept the previous point's (the block index did not move). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the entry contents at every point, whether the
    pipeline fetched it there or kept the previous point's (the block index did not move). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block of the entry contents at every point, whether the
    pipeline fetched it there or kept the previous point's (the block index did not move). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block of the entry contents at every point, whether the
    pipeline fetched it there or kept the previous point's (the block index did not move). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block of the entry contents at every point, whether the
    pipeline fetched it there or kept the previous point's (the block index did not move). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block of the entry contents at every point, whether the
    pipeline fetched it there or kept the previous point's (the block index did not move). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block of the entry contents at every point, whether the
    pipeline fetched it there or kept the previous point's (the block index did not move). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

abbrev rE : Rect S4800x64 := Rect.unit (s := S4800x64) ![0, 0] S4800x64.size inb_S4800x64_S4800x64_0_0
abbrev rW1 : Rect S64x128 := Rect.unit (s := S64x128) ![0, 0] S64x128.size inb_S64x128_S64x128_0_0
abbrev rB1 : Rect S1x128 := Rect.unit (s := S1x128) ![0, 0] S1x128.size inb_S1x128_S1x128_0_0
abbrev rW2 : Rect S128x64 := Rect.unit (s := S128x64) ![0, 0] S128x64.size inb_S128x64_S128x64_0_0
abbrev rB2 : Rect S1x64 := Rect.unit (s := S1x64) ![0, 0] S1x64.size inb_S1x64_S1x64_0_0

/-- The output block after the body, from the nine input blocks: the one whole-block store of the body's value. -/
def out0_9 (x0 : Vec F S4800x64 .f32) (x1 : Vec F S4800x64 .f32) (x2 : Vec F S4800x64 .f32) (x3 : Vec F S64x128 .f32) (x4 : Vec F S64x128 .f32) (x5 : Vec F S64x128 .f32) (x6 : Vec F S1x128 .f32) (x7 : Vec F S128x64 .f32) (x8 : Vec F S1x64 .f32) : Vec F S4800x64 .f32 :=
  View.canon [⟨rE, k0_pay1 (k0_pay2 (View.ld x0 rE) (View.ld x1 rE) (View.ld x2 rE) (View.ld x3 rW1) (View.ld x4 rW1) (View.ld x5 rW1) (View.ld x6 rB1) (View.ld x7 rW2)) (k0_pay3 (View.ld x8 rB2))⟩]

/-- The one store is of the whole block, so it covers it. -/
theorem cover0_9 (p0 : Vec F S4800x64 .f32) (y : S4800x64.Idx) :
    ∃ pc ∈ ([⟨rE, p0⟩] : List (View.Piece (Elt F) S4800x64 .f32)), y ∈ pc.1.set :=
  View.cover_of_tiled [⟨rE, p0⟩] S4800x64.size (by rfl) y

/-! ## The body's triple -/

set_option maxHeartbeats 1000000 in
/-- On whole staging buffers, the nine inputs' holding `x0 … x8` and the output's anything, the body runs to the end
    leaving the inputs as they were and the output at `out0_9` of them. -/
theorem sound_kernel0 (c : Dev nD) (E : Set ℕ) (i : grid0.Coords) (arg1 : Memref sig .tc .vmem S4800x64 .f32) (harg1 : arg1.IsWhole) (arg2 : Memref sig .tc .vmem S4800x64 .f32) (harg2 : arg2.IsWhole) (arg3 : Memref sig .tc .vmem S4800x64 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S4800x64 .f32) (harg10 : arg10.IsWhole)
    (x0 : Vec F S4800x64 .f32) (x1 : Vec F S4800x64 .f32) (x2 : Vec F S4800x64 .f32) (x3 : Vec F S64x128 .f32) (x4 : Vec F S64x128 .f32) (x5 : Vec F S64x128 .f32) (x6 : Vec F S1x128 .f32) (x7 : Vec F S128x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- Pipeline 0's proof data on core `c`: the arrays as the region finds them; after the body at point `t` every input
    buffer still at its block and the output buffer at `out0_9` of the nine blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the input buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.K.Region1.lean ====
/-
  Region 1: the node network, one block of 5000 nodes per grid point (20 points).
  At a point the body reads seven input blocks whole — the node features and the aggregated edge messages
  (5000 x 64 each), the two 64 x 128 slices of the first layer's weights, the effective first bias (1 x 128), the
  second layer's weights (128 x 64) and its bias (1 x 64) — and stores ONE 5000 x 64 block, a pure function of those
  seven (two products summed, plus the bias row, clipped below at zero, one more product, plus the second bias row).
  This module says what that stored block is (`out1_7`), that the body computes it on any staging buffers holding
  the seven blocks (`sound_kernel1`), and packages it as the pipeline's proof data (`dat1`, `body_obligation1`).
  Everything is stated at any float instance.
-/
import proofs.«408850_j13786845020469_1_alg».proof.Proof.Gen.Kernel.Launch
import proofs.«408850_j13786845020469_1_alg».proof.Proof.Gen.Kernel.Skeleton
import proofs.«408850_j13786845020469_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array (as the region finds it) that the point's index map names. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the entry contents at every point, whether the
    pipeline fetched it there or kept the previous point's (the block index did not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the entry contents at every point, whether the
    pipeline fetched it there or kept the previous point's (the block index did not move). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the entry contents at every point, whether the
    pipeline fetched it there or kept the previous point's (the block index did not move). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block of the entry contents at every point, whether the
    pipeline fetched it there or kept the previous point's (the block index did not move). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block of the entry contents at every point, whether the
    pipeline fetched it there or kept the previous point's (the block index did not move). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block of the entry contents at every point, whether the
    pipeline fetched it there or kept the previous point's (the block index did not move). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block of the entry contents at every point, whether the
    pipeline fetched it there or kept the previous point's (the block index did not move). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## What the body stores -/

abbrev rN : Rect S5000x64 := Rect.unit (s := S5000x64) ![0, 0] S5000x64.size inb_S5000x64_S5000x64_0_0
abbrev rV1 : Rect S64x128 := Rect.unit (s := S64x128) ![0, 0] S64x128.size inb_S64x128_S64x128_0_0
abbrev rC1 : Rect S1x128 := Rect.unit (s := S1x128) ![0, 0] S1x128.size inb_S1x128_S1x128_0_0
abbrev rV2 : Rect S128x64 := Rect.unit (s := S128x64) ![0, 0] S128x64.size inb_S128x64_S128x64_0_0
abbrev rC2 : Rect S1x64 := Rect.unit (s := S1x64) ![0, 0] S1x64.size inb_S1x64_S1x64_0_0

/-- The output block after the body, from the seven input blocks: the one whole-block store of the body's value. -/
def out1_7 (x0 : Vec F S5000x64 .f32) (x1 : Vec F S5000x64 .f32) (x2 : Vec F S64x128 .f32) (x3 : Vec F S64x128 .f32) (x4 : Vec F S1x128 .f32) (x5 : Vec F S128x64 .f32) (x6 : Vec F S1x64 .f32) : Vec F S5000x64 .f32 :=
  View.canon [⟨rN, k1_pay1 (View.ld x0 rN) (View.ld x1 rN) (View.ld x2 rV1) (View.ld x3 rV1) (View.ld x4 rC1) (View.ld x5 rV2) (View.ld x6 rC2)⟩]

/-- The one store is of the whole block, so it covers it. -/
theorem cover1_7 (p0 : Vec F S5000x64 .f32) (y : S5000x64.Idx) :
    ∃ pc ∈ ([⟨rN, p0⟩] : List (View.Piece (Elt F) S5000x64 .f32)), y ∈ pc.1.set :=
  View.cover_of_tiled [⟨rN, p0⟩] S5000x64.size (by rfl) y

/-! ## The body's triple -/

set_option maxHeartbeats 1000000 in
/-- On whole staging buffers, the seven inputs' holding `x0 … x6` and the output's anything, the body runs to the end
    leaving the inputs as they were and the output at `out1_7` of them. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S5000x64 .f32) (harg8 : arg8.IsWhole)
    (x0 : Vec F S5000x64 .f32) (x1 : Vec F S5000x64 .f32) (x2 : Vec F S64x128 .f32) (x3 : Vec F S64x128 .f32) (x4 : Vec F S1x128 .f32) (x5 : Vec F S128x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__node_mlp_kernel i arg1 harg1 arg2 harg2 arg3 harg3 arg4 harg4 arg5 harg5 arg6 harg6 arg7 harg7 arg8 harg8) K := by
  simp only [cc1__node_mlp_kernel_eq_skeleton]; unfold cc1__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- Pipeline 1's proof data on core `c`: the arrays as the region finds them; after the body at point `t` every input
    buffer still at its block and the output buffer at `out1_7` of the seven blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the input buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.K.Run.lean ====
/-
  The whole program's run. @main is twelve items: four stretches of host operations (the two row gathers, the weight
  slices, the effective first bias), the edge region, three stretches (the segment sums, the clipped counts, the mean,
  the node network's slices and bias), the node region, and three stretches (the two column means and the small global
  network). Between items every unscoped buffer holds a known function of the launch memory: a host stretch applies its
  operations, a region changes exactly its output array, to what its write-backs leave. This module fixes those
  contents for the two regions (`outs`), gives each region's record against them (`reg0`, `reg1`), and launches the
  program once, reading EVERY unscoped buffer at the end (`run_all`): the frame claim (`frame`) and the results'
  values are both read off that one run. Everything is stated at any float instance.
-/
import proofs.«408850_j13786845020469_1_alg».proof.Proof.K.Region0
import proofs.«408850_j13786845020469_1_alg».proof.Proof.K.Region1
import proofs.«408850_j13786845020469_1_alg».proof.Proof.Gen.Kernel.Regions

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! ## The launch, reading every unscoped buffer at the end -/

-- the launch theorem's implicit arguments are found by unifying its conclusion with this one
set_option backward.isDefEq.respectTransparency.types false in
/-- Given the two regions' records against the contents before and after them, every weakly fair execution of @main
    from memory `m` terminates, and in every final memory each unscoped buffer holds the last valuation's contents. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V4 m c) ∗ E 0 c) ⊢ R0.pre c)
    (hpost0 : ∀ c : Dev nD, R0.post c ⊢ iprop(StableHlo.held (c : Thread nD τ) (Pipeline.ucRefs τ sig) (V5 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V8 m outs c) ∗ E 1 c) ⊢ R1.pre c)
    (hpost1 : ∀ c : Dev nD, R1.post c ⊢ iprop(StableHlo.held (c : Thread nD τ) (Pipeline.ucRefs τ sig) (V9 m outs c) ∗ E 2 c)) :
    θ_run defs (onTc (τ := τ) (main (F := F))) ⟨m, fun _ => 0, ρ⟩ (fun r => ∀ c : Dev nD, ∀ b ∈ Pipeline.ucRefs τ sig,
      r.2.mem ((c : Thread nD τ).1, b) = V12 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V12 m outs c))
    (hch := fun c => ⟨.rfl, .rfl, .rfl, .rfl, hpre0 c, hpost0 c, .rfl, .rfl, hpre1 c, hpost1 c, .rfl, .rfl, sep_mono .rfl (hE2 c)⟩)
    (hinit := ?_) (QY := fun c s => ∀ b ∈ Pipeline.ucRefs τ sig, s.mem ((c : Thread nD τ).1, b) = V12 m outs c b)
    (hfin := fun c s' => ?_) (hQ := fun _ h => h)
  · -- the launch: the unscoped buffers at the launch memory; the rest makes the first rest state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V12 m outs c) s') $$ [Hh HSI]
    · isplitl [Hh] <;> iassumption
    icases Hr with ⟨%h, HSI⟩
    imodintro
    isplitr
    · ipureintro
      exact h
    · iexact HSI

/-! ## The contents the regions leave -/

variable (m : (ℓ : Loc nD τ sig) → Buf (Elt F) ℓ) (ρ : Dev nD → PrngReg)

/-- What the edge region finds in the TensorCore's buffers. -/
abbrev Ve0 : (c : Dev nD) → (b : Ref sig .tc) → Buf (Elt F) ((c : Thread nD τ).loc b) := fun c b => V4 m c b

/-- Every unscoped buffer after the edge region: its windows' arrays at what the pipeline's write-backs leave (the
    inputs as entered, the output's blocks folded), every other buffer as entered. -/
def W5 (c : Dev nD) : Valuation τ sig (Elt F) :=
  Pipeline.withArrays spec0 c (V4 m c) fun w => (dat0 (Ve0 m) c).arrAt w cfg0.N

/-- The regions' leavings up to the node region's entry: the edge region's. -/
def outsA : Outs (F := F) := fun _ r c => W5 m c r

/-- What the node region finds in the TensorCore's buffers. -/
abbrev Ve1 : (c : Dev nD) → (b : Ref sig .tc) → Buf (Elt F) ((c : Thread nD τ).loc b) := fun c b => V8 m (outsA m) c b

/-- Every unscoped buffer after the node region, likewise. -/
def W9 (c : Dev nD) : Valuation τ sig (Elt F) :=
  Pipeline.withArrays spec1 c (V8 m (outsA m) c) fun w => (dat1 (Ve1 m) c).arrAt w cfg1.N

/-- What the two regions leave: after the edge region (read at item 5) its output array, after the node region (read
    at item 9) its output array. -/
def outs : Outs (F := F) := fun j r c => match j with
  | 9 => W9 m c r
  | _ => W5 m c r

/-- At item 5 both families name what the edge region left. -/
theorem outs5 (c : Dev nD) : outs m 5 main_v14 c = W5 m c (Proc.devRef .tc main_v14) := rfl
theorem outsA5 (c : Dev nD) : outsA m 5 main_v14 c = W5 m c (Proc.devRef .tc main_v14) := rfl
/-- At item 9 the family names what the node region left. -/
theorem outs9 (c : Dev nD) : outs m 9 main_v33 c = W9 m c (Proc.devRef .tc main_v33) := rfl

/-- The contents right after the edge region are the same under both families, -/
theorem V5_outs (c : Dev nD) : V5 m (outs m) c = V5 m (outsA m) c :=
  congrArg (fun v => Function.update (V4 m c) (Proc.devRef .tc main_v14) v) ((outs5 m c).trans (outsA5 m c).symm)
/-- hence so are the contents the node region is entered from: they only read what the edge region left. -/
theorem V8_outs (c : Dev nD) : V8 m (outs m) c = V8 m (outsA m) c :=
  congrArg (fun v5 => StableHlo.after hostOps1_2 (StableHlo.after hostOps1_1 (StableHlo.after hostOps1 v5))) (V5_outs m c)

/-- The edge region's output array right after the region holds what the family names there, -/
theorem V5_self (o : Outs (F := F)) (c : Dev nD) : V5 m o c main_v14 = o 5 main_v14 c := by
  simp only [V5, Function.update_self]
/-- and the node region's likewise. -/
theorem V9_self (o : Outs (F := F)) (c : Dev nD) : V9 m o c main_v33 = o 9 main_v33 c := by
  simp only [V9, Function.update_self]

/-- Each array of the edge region, after it, holds what the pipeline's write-backs leave. -/
theorem W5_arr (c : Dev nD) (w : Fin cfg0.W) :
    W5 m c (Proc.devRef .tc (Pipeline.arrRef spec0 w)) = (dat0 (Ve0 m) c).arrAt w cfg0.N := by
  unfold W5; exact Pipeline.withArrays_arr spec0 launch0.win.arr_inj c _ _ w
theorem W9_arr (c : Dev nD) (w : Fin cfg1.W) :
    W9 m c (Proc.devRef .tc (Pipeline.arrRef spec1 w)) = (dat1 (Ve1 m) c).arrAt w cfg1.N := by
  unfold W9; exact Pipeline.withArrays_arr spec1 launch1.win.arr_inj c _ _ w

/-! ## The proof data family and the rest state -/

/-- Both pipelines' proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arrays at the regions' exits -/

/-- An input window's array leaves the edge region as it entered. -/
theorem hF0_in (c : Dev nD) (w : Fin cfg0.W) (hw : (cfg0.win w).isOut = false)
    (hne : Pipeline.arrRef spec0 w ∉ ([main_v14] : List (Ref sig .tc))) :
    (dat0 (Ve0 m) c).arrAt w cfg0.N = V5 m (outs m) c (Pipeline.arrRef spec0 w) :=
  ((dat0 (Ve0 m) c).arrAt_in w hw _).trans ((A_eq0 (Ve0 m) c w).trans (V5_of m (outs m) c _ hne).symm)

set_option maxHeartbeats 4000000 in
/-- Each of the edge region's arrays holds at its exit what the pipeline leaves. -/
theorem hF0 (c : Dev nD) : ∀ w : Fin cfg0.W, (dat0 (Ve0 m) c).arrAt w cfg0.N = V5 m (outs m) c (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => hF0_in m c 4 rfl (by decide)
  | ⟨5, _⟩ => hF0_in m c 5 rfl (by decide)
  | ⟨6, _⟩ => hF0_in m c 6 rfl (by decide)
  | ⟨7, _⟩ => hF0_in m c 7 rfl (by decide)
  | ⟨8, _⟩ => hF0_in m c 8 rfl (by decide)
  | ⟨9, _⟩ => ((V5_self m (outs m) c).trans ((outs5 m c).trans (W5_arr m c 9))).symm

/-- Every other buffer leaves the edge region as it entered. -/
theorem hrest0 (c : Dev nD) : ∀ b, b ∉ Finset.univ.image (Pipeline.arrRef spec0) → V5 m (outs m) c b = V4 m c b :=
  fun b hb => V5_of m (outs m) c b fun hmem => hb (Finset.mem_image.mpr ⟨9, Finset.mem_univ _, (List.mem_singleton.mp hmem).symm⟩)

/-- An input window's array leaves the node region as it entered. -/
theorem hF1_in (c : Dev nD) (w : Fin cfg1.W) (hw : (cfg1.win w).isOut = false)
    (hne : Pipeline.arrRef spec1 w ∉ ([main_v33] : List (Ref sig .tc))) :
    (dat1 (Ve1 m) c).arrAt w cfg1.N = V9 m (outs m) c (Pipeline.arrRef spec1 w) :=
  ((dat1 (Ve1 m) c).arrAt_in w hw _).trans ((A_eq1 (Ve1 m) c w).trans
    ((congrFun (V8_outs m c) (Proc.devRef .tc (Pipeline.arrRef spec1 w))).symm.trans (V9_of m (outs m) c _ hne).symm))

set_option maxHeartbeats 4000000 in
/-- Each of the node region's arrays holds at its exit what the pipeline leaves. -/
theorem hF1 (c : Dev nD) : ∀ w : Fin cfg1.W, (dat1 (Ve1 m) c).arrAt w cfg1.N = V9 m (outs m) c (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => hF1_in m c 5 rfl (by decide)
  | ⟨6, _⟩ => hF1_in m c 6 rfl (by decide)
  | ⟨7, _⟩ => ((V9_self m (outs m) c).trans ((outs9 m c).trans (W9_arr m c 7))).symm

/-- Every other buffer leaves the node region as it entered. -/
theorem hrest1 (c : Dev nD) : ∀ b, b ∉ Finset.univ.image (Pipeline.arrRef spec1) → V9 m (outs m) c b = V8 m (outsA m) c b :=
  fun b hb => (V9_of m (outs m) c b fun hmem => hb (Finset.mem_image.mpr ⟨7, Finset.mem_univ _, (List.mem_singleton.mp hmem).symm⟩)).trans
    (congrFun (V8_outs m c) (Proc.devRef .tc b))

/-! ## The regions as segments -/

-- unification with the library's statements over the pinned configuration unfolds plain definitions in a metavariable's type
set_option backward.isDefEq.respectTransparency.types false in
/-- Region 0 as a segment of @main: entered with every unscoped buffer at the contents before it, left with them at the
    contents after it — its windows' arrays split out of the unscoped buffers at entry and put back, at what the
    write-backs leave, at the exit; the generator register passes through the body's invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (fun b => V5 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the library's statements over the pinned configuration unfolds plain definitions in a metavariable's type
set_option backward.isDefEq.respectTransparency.types false in
/-- Region 1 as a segment of @main: entered with every unscoped buffer at the contents before it, left with them at the
    contents after it — its windows' arrays split out of the unscoped buffers at entry and put back, at what the
    write-backs leave, at the exit; the generator register passes through the body's invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (V8 m (outsA m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (fun b => V9 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- What the launch deals a core besides its buffers — its semaphores at zero, its dues (none), its launch credit, its
    generator register — makes the rest state: the register at some state, nothing owed. -/
theorem restInit (c : Dev nD) :
    (iprop(unscopedSems0 c ∗ owes (c : Thread nD τ) ((0 : Dev nD → CellTallies nD τ sig Unit) c) ∅
      ∗ Pipeline.launchCred (0 : Dev nD → CellTallies nD τ sig Unit) c ∗ prngReg c (ρ c) ∗ iprop(emp)) : sProp 𝕄) ⊢ R c := by
  iintro ⟨-, HO, -, Hp, -⟩
  isplitl [Hp]; · iexists _; iexact Hp
  iexists ∅; iexact HO

-- the launch theorem's implicit arguments are found by unifying its conclusion with this one
set_option backward.isDefEq.respectTransparency.types false in
/-- Every weakly fair execution of @main from `m` terminates, and every final memory holds, in each unscoped buffer, the
    last valuation's contents: the launch memory pushed through the twelve items. -/
theorem run_all : θ_run defs (onTc (τ := τ) (main (F := F))) ⟨m, fun _ => 0, ρ⟩ (fun r => ∀ c : Dev nD, ∀ b ∈ Pipeline.ucRefs τ sig,
      r.2.mem ((c : Thread nD τ).1, b) = V12 m (outs m) c b) :=
  run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => R c) : sProp 𝕄) :=
        bigSep_mono fun c _ => restInit ρ c
      iintro ⟨H, -⟩
      ihave H' := hmono $$ H
      imodintro
      iexact H')
    (hE2 := fun c => by iintro ⟨-, HO⟩; iexact HO)
    (reg0 m) (fun c => .rfl) (fun c => .rfl)
    (reg1 m) (fun c => by rw [V8_outs]; exact .rfl) (fun c => .rfl)

/-- THE FRAME: every weakly fair execution of @main terminates, nothing faulting, and every final memory has the
    argument arrays as launched — no host stretch writes one and no region may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_arg0 (by decide))).trans (V12_main_arg0 m (outs m) c),
    (h c _ (mem_uc main_arg1 (by decide))).trans (V12_main_arg1 m (outs m) c),
    (h c _ (mem_uc main_arg2 (by decide))).trans (V12_main_arg2 m (outs m) c),
    (h c _ (mem_uc main_arg3 (by decide))).trans (V12_main_arg3 m (outs m) c),
    (h c _ (mem_uc main_arg4 (by decide))).trans (V12_main_arg4 m (outs m) c),
    (h c _ (mem_uc main_arg5 (by decide))).trans (V12_main_arg5 m (outs m) c),
    (h c _ (mem_uc main_arg6 (by decide))).trans (V12_main_arg6 m (outs m) c),
    (h c _ (mem_uc main_arg7 (by decide))).trans (V12_main_arg7 m (outs m) c),
    (h c _ (mem_uc main_arg8 (by decide))).trans (V12_main_arg8 m (outs m) c),
    (h c _ (mem_uc main_arg9 (by decide))).trans (V12_main_arg9 m (outs m) c),
    (h c _ (mem_uc main_arg10 (by decide))).trans (V12_main_arg10 m (outs m) c),
    (h c _ (mem_uc main_arg11 (by decide))).trans (V12_main_arg11 m (outs m) c),
    (h c _ (mem_uc main_arg12 (by decide))).trans (V12_main_arg12 m (outs m) c),
    (h c _ (mem_uc main_arg13 (by decide))).trans (V12_main_arg13 m (outs m) c),
    (h c _ (mem_uc main_arg14 (by decide))).trans (V12_main_arg14 m (outs m) c),
    (h c _ (mem_uc main_arg15 (by decide))).trans (V12_main_arg15 m (outs m) c)⟩) (run_all m ρ)

end Cert.Kernel.Reg

end
-- ==== Proof.KI.Region0.lean ====
/-
  Region 0: the edge network, one block of 4800 edges per grid point (250 points).
  At a point the body reads nine input blocks whole — the gathered source rows, the gathered target rows, the edge
  attributes (4800 x 64 each), the three 64 x 128 slices of the first layer's weights, the effective first bias
  (1 x 128), the second layer's weights (128 x 64) and its bias (1 x 64) — and stores ONE 4800 x 64 block,
  a pure function of those nine (three products summed, plus the bias row, clipped below at zero, one more product,
  plus the second bias row). This module says what that stored block is (`out0_9`), that the body computes it on any
  staging buffers holding the nine blocks (`sound_kernel0`), and packages it as the pipeline's proof data: the
  arrays as the region finds them, every input buffer holding its block at every point, the output buffer the
  stored block (`dat0`, `body_obligation0`). Everything is stated at any float instance.
-/
import proofs.«408850_j13786845020469_1_alg».proof.Proof.Gen.KernelIdeal.Launch
import proofs.«408850_j13786845020469_1_alg».proof.Proof.Gen.KernelIdeal.Skeleton
import proofs.«408850_j13786845020469_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array (as the region finds it) that the point's index map names. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry contents at every point, whether the
    pipeline fetched it there or kept the previous point's (the block index did not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the entry contents at every point, whether the
    pipeline fetched it there or kept the previous point's (the block index did not move). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the entry contents at every point, whether the
    pipeline fetched it there or kept the previous point's (the block index did not move). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the entry contents at every point, whether the
    pipeline fetched it there or kept the previous point's (the block index did not move). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block of the entry contents at every point, whether the
    pipeline fetched it there or kept the previous point's (the block index did not move). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block of the entry contents at every point, whether the
    pipeline fetched it there or kept the previous point's (the block index did not move). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block of the entry contents at every point, whether the
    pipeline fetched it there or kept the previous point's (the block index did not move). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block of the entry contents at every point, whether the
    pipeline fetched it there or kept the previous point's (the block index did not move). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block of the entry contents at every point, whether the
    pipeline fetched it there or kept the previous point's (the block index did not move). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

abbrev rE : Rect S4800x64 := Rect.unit (s := S4800x64) ![0, 0] S4800x64.size inb_S4800x64_S4800x64_0_0
abbrev rW1 : Rect S64x128 := Rect.unit (s := S64x128) ![0, 0] S64x128.size inb_S64x128_S64x128_0_0
abbrev rB1 : Rect S1x128 := Rect.unit (s := S1x128) ![0, 0] S1x128.size inb_S1x128_S1x128_0_0
abbrev rW2 : Rect S128x64 := Rect.unit (s := S128x64) ![0, 0] S128x64.size inb_S128x64_S128x64_0_0
abbrev rB2 : Rect S1x64 := Rect.unit (s := S1x64) ![0, 0] S1x64.size inb_S1x64_S1x64_0_0

/-- The output block after the body, from the nine input blocks: the one whole-block store of the body's value. -/
def out0_9 (x0 : Vec F S4800x64 .f32) (x1 : Vec F S4800x64 .f32) (x2 : Vec F S4800x64 .f32) (x3 : Vec F S64x128 .f32) (x4 : Vec F S64x128 .f32) (x5 : Vec F S64x128 .f32) (x6 : Vec F S1x128 .f32) (x7 : Vec F S128x64 .f32) (x8 : Vec F S1x64 .f32) : Vec F S4800x64 .f32 :=
  View.canon [⟨rE, k0_pay1 (k0_pay2 (View.ld x0 rE) (View.ld x1 rE) (View.ld x2 rE) (View.ld x3 rW1) (View.ld x4 rW1) (View.ld x5 rW1) (View.ld x6 rB1) (View.ld x7 rW2)) (k0_pay3 (View.ld x8 rB2))⟩]

/-- The one store is of the whole block, so it covers it. -/
theorem cover0_9 (p0 : Vec F S4800x64 .f32) (y : S4800x64.Idx) :
    ∃ pc ∈ ([⟨rE, p0⟩] : List (View.Piece (Elt F) S4800x64 .f32)), y ∈ pc.1.set :=
  View.cover_of_tiled [⟨rE, p0⟩] S4800x64.size (by rfl) y

/-! ## The body's triple -/

set_option maxHeartbeats 1000000 in
/-- On whole staging buffers, the nine inputs' holding `x0 … x8` and the output's anything, the body runs to the end
    leaving the inputs as they were and the output at `out0_9` of them. -/
theorem sound_kernel0 (c : Dev nD) (E : Set ℕ) (i : grid0.Coords) (arg1 : Memref sig .tc .vmem S4800x64 .f32) (harg1 : arg1.IsWhole) (arg2 : Memref sig .tc .vmem S4800x64 .f32) (harg2 : arg2.IsWhole) (arg3 : Memref sig .tc .vmem S4800x64 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S4800x64 .f32) (harg10 : arg10.IsWhole)
    (x0 : Vec F S4800x64 .f32) (x1 : Vec F S4800x64 .f32) (x2 : Vec F S4800x64 .f32) (x3 : Vec F S64x128 .f32) (x4 : Vec F S64x128 .f32) (x5 : Vec F S64x128 .f32) (x6 : Vec F S1x128 .f32) (x7 : Vec F S128x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- Pipeline 0's proof data on core `c`: the arrays as the region finds them; after the body at point `t` every input
    buffer still at its block and the output buffer at `out0_9` of the nine blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the input buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KI.Region1.lean ====
/-
  Region 1: the node network, one block of 5000 nodes per grid point (20 points).
  At a point the body reads seven input blocks whole — the node features and the aggregated edge messages
  (5000 x 64 each), the two 64 x 128 slices of the first layer's weights, the effective first bias (1 x 128), the
  second layer's weights (128 x 64) and its bias (1 x 64) — and stores ONE 5000 x 64 block, a pure function of those
  seven (two products summed, plus the bias row, clipped below at zero, one more product, plus the second bias row).
  This module says what that stored block is (`out1_7`), that the body computes it on any staging buffers holding
  the seven blocks (`sound_kernel1`), and packages it as the pipeline's proof data (`dat1`, `body_obligation1`).
  Everything is stated at any float instance.
-/
import proofs.«408850_j13786845020469_1_alg».proof.Proof.Gen.KernelIdeal.Launch
import proofs.«408850_j13786845020469_1_alg».proof.Proof.Gen.KernelIdeal.Skeleton
import proofs.«408850_j13786845020469_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array (as the region finds it) that the point's index map names. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the entry contents at every point, whether the
    pipeline fetched it there or kept the previous point's (the block index did not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the entry contents at every point, whether the
    pipeline fetched it there or kept the previous point's (the block index did not move). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the entry contents at every point, whether the
    pipeline fetched it there or kept the previous point's (the block index did not move). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block of the entry contents at every point, whether the
    pipeline fetched it there or kept the previous point's (the block index did not move). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block of the entry contents at every point, whether the
    pipeline fetched it there or kept the previous point's (the block index did not move). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block of the entry contents at every point, whether the
    pipeline fetched it there or kept the previous point's (the block index did not move). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block of the entry contents at every point, whether the
    pipeline fetched it there or kept the previous point's (the block index did not move). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## What the body stores -/

abbrev rN : Rect S5000x64 := Rect.unit (s := S5000x64) ![0, 0] S5000x64.size inb_S5000x64_S5000x64_0_0
abbrev rV1 : Rect S64x128 := Rect.unit (s := S64x128) ![0, 0] S64x128.size inb_S64x128_S64x128_0_0
abbrev rC1 : Rect S1x128 := Rect.unit (s := S1x128) ![0, 0] S1x128.size inb_S1x128_S1x128_0_0
abbrev rV2 : Rect S128x64 := Rect.unit (s := S128x64) ![0, 0] S128x64.size inb_S128x64_S128x64_0_0
abbrev rC2 : Rect S1x64 := Rect.unit (s := S1x64) ![0, 0] S1x64.size inb_S1x64_S1x64_0_0

/-- The output block after the body, from the seven input blocks: the one whole-block store of the body's value. -/
def out1_7 (x0 : Vec F S5000x64 .f32) (x1 : Vec F S5000x64 .f32) (x2 : Vec F S64x128 .f32) (x3 : Vec F S64x128 .f32) (x4 : Vec F S1x128 .f32) (x5 : Vec F S128x64 .f32) (x6 : Vec F S1x64 .f32) : Vec F S5000x64 .f32 :=
  View.canon [⟨rN, k1_pay1 (View.ld x0 rN) (View.ld x1 rN) (View.ld x2 rV1) (View.ld x3 rV1) (View.ld x4 rC1) (View.ld x5 rV2) (View.ld x6 rC2)⟩]

/-- The one store is of the whole block, so it covers it. -/
theorem cover1_7 (p0 : Vec F S5000x64 .f32) (y : S5000x64.Idx) :
    ∃ pc ∈ ([⟨rN, p0⟩] : List (View.Piece (Elt F) S5000x64 .f32)), y ∈ pc.1.set :=
  View.cover_of_tiled [⟨rN, p0⟩] S5000x64.size (by rfl) y

/-! ## The body's triple -/

set_option maxHeartbeats 1000000 in
/-- On whole staging buffers, the seven inputs' holding `x0 … x6` and the output's anything, the body runs to the end
    leaving the inputs as they were and the output at `out1_7` of them. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S5000x64 .f32) (harg8 : arg8.IsWhole)
    (x0 : Vec F S5000x64 .f32) (x1 : Vec F S5000x64 .f32) (x2 : Vec F S64x128 .f32) (x3 : Vec F S64x128 .f32) (x4 : Vec F S1x128 .f32) (x5 : Vec F S128x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__node_mlp_kernel i arg1 harg1 arg2 harg2 arg3 harg3 arg4 harg4 arg5 harg5 arg6 harg6 arg7 harg7 arg8 harg8) K := by
  simp only [cc1__node_mlp_kernel_eq_skeleton]; unfold cc1__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- Pipeline 1's proof data on core `c`: the arrays as the region finds them; after the body at point `t` every input
    buffer still at its block and the output buffer at `out1_7` of the seven blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the input buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KI.Run.lean ====
/-
  The whole program's run. @main is twelve items: four stretches of host operations (the two row gathers, the weight
  slices, the effective first bias), the edge region, three stretches (the segment sums, the clipped counts, the mean,
  the node network's slices and bias), the node region, and three stretches (the two column means and the small global
  network). Between items every unscoped buffer holds a known function of the launch memory: a host stretch applies its
  operations, a region changes exactly its output array, to what its write-backs leave. This module fixes those
  contents for the two regions (`outs`), gives each region's record against them (`reg0`, `reg1`), and launches the
  program once, reading EVERY unscoped buffer at the end (`run_all`): the frame claim (`frame`) and the results'
  values are both read off that one run. Everything is stated at any float instance.
-/
import proofs.«408850_j13786845020469_1_alg».proof.Proof.KI.Region0
import proofs.«408850_j13786845020469_1_alg».proof.Proof.KI.Region1
import proofs.«408850_j13786845020469_1_alg».proof.Proof.Gen.KernelIdeal.Regions

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! ## The launch, reading every unscoped buffer at the end -/

-- the launch theorem's implicit arguments are found by unifying its conclusion with this one
set_option backward.isDefEq.respectTransparency.types false in
/-- Given the two regions' records against the contents before and after them, every weakly fair execution of @main
    from memory `m` terminates, and in every final memory each unscoped buffer holds the last valuation's contents. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V4 m c) ∗ E 0 c) ⊢ R0.pre c)
    (hpost0 : ∀ c : Dev nD, R0.post c ⊢ iprop(StableHlo.held (c : Thread nD τ) (Pipeline.ucRefs τ sig) (V5 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V8 m outs c) ∗ E 1 c) ⊢ R1.pre c)
    (hpost1 : ∀ c : Dev nD, R1.post c ⊢ iprop(StableHlo.held (c : Thread nD τ) (Pipeline.ucRefs τ sig) (V9 m outs c) ∗ E 2 c)) :
    θ_run defs (onTc (τ := τ) (main (F := F))) ⟨m, fun _ => 0, ρ⟩ (fun r => ∀ c : Dev nD, ∀ b ∈ Pipeline.ucRefs τ sig,
      r.2.mem ((c : Thread nD τ).1, b) = V12 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V12 m outs c))
    (hch := fun c => ⟨.rfl, .rfl, .rfl, .rfl, hpre0 c, hpost0 c, .rfl, .rfl, hpre1 c, hpost1 c, .rfl, .rfl, sep_mono .rfl (hE2 c)⟩)
    (hinit := ?_) (QY := fun c s => ∀ b ∈ Pipeline.ucRefs τ sig, s.mem ((c : Thread nD τ).1, b) = V12 m outs c b)
    (hfin := fun c s' => ?_) (hQ := fun _ h => h)
  · -- the launch: the unscoped buffers at the launch memory; the rest makes the first rest state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V12 m outs c) s') $$ [Hh HSI]
    · isplitl [Hh] <;> iassumption
    icases Hr with ⟨%h, HSI⟩
    imodintro
    isplitr
    · ipureintro
      exact h
    · iexact HSI

/-! ## The contents the regions leave -/

variable (m : (ℓ : Loc nD τ sig) → Buf (Elt F) ℓ) (ρ : Dev nD → PrngReg)

/-- What the edge region finds in the TensorCore's buffers. -/
abbrev Ve0 : (c : Dev nD) → (b : Ref sig .tc) → Buf (Elt F) ((c : Thread nD τ).loc b) := fun c b => V4 m c b

/-- Every unscoped buffer after the edge region: its windows' arrays at what the pipeline's write-backs leave (the
    inputs as entered, the output's blocks folded), every other buffer as entered. -/
def W5 (c : Dev nD) : Valuation τ sig (Elt F) :=
  Pipeline.withArrays spec0 c (V4 m c) fun w => (dat0 (Ve0 m) c).arrAt w cfg0.N

/-- The regions' leavings up to the node region's entry: the edge region's. -/
def outsA : Outs (F := F) := fun _ r c => W5 m c r

/-- What the node region finds in the TensorCore's buffers. -/
abbrev Ve1 : (c : Dev nD) → (b : Ref sig .tc) → Buf (Elt F) ((c : Thread nD τ).loc b) := fun c b => V8 m (outsA m) c b

/-- Every unscoped buffer after the node region, likewise. -/
def W9 (c : Dev nD) : Valuation τ sig (Elt F) :=
  Pipeline.withArrays spec1 c (V8 m (outsA m) c) fun w => (dat1 (Ve1 m) c).arrAt w cfg1.N

/-- What the two regions leave: after the edge region (read at item 5) its output array, after the node region (read
    at item 9) its output array. -/
def outs : Outs (F := F) := fun j r c => match j with
  | 9 => W9 m c r
  | _ => W5 m c r

/-- At item 5 both families name what the edge region left. -/
theorem outs5 (c : Dev nD) : outs m 5 main_v14 c = W5 m c (Proc.devRef .tc main_v14) := rfl
theorem outsA5 (c : Dev nD) : outsA m 5 main_v14 c = W5 m c (Proc.devRef .tc main_v14) := rfl
/-- At item 9 the family names what the node region left. -/
theorem outs9 (c : Dev nD) : outs m 9 main_v33 c = W9 m c (Proc.devRef .tc main_v33) := rfl

/-- The contents right after the edge region are the same under both families, -/
theorem V5_outs (c : Dev nD) : V5 m (outs m) c = V5 m (outsA m) c :=
  congrArg (fun v => Function.update (V4 m c) (Proc.devRef .tc main_v14) v) ((outs5 m c).trans (outsA5 m c).symm)
/-- hence so are the contents the node region is entered from: they only read what the edge region left. -/
theorem V8_outs (c : Dev nD) : V8 m (outs m) c = V8 m (outsA m) c :=
  congrArg (fun v5 => StableHlo.after hostOps1_2 (StableHlo.after hostOps1_1 (StableHlo.after hostOps1 v5))) (V5_outs m c)

/-- The edge region's output array right after the region holds what the family names there, -/
theorem V5_self (o : Outs (F := F)) (c : Dev nD) : V5 m o c main_v14 = o 5 main_v14 c := by
  simp only [V5, Function.update_self]
/-- and the node region's likewise. -/
theorem V9_self (o : Outs (F := F)) (c : Dev nD) : V9 m o c main_v33 = o 9 main_v33 c := by
  simp only [V9, Function.update_self]

/-- Each array of the edge region, after it, holds what the pipeline's write-backs leave. -/
theorem W5_arr (c : Dev nD) (w : Fin cfg0.W) :
    W5 m c (Proc.devRef .tc (Pipeline.arrRef spec0 w)) = (dat0 (Ve0 m) c).arrAt w cfg0.N := by
  unfold W5; exact Pipeline.withArrays_arr spec0 launch0.win.arr_inj c _ _ w
theorem W9_arr (c : Dev nD) (w : Fin cfg1.W) :
    W9 m c (Proc.devRef .tc (Pipeline.arrRef spec1 w)) = (dat1 (Ve1 m) c).arrAt w cfg1.N := by
  unfold W9; exact Pipeline.withArrays_arr spec1 launch1.win.arr_inj c _ _ w

/-! ## The proof data family and the rest state -/

/-- Both pipelines' proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arrays at the regions' exits -/

/-- An input window's array leaves the edge region as it entered. -/
theorem hF0_in (c : Dev nD) (w : Fin cfg0.W) (hw : (cfg0.win w).isOut = false)
    (hne : Pipeline.arrRef spec0 w ∉ ([main_v14] : List (Ref sig .tc))) :
    (dat0 (Ve0 m) c).arrAt w cfg0.N = V5 m (outs m) c (Pipeline.arrRef spec0 w) :=
  ((dat0 (Ve0 m) c).arrAt_in w hw _).trans ((A_eq0 (Ve0 m) c w).trans (V5_of m (outs m) c _ hne).symm)

set_option maxHeartbeats 4000000 in
/-- Each of the edge region's arrays holds at its exit what the pipeline leaves. -/
theorem hF0 (c : Dev nD) : ∀ w : Fin cfg0.W, (dat0 (Ve0 m) c).arrAt w cfg0.N = V5 m (outs m) c (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => hF0_in m c 4 rfl (by decide)
  | ⟨5, _⟩ => hF0_in m c 5 rfl (by decide)
  | ⟨6, _⟩ => hF0_in m c 6 rfl (by decide)
  | ⟨7, _⟩ => hF0_in m c 7 rfl (by decide)
  | ⟨8, _⟩ => hF0_in m c 8 rfl (by decide)
  | ⟨9, _⟩ => ((V5_self m (outs m) c).trans ((outs5 m c).trans (W5_arr m c 9))).symm

/-- Every other buffer leaves the edge region as it entered. -/
theorem hrest0 (c : Dev nD) : ∀ b, b ∉ Finset.univ.image (Pipeline.arrRef spec0) → V5 m (outs m) c b = V4 m c b :=
  fun b hb => V5_of m (outs m) c b fun hmem => hb (Finset.mem_image.mpr ⟨9, Finset.mem_univ _, (List.mem_singleton.mp hmem).symm⟩)

/-- An input window's array leaves the node region as it entered. -/
theorem hF1_in (c : Dev nD) (w : Fin cfg1.W) (hw : (cfg1.win w).isOut = false)
    (hne : Pipeline.arrRef spec1 w ∉ ([main_v33] : List (Ref sig .tc))) :
    (dat1 (Ve1 m) c).arrAt w cfg1.N = V9 m (outs m) c (Pipeline.arrRef spec1 w) :=
  ((dat1 (Ve1 m) c).arrAt_in w hw _).trans ((A_eq1 (Ve1 m) c w).trans
    ((congrFun (V8_outs m c) (Proc.devRef .tc (Pipeline.arrRef spec1 w))).symm.trans (V9_of m (outs m) c _ hne).symm))

set_option maxHeartbeats 4000000 in
/-- Each of the node region's arrays holds at its exit what the pipeline leaves. -/
theorem hF1 (c : Dev nD) : ∀ w : Fin cfg1.W, (dat1 (Ve1 m) c).arrAt w cfg1.N = V9 m (outs m) c (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => hF1_in m c 5 rfl (by decide)
  | ⟨6, _⟩ => hF1_in m c 6 rfl (by decide)
  | ⟨7, _⟩ => ((V9_self m (outs m) c).trans ((outs9 m c).trans (W9_arr m c 7))).symm

/-- Every other buffer leaves the node region as it entered. -/
theorem hrest1 (c : Dev nD) : ∀ b, b ∉ Finset.univ.image (Pipeline.arrRef spec1) → V9 m (outs m) c b = V8 m (outsA m) c b :=
  fun b hb => (V9_of m (outs m) c b fun hmem => hb (Finset.mem_image.mpr ⟨7, Finset.mem_univ _, (List.mem_singleton.mp hmem).symm⟩)).trans
    (congrFun (V8_outs m c) (Proc.devRef .tc b))

/-! ## The regions as segments -/

-- unification with the library's statements over the pinned configuration unfolds plain definitions in a metavariable's type
set_option backward.isDefEq.respectTransparency.types false in
/-- Region 0 as a segment of @main: entered with every unscoped buffer at the contents before it, left with them at the
    contents after it — its windows' arrays split out of the unscoped buffers at entry and put back, at what the
    write-backs leave, at the exit; the generator register passes through the body's invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (fun b => V5 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the library's statements over the pinned configuration unfolds plain definitions in a metavariable's type
set_option backward.isDefEq.respectTransparency.types false in
/-- Region 1 as a segment of @main: entered with every unscoped buffer at the contents before it, left with them at the
    contents after it — its windows' arrays split out of the unscoped buffers at entry and put back, at what the
    write-backs leave, at the exit; the generator register passes through the body's invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (V8 m (outsA m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (fun b => V9 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- What the launch deals a core besides its buffers — its semaphores at zero, its dues (none), its launch credit, its
    generator register — makes the rest state: the register at some state, nothing owed. -/
theorem restInit (c : Dev nD) :
    (iprop(unscopedSems0 c ∗ owes (c : Thread nD τ) ((0 : Dev nD → CellTallies nD τ sig Unit) c) ∅
      ∗ Pipeline.launchCred (0 : Dev nD → CellTallies nD τ sig Unit) c ∗ prngReg c (ρ c) ∗ iprop(emp)) : sProp 𝕄) ⊢ R c := by
  iintro ⟨-, HO, -, Hp, -⟩
  isplitl [Hp]; · iexists _; iexact Hp
  iexists ∅; iexact HO

-- the launch theorem's implicit arguments are found by unifying its conclusion with this one
set_option backward.isDefEq.respectTransparency.types false in
/-- Every weakly fair execution of @main from `m` terminates, and every final memory holds, in each unscoped buffer, the
    last valuation's contents: the launch memory pushed through the twelve items. -/
theorem run_all : θ_run defs (onTc (τ := τ) (main (F := F))) ⟨m, fun _ => 0, ρ⟩ (fun r => ∀ c : Dev nD, ∀ b ∈ Pipeline.ucRefs τ sig,
      r.2.mem ((c : Thread nD τ).1, b) = V12 m (outs m) c b) :=
  run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => R c) : sProp 𝕄) :=
        bigSep_mono fun c _ => restInit ρ c
      iintro ⟨H, -⟩
      ihave H' := hmono $$ H
      imodintro
      iexact H')
    (hE2 := fun c => by iintro ⟨-, HO⟩; iexact HO)
    (reg0 m) (fun c => .rfl) (fun c => .rfl)
    (reg1 m) (fun c => by rw [V8_outs]; exact .rfl) (fun c => .rfl)

/-- THE FRAME: every weakly fair execution of @main terminates, nothing faulting, and every final memory has the
    argument arrays as launched — no host stretch writes one and no region may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_arg0 (by decide))).trans (V12_main_arg0 m (outs m) c),
    (h c _ (mem_uc main_arg1 (by decide))).trans (V12_main_arg1 m (outs m) c),
    (h c _ (mem_uc main_arg2 (by decide))).trans (V12_main_arg2 m (outs m) c),
    (h c _ (mem_uc main_arg3 (by decide))).trans (V12_main_arg3 m (outs m) c),
    (h c _ (mem_uc main_arg4 (by decide))).trans (V12_main_arg4 m (outs m) c),
    (h c _ (mem_uc main_arg5 (by decide))).trans (V12_main_arg5 m (outs m) c),
    (h c _ (mem_uc main_arg6 (by decide))).trans (V12_main_arg6 m (outs m) c),
    (h c _ (mem_uc main_arg7 (by decide))).trans (V12_main_arg7 m (outs m) c),
    (h c _ (mem_uc main_arg8 (by decide))).trans (V12_main_arg8 m (outs m) c),
    (h c _ (mem_uc main_arg9 (by decide))).trans (V12_main_arg9 m (outs m) c),
    (h c _ (mem_uc main_arg10 (by decide))).trans (V12_main_arg10 m (outs m) c),
    (h c _ (mem_uc main_arg11 (by decide))).trans (V12_main_arg11 m (outs m) c),
    (h c _ (mem_uc main_arg12 (by decide))).trans (V12_main_arg12 m (outs m) c),
    (h c _ (mem_uc main_arg13 (by decide))).trans (V12_main_arg13 m (outs m) c),
    (h c _ (mem_uc main_arg14 (by decide))).trans (V12_main_arg14 m (outs m) c),
    (h c _ (mem_uc main_arg15 (by decide))).trans (V12_main_arg15 m (outs m) c)⟩) (run_all m ρ)

end Cert.KernelIdeal.Reg

end
-- ==== Proof.Ref.RunR.lean ====
/-
  The reference program's run. Its @main is a straight line of 87 host operations; they are listed here in four
  stretches — the edge network (35 operations), the mean aggregation (17), the node network (13), the two column means
  and the global network (22) — each with its side conditions (it touches TensorCore references only, allocates
  nothing, writes the listed references), so that every weakly fair execution terminates with each buffer at the fold
  of the operations over its launch contents, and the fold is taken one stretch at a time.
-/
import proofs.«408850_j13786845020469_1_alg».proof.Proof.Gen.ReferenceIdeal
import Idealize.ShloMosaic.Lib.StableHlo.Run
import Idealize.ShloMosaic.Lib.Pipeline.Regions

set_option maxRecDepth 8192

noncomputable section

namespace Cert.ReferenceIdeal.RunR

open Cert.ReferenceIdeal Cert.ReferenceIdeal.Gen Idealize.ShloMosaic Idealize.ShloMosaic.TcCoe Idealize.SL.Sem Idealize.ShloMosaic.StableHlo

variable {F : FTy → Type} [FloatOps F]

/-- Stretch 1 of @main's operations (35 of them): the edge network: the two rows of the edge index array, the gathers, the concatenation, two linear layers with a clip between. -/
abbrev ops1 : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    unary main_arg3 main_v4 (broadcastInDim S1200000x16 ![0, 1] bcast_S1x16_S1200000x16_0_1 : (⟨S1x16, .f32⟩ : BufTy).Contents (Elt F) → (⟨S1200000x16, .f32⟩ : BufTy).Contents (Elt F)),
    nullary main_c (constantI S_ 32 0#32),
    unary main_c main_v5 (broadcastInDim S1200000 ![] bcast_S_S1200000 : (⟨S_, .i32⟩ : BufTy).Contents (Elt F) → (⟨S1200000, .i32⟩ : BufTy).Contents (Elt F)),
    binary main_v1 main_v5 main_v6 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 100000#32),
    unary main_c_0 main_v7 (broadcastInDim S1200000 ![] bcast_S_S1200000 : (⟨S_, .i32⟩ : BufTy).Contents (Elt F) → (⟨S1200000, .i32⟩ : BufTy).Contents (Elt F)),
    binary main_v1 main_v7 main_v8 (addi : (⟨S1200000, .i32⟩ : BufTy).Contents (Elt F) → (⟨S1200000, .i32⟩ : BufTy).Contents (Elt F) → (⟨S1200000, .i32⟩ : BufTy).Contents (Elt F)),
    ternary main_v6 main_v8 main_v1 main_v9 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v9 main_v10 (broadcastInDim S1200000x1 ![0] bcast_S1200000_S1200000x1_0 : (⟨S1200000, .i32⟩ : BufTy).Contents (Elt F) → (⟨S1200000x1, .i32⟩ : BufTy).Contents (Elt F)),
    binary main_arg0 main_v10 main_v11 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_c_1 (constantI S_ 32 0#32),
    unary main_c_1 main_v12 (broadcastInDim S1200000 ![] bcast_S_S1200000 : (⟨S_, .i32⟩ : BufTy).Contents (Elt F) → (⟨S1200000, .i32⟩ : BufTy).Contents (Elt F)),
    binary main_v3 main_v12 main_v13 (cmpi .slt : (⟨S1200000, .i32⟩ : BufTy).Contents (Elt F) → (⟨S1200000, .i32⟩ : BufTy).Contents (Elt F) → (⟨S1200000, .i1⟩ : BufTy).Contents (Elt F)),
    nullary main_c_2 (constantI S_ 32 100000#32),
    unary main_c_2 main_v14 (broadcastInDim S1200000 ![] bcast_S_S1200000 : (⟨S_, .i32⟩ : BufTy).Contents (Elt F) → (⟨S1200000, .i32⟩ : BufTy).Contents (Elt F)),
    binary main_v3 main_v14 main_v15 (addi : (⟨S1200000, .i32⟩ : BufTy).Contents (Elt F) → (⟨S1200000, .i32⟩ : BufTy).Contents (Elt F) → (⟨S1200000, .i32⟩ : BufTy).Contents (Elt F)),
    ternary main_v13 main_v15 main_v3 main_v16 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v16 main_v17 (broadcastInDim S1200000x1 ![0] bcast_S1200000_S1200000x1_0 : (⟨S1200000, .i32⟩ : BufTy).Contents (Elt F) → (⟨S1200000x1, .i32⟩ : BufTy).Contents (Elt F)),
    binary main_arg0 main_v17 main_v18 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nary ![main_v4, main_v11, main_v18, main_arg2] main_v19 (fun u => concatenate S1200000x208 1 [⟨S1200000x16, u 0⟩, ⟨S1200000x64, u 1⟩, ⟨S1200000x64, u 2⟩, ⟨S1200000x64, u 3⟩] concatenates_S1200000x16_S1200000x64_S1200000x64_S1200000x64_S1200000x208_d1),
    binary main_v19 main_arg4 main_v20 ((fun l r => Host.dotGeneral dot_S1200000x208_S208x128_S1200000x128_1_0_0_1_n_n none l r) : (⟨S1200000x208, .f32⟩ : BufTy).Contents (Elt F) → (⟨S208x128, .f32⟩ : BufTy).Contents (Elt F) → (⟨S1200000x128, .f32⟩ : BufTy).Contents (Elt F)),
    unary main_arg5 main_v21 (broadcastInDim S1x128 ![1] bcast_S128_S1x128_1 : (⟨S128, .f32⟩ : BufTy).Contents (Elt F) → (⟨S1x128, .f32⟩ : BufTy).Contents (Elt F)),
    unary main_v21 main_v22 (broadcastInDim S1200000x128 ![0, 1] bcast_S1x128_S1200000x128_0_1 : (⟨S1x128, .f32⟩ : BufTy).Contents (Elt F) → (⟨S1200000x128, .f32⟩ : BufTy).Contents (Elt F)),
    binary main_v20 main_v22 main_v23 (addf : (⟨S1200000x128, .f32⟩ : BufTy).Contents (Elt F) → (⟨S1200000x128, .f32⟩ : BufTy).Contents (Elt F) → (⟨S1200000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1200000x128, .f32⟩) main_call0_v0) (broadcastInDim S1200000x128 ![] bcast_S_S1200000x128),
    TRef.binary (TRef.of (T := ⟨S1200000x128, .f32⟩) main_v23) (TRef.of (T := ⟨S1200000x128, .f32⟩) main_call0_v0) (TRef.of (T := ⟨S1200000x128, .f32⟩) main_v24) maximumf,
    binary main_v24 main_arg6 main_v25 ((fun l r => Host.dotGeneral dot_S1200000x128_S128x64_S1200000x64_1_0_0_1_n_n none l r) : (⟨S1200000x128, .f32⟩ : BufTy).Contents (Elt F) → (⟨S128x64, .f32⟩ : BufTy).Contents (Elt F) → (⟨S1200000x64, .f32⟩ : BufTy).Contents (Elt F)),
    unary main_arg7 main_v26 (broadcastInDim S1x64 ![1] bcast_S64_S1x64_1 : (⟨S64, .f32⟩ : BufTy).Contents (Elt F) → (⟨S1x64, .f32⟩ : BufTy).Contents (Elt F)),
    unary main_v26 main_v27 (broadcastInDim S1200000x64 ![0, 1] bcast_S1x64_S1200000x64_0_1 : (⟨S1x64, .f32⟩ : BufTy).Contents (Elt F) → (⟨S1200000x64, .f32⟩ : BufTy).Contents (Elt F)),
    binary main_v25 main_v27 main_v28 (addf : (⟨S1200000x64, .f32⟩ : BufTy).Contents (Elt F) → (⟨S1200000x64, .f32⟩ : BufTy).Contents (Elt F) → (⟨S1200000x64, .f32⟩ : BufTy).Contents (Elt F)) ]
/-- Each touches TensorCore references only. -/
theorem ops1_sub : (ops1 : List (HloOp τ sig (Elt F))).Forall fun op => op.bufs ⊆ tcRefs τ sig :=
  ⟨unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
/-- None allocates a buffer. -/
theorem ops1_fresh : (ops1 : List (HloOp τ sig (Elt F))).Forall fun op => op.fresh = ∅ := by
  simp only [List.Forall]; repeat' constructor
/-- The references it writes. -/
abbrev ops1_W : List (Ref sig .tc) := [main_v0, main_v1, main_v2, main_v3, main_v4, main_c, main_v5, main_v6, main_c_0, main_v7, main_v8, main_v9, main_v10, main_v11, main_c_1, main_v12, main_v13, main_c_2, main_v14, main_v15, main_v16, main_v17, main_v18, main_v19, main_v20, main_v21, main_v22, main_v23, main_call0_cst, main_call0_v0, main_v24, main_v25, main_v26, main_v27, main_v28]
theorem ops1_writes : (ops1 : List (HloOp τ sig (Elt F))).Forall fun op => op.writes ⊆ (ops1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference it does not write keeps its contents. -/
theorem after1_of (V : Valuation τ sig (Elt F)) (r : Ref sig .tc) (h : r ∉ ops1_W) :
    after ops1 V (Proc.devRef .tc r) = V (Proc.devRef .tc r) :=
  after_of_writes_sub ops1 V ops1_writes h

/-- Stretch 2 of @main's operations (17 of them): the mean aggregation onto the source nodes. -/
abbrev ops2 : List (HloOp τ sig (Elt F)) :=
  [ nullary main_cst (constant S_ .f32 0x00000000#32),
    unary main_cst main_v29 (broadcastInDim S100000x64 ![] bcast_S_S100000x64 : (⟨S_, .f32⟩ : BufTy).Contents (Elt F) → (⟨S100000x64, .f32⟩ : BufTy).Contents (Elt F)),
    unary main_v1 main_v30 (broadcastInDim S1200000x1 ![0] bcast_S1200000_S1200000x1_0 : (⟨S1200000, .i32⟩ : BufTy).Contents (Elt F) → (⟨S1200000x1, .i32⟩ : BufTy).Contents (Elt F)),
    ternary main_v29 main_v30 main_v28 main_v31 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    nullary main_cst_3 (constant S_ .f32 0x3F800000#32),
    unary main_cst_3 main_v32 (broadcastInDim S1200000 ![] bcast_S_S1200000 : (⟨S_, .f32⟩ : BufTy).Contents (Elt F) → (⟨S1200000, .f32⟩ : BufTy).Contents (Elt F)),
    nullary main_cst_4 (constant S_ .f32 0x00000000#32),
    unary main_cst_4 main_v33 (broadcastInDim S100000 ![] bcast_S_S100000 : (⟨S_, .f32⟩ : BufTy).Contents (Elt F) → (⟨S100000, .f32⟩ : BufTy).Contents (Elt F)),
    unary main_v1 main_v34 (broadcastInDim S1200000x1 ![0] bcast_S1200000_S1200000x1_0 : (⟨S1200000, .i32⟩ : BufTy).Contents (Elt F) → (⟨S1200000x1, .i32⟩ : BufTy).Contents (Elt F)),
    ternary main_v33 main_v34 main_v32 main_v35 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_cst_5 (constant S_ .f32 0x3F800000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_v35) (TRef.of (T := ⟨S100000, .f32⟩) main_v36) maximumf,
    unary main_v36 main_v37 (broadcastInDim S100000x1 ![0] bcast_S100000_S100000x1_0 : (⟨S100000, .f32⟩ : BufTy).Contents (Elt F) → (⟨S100000x1, .f32⟩ : BufTy).Contents (Elt F)),
    unary main_v37 main_v38 (broadcastInDim S100000x64 ![0, 1] bcast_S100000x1_S100000x64_0_1 : (⟨S100000x1, .f32⟩ : BufTy).Contents (Elt F) → (⟨S100000x64, .f32⟩ : BufTy).Contents (Elt F)),
    binary main_v31 main_v38 main_v39 (Host.divf : (⟨S100000x64, .f32⟩ : BufTy).Contents (Elt F) → (⟨S100000x64, .f32⟩ : BufTy).Contents (Elt F) → (⟨S100000x64, .f32⟩ : BufTy).Contents (Elt F)) ]
/-- Each touches TensorCore references only. -/
theorem ops2_sub : (ops2 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub ..⟩
/-- None allocates a buffer. -/
theorem ops2_fresh : (ops2 : List (HloOp τ sig (Elt F))).Forall fun op => op.fresh = ∅ := by
  simp only [List.Forall]; repeat' constructor
/-- The references it writes. -/
abbrev ops2_W : List (Ref sig .tc) := [main_cst, main_v29, main_v30, main_v31, main_cst_3, main_v32, main_cst_4, main_v33, main_v34, main_v35, main_cst_5, main_call1_v0, main_call1_v1, main_v36, main_v37, main_v38, main_v39]
theorem ops2_writes : (ops2 : List (HloOp τ sig (Elt F))).Forall fun op => op.writes ⊆ (ops2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference it does not write keeps its contents. -/
theorem after2_of (V : Valuation τ sig (Elt F)) (r : Ref sig .tc) (h : r ∉ ops2_W) :
    after ops2 V (Proc.devRef .tc r) = V (Proc.devRef .tc r) :=
  after_of_writes_sub ops2 V ops2_writes h

/-- Stretch 3 of @main's operations (13 of them): the node network. -/
abbrev ops3 : List (HloOp τ sig (Elt F)) :=
  [ unary main_arg3 main_v40 (broadcastInDim S100000x16 ![0, 1] bcast_S1x16_S100000x16_0_1 : (⟨S1x16, .f32⟩ : BufTy).Contents (Elt F) → (⟨S100000x16, .f32⟩ : BufTy).Contents (Elt F)),
    nary ![main_v40, main_arg0, main_v39] main_v41 (fun u => concatenate S100000x144 1 [⟨S100000x16, u 0⟩, ⟨S100000x64, u 1⟩, ⟨S100000x64, u 2⟩] concatenates_S100000x16_S100000x64_S100000x64_S100000x144_d1),
    binary main_v41 main_arg8 main_v42 ((fun l r => Host.dotGeneral dot_S100000x144_S144x128_S100000x128_1_0_0_1_n_n none l r) : (⟨S100000x144, .f32⟩ : BufTy).Contents (Elt F) → (⟨S144x128, .f32⟩ : BufTy).Contents (Elt F) → (⟨S100000x128, .f32⟩ : BufTy).Contents (Elt F)),
    unary main_arg9 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v45) (TRef.of (T := ⟨S100000x128, .f32⟩) main_call2_v0) (TRef.of (T := ⟨S100000x128, .f32⟩) main_v46) maximumf,
    binary main_v46 main_arg10 main_v47 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg11 main_v48 (broadcastInDim S1x64 ![1] bcast_S64_S1x64_1 : (⟨S64, .f32⟩ : BufTy).Contents (Elt F) → (⟨S1x64, .f32⟩ : BufTy).Contents (Elt F)),
    unary main_v48 main_v49 (broadcastInDim S100000x64 ![0, 1] bcast_S1x64_S100000x64_0_1 : (⟨S1x64, .f32⟩ : BufTy).Contents (Elt F) → (⟨S100000x64, .f32⟩ : BufTy).Contents (Elt F)),
    binary main_v47 main_v49 main_v50 (addf : (⟨S100000x64, .f32⟩ : BufTy).Contents (Elt F) → (⟨S100000x64, .f32⟩ : BufTy).Contents (Elt F) → (⟨S100000x64, .f32⟩ : BufTy).Contents (Elt F)) ]
/-- Each touches TensorCore references only. -/
theorem ops3_sub : (ops3 : List (HloOp τ sig (Elt F))).Forall fun op => op.bufs ⊆ tcRefs τ sig :=
  ⟨unary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
/-- None allocates a buffer. -/
theorem ops3_fresh : (ops3 : List (HloOp τ sig (Elt F))).Forall fun op => op.fresh = ∅ := by
  simp only [List.Forall]; repeat' constructor
/-- The references it writes. -/
abbrev ops3_W : List (Ref sig .tc) := [main_v40, main_v41, main_v42, main_v43, main_v44, main_v45, main_call2_cst, main_call2_v0, main_v46, main_v47, main_v48, main_v49, main_v50]
theorem ops3_writes : (ops3 : List (HloOp τ sig (Elt F))).Forall fun op => op.writes ⊆ (ops3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference it does not write keeps its contents. -/
theorem after3_of (V : Valuation τ sig (Elt F)) (r : Ref sig .tc) (h : r ∉ ops3_W) :
    after ops3 V (Proc.devRef .tc r) = V (Proc.devRef .tc r) :=
  after_of_writes_sub ops3 V ops3_writes h

/-- Stretch 4 of @main's operations (22 of them): the two column means and the global network. -/
abbrev ops4 : List (HloOp τ sig (Elt F)) :=
  [ nullary main_cst_6 (constant S_ .f32 0x00000000#32),
    binary main_v28 main_cst_6 main_v51 ((fun x v => Host.reduceAdd x v reducesTo_S1200000x64_S64_d0 h_S_) : (⟨S1200000x64, .f32⟩ : BufTy).Contents (Elt F) → (⟨S_, .f32⟩ : BufTy).Contents (Elt F) → (⟨S64, .f32⟩ : BufTy).Contents (Elt F)),
    unary main_v51 main_v52 (broadcastInDim S1x64 ![1] bcast_S64_S1x64_1 : (⟨S64, .f32⟩ : BufTy).Contents (Elt F) → (⟨S1x64, .f32⟩ : BufTy).Contents (Elt F)),
    nullary main_cst_7 (constant S_ .f32 0x49927C00#32),
    unary main_cst_7 main_v53 (broadcastInDim S1x64 ![] bcast_S_S1x64 : (⟨S_, .f32⟩ : BufTy).Contents (Elt F) → (⟨S1x64, .f32⟩ : BufTy).Contents (Elt F)),
    binary main_v52 main_v53 main_v54 (Host.divf : (⟨S1x64, .f32⟩ : BufTy).Contents (Elt F) → (⟨S1x64, .f32⟩ : BufTy).Contents (Elt F) → (⟨S1x64, .f32⟩ : BufTy).Contents (Elt F)),
    nullary main_cst_8 (constant S_ .f32 0x00000000#32),
    binary main_v50 main_cst_8 main_v55 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    unary main_v55 main_v56 (broadcastInDim S1x64 ![1] bcast_S64_S1x64_1 : (⟨S64, .f32⟩ : BufTy).Contents (Elt F) → (⟨S1x64, .f32⟩ : BufTy).Contents (Elt F)),
    nullary main_cst_9 (constant S_ .f32 0x47C35000#32),
    unary main_cst_9 main_v57 (broadcastInDim S1x64 ![] bcast_S_S1x64 : (⟨S_, .f32⟩ : BufTy).Contents (Elt F) → (⟨S1x64, .f32⟩ : BufTy).Contents (Elt F)),
    binary main_v56 main_v57 main_v58 (Host.divf : (⟨S1x64, .f32⟩ : BufTy).Contents (Elt F) → (⟨S1x64, .f32⟩ : BufTy).Contents (Elt F) → (⟨S1x64, .f32⟩ : BufTy).Contents (Elt F)),
    nary ![main_v58, main_v54, main_arg3] main_v59 (fun u => concatenate S1x144 1 [⟨S1x64, u 0⟩, ⟨S1x64, u 1⟩, ⟨S1x16, u 2⟩] concatenates_S1x64_S1x64_S1x16_S1x144_d1),
    binary main_v59 main_arg12 main_v60 ((fun l r => Host.dotGeneral dot_S1x144_S144x128_S1x128_1_0_0_1_n_n none l r) : (⟨S1x144, .f32⟩ : BufTy).Contents (Elt F) → (⟨S144x128, .f32⟩ : BufTy).Contents (Elt F) → (⟨S1x128, .f32⟩ : BufTy).Contents (Elt F)),
    unary main_arg13 main_v61 (broadcastInDim S1x128 ![1] bcast_S128_S1x128_1 : (⟨S128, .f32⟩ : BufTy).Contents (Elt F) → (⟨S1x128, .f32⟩ : BufTy).Contents (Elt F)),
    binary main_v60 main_v61 main_v62 (addf : (⟨S1x128, .f32⟩ : BufTy).Contents (Elt F) → (⟨S1x128, .f32⟩ : BufTy).Contents (Elt F) → (⟨S1x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1x128, .f32⟩) main_call3_v0) (broadcastInDim S1x128 ![] bcast_S_S1x128),
    TRef.binary (TRef.of (T := ⟨S1x128, .f32⟩) main_v62) (TRef.of (T := ⟨S1x128, .f32⟩) main_call3_v0) (TRef.of (T := ⟨S1x128, .f32⟩) main_v63) maximumf,
    binary main_v63 main_arg14 main_v64 ((fun l r => Host.dotGeneral dot_S1x128_S128x16_S1x16_1_0_0_1_n_n none l r) : (⟨S1x128, .f32⟩ : BufTy).Contents (Elt F) → (⟨S128x16, .f32⟩ : BufTy).Contents (Elt F) → (⟨S1x16, .f32⟩ : BufTy).Contents (Elt F)),
    unary main_arg15 main_v65 (broadcastInDim S1x16 ![1] bcast_S16_S1x16_1 : (⟨S16, .f32⟩ : BufTy).Contents (Elt F) → (⟨S1x16, .f32⟩ : BufTy).Contents (Elt F)),
    binary main_v64 main_v65 main_v66 (addf : (⟨S1x16, .f32⟩ : BufTy).Contents (Elt F) → (⟨S1x16, .f32⟩ : BufTy).Contents (Elt F) → (⟨S1x16, .f32⟩ : BufTy).Contents (Elt F)) ]
/-- Each touches TensorCore references only. -/
theorem ops4_sub : (ops4 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., binary_bufs_sub .., unary_bufs_sub .., nullary_bufs_sub .., unary_bufs_sub .., binary_bufs_sub .., nary_bufs_sub .., binary_bufs_sub .., unary_bufs_sub .., binary_bufs_sub .., nullary_bufs_sub .., unary_bufs_sub .., binary_bufs_sub .., binary_bufs_sub .., unary_bufs_sub .., binary_bufs_sub ..⟩
/-- None allocates a buffer. -/
theorem ops4_fresh : (ops4 : List (HloOp τ sig (Elt F))).Forall fun op => op.fresh = ∅ := by
  simp only [List.Forall]; repeat' constructor
/-- The references it writes. -/
abbrev ops4_W : List (Ref sig .tc) := [main_cst_6, main_v51, main_v52, main_cst_7, main_v53, main_v54, main_cst_8, main_v55, main_v56, main_cst_9, main_v57, main_v58, main_v59, main_v60, main_v61, main_v62, main_call3_cst, main_call3_v0, main_v63, main_v64, main_v65, main_v66]
theorem ops4_writes : (ops4 : List (HloOp τ sig (Elt F))).Forall fun op => op.writes ⊆ (ops4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference it does not write keeps its contents. -/
theorem after4_of (V : Valuation τ sig (Elt F)) (r : Ref sig .tc) (h : r ∉ ops4_W) :
    after ops4 V (Proc.devRef .tc r) = V (Proc.devRef .tc r) :=
  after_of_writes_sub ops4 V ops4_writes h

/-- @main's operations, in order: the four stretches. -/
abbrev ops : List (HloOp τ sig (Elt F)) := ops1 ++ (ops2 ++ (ops3 ++ ops4))

set_option maxHeartbeats 4000000 in
/-- @main is the straight line of its operations (a called function's operations standing in its call's place). -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.2 fun op h => by
    simp only [ops, List.mem_append] at h
    rcases h with h | h | h | h
    · exact (List.forall_iff_forall_mem.1 ops1_sub) op h
    · exact (List.forall_iff_forall_mem.1 ops2_sub) op h
    · exact (List.forall_iff_forall_mem.1 ops3_sub) op h
    · exact (List.forall_iff_forall_mem.1 ops4_sub) op h

theorem ops_fresh : ∀ op ∈ (ops : List (HloOp τ sig (Elt F))), op.fresh = ∅ := fun op h => by
  simp only [ops, List.mem_append] at h
  rcases h with h | h | h | h
  · exact (List.forall_iff_forall_mem.1 ops1_fresh) op h
  · exact (List.forall_iff_forall_mem.1 ops2_fresh) op h
  · exact (List.forall_iff_forall_mem.1 ops3_fresh) op h
  · exact (List.forall_iff_forall_mem.1 ops4_fresh) op h

/-- The fold over a concatenation is the folds one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The fold over all of @main's operations, a stretch at a time. -/
theorem after_ops (V : Valuation τ sig (Elt F)) : after ops V = after ops4 (after ops3 (after ops2 (after ops1 V))) := by
  simp only [ops, after_append]

/-- Every weakly fair execution of @main terminates, and every final memory holds in each buffer the fold of the
    operations over that core's launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RunR

end
-- ==== Proof.Ref.RefRun.lean ====
/-
  The reference program's results as functions of its arguments. The fold of @main's 87 operations over any contents
  `W` of the buffers, read at a result's buffer, is that result's stage (the operation's value as a function of the
  arguments it depends on, Proof/Ref/ReadP.lean), and read at an argument's buffer is what was there: every comparison
  of references is between literals, so both sides compute to the same term. Hence the run: every weakly fair
  execution terminates with the three results at their stages of the launch arguments, the arguments unchanged.
-/
import proofs.«408850_j13786845020469_1_alg».proof.Proof.Ref.RunR
import proofs.«408850_j13786845020469_1_alg».proof.Proof.Ref.ReadP

set_option maxRecDepth 65536

noncomputable section

namespace Cert.ReferenceIdeal.RunR

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

section Reads

variable (W : Valuation τ sig (Elt F))

/-- The edge outputs' buffer after all operations: the edge outputs' stage of the arguments. -/
theorem read_v28 : after ops W (Proc.devRef .tc main_v28) = val_main_v28 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  chain_rfl
/-- The node outputs' buffer. -/
theorem read_v50 : after ops W (Proc.devRef .tc main_v50) = val_main_v50 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  chain_rfl
/-- The global output's buffer. -/
theorem read_v66 : after ops W (Proc.devRef .tc main_v66) = val_main_v66 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  chain_rfl

theorem read_arg0 : after ops W (Proc.devRef .tc main_arg0) = W (Proc.devRef .tc main_arg0) := by chain_rfl
theorem read_arg1 : after ops W (Proc.devRef .tc main_arg1) = W (Proc.devRef .tc main_arg1) := by chain_rfl
theorem read_arg2 : after ops W (Proc.devRef .tc main_arg2) = W (Proc.devRef .tc main_arg2) := by chain_rfl
theorem read_arg3 : after ops W (Proc.devRef .tc main_arg3) = W (Proc.devRef .tc main_arg3) := by chain_rfl
theorem read_arg4 : after ops W (Proc.devRef .tc main_arg4) = W (Proc.devRef .tc main_arg4) := by chain_rfl
theorem read_arg5 : after ops W (Proc.devRef .tc main_arg5) = W (Proc.devRef .tc main_arg5) := by chain_rfl
theorem read_arg6 : after ops W (Proc.devRef .tc main_arg6) = W (Proc.devRef .tc main_arg6) := by chain_rfl
theorem read_arg7 : after ops W (Proc.devRef .tc main_arg7) = W (Proc.devRef .tc main_arg7) := by chain_rfl
theorem read_arg8 : after ops W (Proc.devRef .tc main_arg8) = W (Proc.devRef .tc main_arg8) := by chain_rfl
theorem read_arg9 : after ops W (Proc.devRef .tc main_arg9) = W (Proc.devRef .tc main_arg9) := by chain_rfl
theorem read_arg10 : after ops W (Proc.devRef .tc main_arg10) = W (Proc.devRef .tc main_arg10) := by chain_rfl
theorem read_arg11 : after ops W (Proc.devRef .tc main_arg11) = W (Proc.devRef .tc main_arg11) := by chain_rfl
theorem read_arg12 : after ops W (Proc.devRef .tc main_arg12) = W (Proc.devRef .tc main_arg12) := by chain_rfl
theorem read_arg13 : after ops W (Proc.devRef .tc main_arg13) = W (Proc.devRef .tc main_arg13) := by chain_rfl
theorem read_arg14 : after ops W (Proc.devRef .tc main_arg14) = W (Proc.devRef .tc main_arg14) := by chain_rfl
theorem read_arg15 : after ops W (Proc.devRef .tc main_arg15) = W (Proc.devRef .tc main_arg15) := by chain_rfl

end Reads

/-- Every weakly fair execution of the reference's @main terminates, with its three results at their stages of the
    launch arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = val_main_v28 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v50) = val_main_v50 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v28).trans (read_v28 (launchContents m c)),
      (h c main_v50).trans (read_v50 (launchContents m c)),
      (h c main_v66).trans (read_v66 (launchContents m c)),
      (h c main_arg0).trans (read_arg0 (launchContents m c)),
      (h c main_arg1).trans (read_arg1 (launchContents m c)),
      (h c main_arg2).trans (read_arg2 (launchContents m c)),
      (h c main_arg3).trans (read_arg3 (launchContents m c)),
      (h c main_arg4).trans (read_arg4 (launchContents m c)),
      (h c main_arg5).trans (read_arg5 (launchContents m c)),
      (h c main_arg6).trans (read_arg6 (launchContents m c)),
      (h c main_arg7).trans (read_arg7 (launchContents m c)),
      (h c main_arg8).trans (read_arg8 (launchContents m c)),
      (h c main_arg9).trans (read_arg9 (launchContents m c)),
      (h c main_arg10).trans (read_arg10 (launchContents m c)),
      (h c main_arg11).trans (read_arg11 (launchContents m c)),
      (h c main_arg12).trans (read_arg12 (launchContents m c)),
      (h c main_arg13).trans (read_arg13 (launchContents m c)),
      (h c main_arg14).trans (read_arg14 (launchContents m c)),
      (h c main_arg15).trans (read_arg15 (launchContents m c))⟩)
    (run_raw m ρ)

end Cert.ReferenceIdeal.RunR

end
-- ==== Proof.KI.Take.lean ====
/-
  The kernel program's row gather (`jnp.take`, fill mode) under in-range indices. The gather's start index is the
  given index with a negative one wrapped once by the table's height; rows whose wrapped index falls outside
  [0, 99999] are replaced by a fill word. When every index lies in [0, 99999] nothing wraps and nothing is
  replaced, so the result is the plain gather. The precondition states exactly that range for every entry of the
  edge index array, hence for its two rows.
-/
import proofs.«408850_j13786845020469_1_alg».proof.Defs
import proofs.«408850_j13786845020469_1_alg».proof.Proof.Gen.KernelIdeal
import proofs.«408850_j13786845020469_1_alg».proof.Proof.Gen.Pre_finite_inputs
import Idealize.ShloMosaic.Lib.StableHlo.Predicate
import Idealize.ShloMosaic.Lib.ReduceAll
import Idealize.ShloMosaic.Lib.Pipeline.Value
import Idealize.ShloMosaic.Lib.ValueIdx

noncomputable section

namespace Cert.KernelIdeal.Take

open Cert.KernelIdeal Cert.KernelIdeal.Gen Idealize.ShloMosaic Idealize.ShloMosaic.TcCoe Idealize.SL.Sem

variable {F : FTy → Type} [FloatOps F]

/-- A word in the node range: at least 0 and at most 99999, signed. -/
def InRange (w : BitVec 32) : Prop := IntOp.cmpi .sge w 0#32 = 1#1 ∧ IntOp.cmpi .sle w 99999#32 = 1#1

/-- The source-node row of the edge index array. -/
def rowOf (ei : IVec S2x1200000 32) : IVec S1200000 32 :=
  shapeCast _ (extractStridedSlice S1x1200000 ![0, 0] ei slices_S2x1200000_S1x1200000_0_0) shapeCasts_S1x1200000_S1200000
/-- The target-node row of the edge index array. -/
def colOf (ei : IVec S2x1200000 32) : IVec S1200000 32 :=
  shapeCast _ (extractStridedSlice S1x1200000 ![1, 0] ei slices_S2x1200000_S1x1200000_1_0) shapeCasts_S1x1200000_S1200000

/-- An index with a negative one wrapped once by the table's height. -/
def wrapIdx (idx : IVec S1200000 32) : IVec S1200000 32 :=
  select (cmpi .slt idx (broadcastInDim S1200000 ![] bcast_S_S1200000 (constantI S_ 32 0#32)))
    (addi idx (broadcastInDim S1200000 ![] bcast_S_S1200000 (constantI S_ 32 100000#32))) idx
/-- The gather's column of start indices. -/
def startIdx (idx : IVec S1200000 32) : IVec S1200000x1 32 :=
  broadcastInDim S1200000x1 ![0] bcast_S1200000_S1200000x1_0 (wrapIdx idx)
/-- Which rows the fill-mode gather keeps: those whose start index lies in [0, 99999]. -/
def takeMask (idx : IVec S1200000 32) : IVec S1200000 1 :=
  Host.reduce IntOp.andi
    (andi (cmpi .sge (startIdx idx) (broadcastInDim S1200000x1 ![] bcast_S_S1200000x1 (constantI S_ 32 0#32)))
      (cmpi .sle (startIdx idx) (broadcastInDim S1200000x1 ![0, 1] bcast_S1x1_S1200000x1_0_1 (broadcastInDim S1x1 ![1] bcast_S1_S1x1_1 (constantI S1 32 99999#32)))))
    (constantI S_ 1 1#1) reducesTo_S1200000x1_S1200000_d1 h_S_
/-- The fill-mode row gather as the program computes it. -/
def takeFn (x : FVec F S100000x64 .f32) (idx : IVec S1200000 32) : FVec F S1200000x64 .f32 :=
  select (broadcastInDim S1200000x64 ![0] bcast_S1200000_S1200000x64_0 (takeMask idx))
    (Host.gather gather_S100000x64_S1200000x1_S1200000x64_1_0_n_n_0_1_164 x (startIdx idx))
    (broadcastInDim S1200000x64 ![] bcast_S_S1200000x64 (constant S_ .f32 0x7FC00000#32))

/-- The scalar shape has one index. -/
private instance : Subsingleton Cert.Pre_finite_inputs.S_.Idx := ⟨fun a b => funext fun d => d.elim0⟩

/-- A word in the node range, read as a signed integer, lies between 0 and 99999. -/
private theorem toInt_of_inRange {w : BitVec 32} (h : InRange w) : 0 ≤ w.toInt ∧ w.toInt ≤ 99999 := by
  obtain ⟨h0, h1⟩ := h
  have e0 : (0#32 : BitVec 32).toInt = 0 := by decide
  have e1 : (99999#32 : BitVec 32).toInt = 99999 := by decide
  have a0 := IntOp.cmpi_sge.1 h0
  have a1 := IntOp.cmpi_sle.1 h1
  rw [e0] at a0
  rw [e1] at a1
  exact ⟨a0, a1⟩

/-- A word in the node range is not negative: the signed test "below 0" fails on it. -/
private theorem slt_zero_of_inRange {w : BitVec 32} (h : InRange w) : IntOp.cmpi .slt w 0#32 = 0#1 := by
  have e0 : (0#32 : BitVec 32).toInt = 0 := by decide
  have hn : ¬ IntOp.cmpi .slt w 0#32 = 1#1 := by
    intro hc
    have hlt := IntOp.cmpi_slt.1 hc
    rw [e0] at hlt
    exact absurd (toInt_of_inRange h).1 (not_le.2 hlt)
  exact ValueIdx.eq_zero_of_ne_one hn

/-- A left fold by `and` that starts at 1 and meets only 1s is 1. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- An and-reduction from 1 of an array whose every bit is 1 is 1 at every result index. -/
private theorem reduce_andi_of_all {s t u : Shape} {axes : List (Fin s.rank)} (x : s.Idx → BitVec 1) (init : u.Idx → BitVec 1)
    (hr : s.ReducesTo axes t) (hu : 0 < u.numel) (hx : ∀ i, x i = 1#1) (hi : ∀ k, init k = 1#1) (j : t.Idx) :
    Host.reduce IntOp.andi x init hr hu j = 1#1 := by
  unfold Host.reduce
  rw [hi]
  exact foldl_andi_ones (fun n => x (s.rowMajor.symm n)) (fun n => hx _) _

/-- The precondition puts every entry of the edge index array in the node range. -/
theorem inRange_of_pre (m : (ℓ : Loc nD τ sig) → Buf (Elt Ideal) ℓ) (hpre : Cert.Pre_KernelIdeal m) (c : Dev nD)
    (i : S2x1200000.Idx) : InRange (m ((c.tc : Thread nD τ).loc main_arg1) i) := by
  -- at this core the precondition says a one-bit word is 1; that word is a conjunction whose last two conjuncts are the two range tests
  have hc := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at hc
  obtain ⟨hrest, hle⟩ := IntOp.andi_eq_one.1 hc
  obtain ⟨_, hge⟩ := IntOp.andi_eq_one.1 hrest
  -- each test is an and-reduction over the whole array: every entry passes it
  exact ⟨Host.reduce_andi_all _ _ _ _ _ hge i, Host.reduce_andi_all _ _ _ _ _ hle i⟩

/-- If every entry is in range, so is every entry of the source row, -/
theorem rowOf_inRange (ei : IVec S2x1200000 32) (h : ∀ i, InRange (ei i)) (j : S1200000.Idx) : InRange (rowOf ei j) := by
  unfold rowOf shapeCast extractStridedSlice
  exact h _
/-- and of the target row. -/
theorem colOf_inRange (ei : IVec S2x1200000 32) (h : ∀ i, InRange (ei i)) (j : S1200000.Idx) : InRange (colOf ei j) := by
  unfold colOf shapeCast extractStridedSlice
  exact h _

/-- An in-range index is not wrapped. -/
theorem wrapIdx_of_inRange (idx : IVec S1200000 32) (h : ∀ j, InRange (idx j)) : wrapIdx idx = idx := by
  funext j
  -- at an index the wrap is the select on "below 0" between the index plus the height and the index itself
  show Scalar.select (IntOp.cmpi .slt (idx j) 0#32) (IntOp.addi (idx j) 100000#32) (idx j) = idx j
  rw [slt_zero_of_inRange (h j)]
  exact ValueIdx.select_zero _ _

/-- Every start index is one of the given indices, hence in range. -/
private theorem startIdx_inRange (idx : IVec S1200000 32) (h : ∀ j, InRange (idx j)) (k : S1200000x1.Idx) :
    InRange (startIdx idx k) := by
  unfold startIdx
  rw [wrapIdx_of_inRange idx h]
  unfold broadcastInDim
  exact h _

/-- Under in-range indices the fill-mode gather keeps every row. -/
private theorem takeMask_of_inRange (idx : IVec S1200000 32) (h : ∀ j, InRange (idx j)) (r : S1200000.Idx) :
    takeMask idx r = 1#1 := by
  unfold takeMask
  refine reduce_andi_of_all _ _ _ _ (fun k => ?_) (fun _ => rfl) r
  -- the bit at a row is the conjunction of the two range tests of that row's start index
  show IntOp.andi (IntOp.cmpi .sge (startIdx idx k) 0#32) (IntOp.cmpi .sle (startIdx idx k) 99999#32) = 1#1
  exact IntOp.andi_eq_one.2 (startIdx_inRange idx h k)

/-- Under in-range indices the fill-mode gather is the plain gather at the (unwrapped) start indices. -/
theorem takeFn_eq_gather (x : FVec F S100000x64 .f32) (idx : IVec S1200000 32) (h : ∀ j, InRange (idx j)) :
    takeFn x idx = Host.gather gather_S100000x64_S1200000x1_S1200000x64_1_0_n_n_0_1_164 x (startIdx idx) := by
  funext i
  unfold takeFn
  rw [ValueIdx.select_apply]
  have hm : broadcastInDim S1200000x64 ![0] bcast_S1200000_S1200000x64_0 (takeMask idx) i = 1#1 := by
    unfold broadcastInDim
    exact takeMask_of_inRange idx h _
  rw [hm]
  exact ValueIdx.select_one _ _

end Cert.KernelIdeal.Take

end
-- ==== Proof.KI.HostVal.lean ====
/-
  What the host stretches of the kernel program leave in the buffers the two regions and the results read, as functions
  of the launch memory and of what the regions leave.
  * Before the edge region: the two fill-mode row gathers of the node features (at the edge index array's two rows),
    the three 64-row slices of the first weight matrix, the effective first bias (the bias as a row plus the global
    features times the first 16 rows), the second bias as a row; the edge attributes and the second weight matrix
    are arguments, untouched.
  * Between the regions: the mean aggregation of the edge region's output onto the source nodes (`kAgg`), the node
    network's two weight slices, effective bias and bias row.
  * After the node region: the small global network of the two regions' outputs' column means (`kGlob`).
  Everything is stated at any float instance, and for ANY contents the regions may leave.
-/
import proofs.«408850_j13786845020469_1_alg».proof.Proof.Gen.KernelIdeal.Regions
import proofs.«408850_j13786845020469_1_alg».proof.Proof.KI.Take
import Idealize.ShloMosaic.Lib.StableHlo.Run

set_option maxRecDepth 16384

noncomputable section

namespace Cert.KernelIdeal.HostVal

open Cert.KernelIdeal Cert.KernelIdeal.Gen Cert.KernelIdeal.Take
open Idealize.ShloMosaic Idealize.ShloMosaic.TcCoe Idealize.SL.Sem Idealize.ShloMosaic.StableHlo

variable {F : FTy → Type} [FloatOps F]

/-! ## The shared chains, over the kernel program's own shape facts -/

/-- Mean aggregation: per node and feature, the sum of the messages of the edges whose source is that node, over the
    number of such edges clipped below at one. -/
def kAgg (E : FVec F S1200000x64 .f32) (row : IVec S1200000 32) : FVec F S100000x64 .f32 :=
  Host.divf
    (Host.scatterAdd scatter_S100000x64_S1200000x1_S1200000x64_1_0_0_1
      (broadcastInDim S100000x64 ![] bcast_S_S100000x64 (constant S_ .f32 0x00000000#32))
      (broadcastInDim S1200000x1 ![0] bcast_S1200000_S1200000x1_0 row) E)
    (broadcastInDim S100000x64 ![0, 1] bcast_S100000x1_S100000x64_0_1
      (broadcastInDim S100000x1 ![0] bcast_S100000_S100000x1_0
        (maximumf (broadcastInDim S100000 ![] bcast_S_S100000 (id (constant S_ .f32 0x3F800000#32)))
          (Host.scatterAdd scatter_S100000_S1200000x1_S1200000_n_0_0_1
            (broadcastInDim S100000 ![] bcast_S_S100000 (constant S_ .f32 0x00000000#32))
            (broadcastInDim S1200000x1 ![0] bcast_S1200000_S1200000x1_0 row)
            (broadcastInDim S1200000 ![] bcast_S_S1200000 (constant S_ .f32 0x3F800000#32))))))

/-- The global network's hidden layer before the clip: the node outputs' and the edge outputs' column means and the
    global features, concatenated, through the first linear layer. -/
def kGlobHid (E : FVec F S1200000x64 .f32) (N : FVec F S100000x64 .f32) (g : FVec F S1x16 .f32) (Wg1 : FVec F S144x128 .f32)
    (bg1 : FVec F S128 .f32) : FVec F S1x128 .f32 :=
  addf
    (Host.dotGeneral dot_S1x144_S144x128_S1x128_1_0_0_1_n_n none
      (concatenate S1x144 1
        [⟨S1x64, Host.divf (broadcastInDim S1x64 ![1] bcast_S64_S1x64_1 (Host.reduceAdd N (constant S_ .f32 0x00000000#32) reducesTo_S100000x64_S64_d0 h_S_))
            (broadcastInDim S1x64 ![] bcast_S_S1x64 (constant S_ .f32 0x47C35000#32))⟩,
         ⟨S1x64, Host.divf (broadcastInDim S1x64 ![1] bcast_S64_S1x64_1 (Host.reduceAdd E (constant S_ .f32 0x00000000#32) reducesTo_S1200000x64_S64_d0 h_S_))
            (broadcastInDim S1x64 ![] bcast_S_S1x64 (constant S_ .f32 0x49927C00#32))⟩,
         ⟨S1x16, g⟩] concatenates_S1x64_S1x64_S1x16_S1x144_d1)
      Wg1)
    (broadcastInDim S1x128 ![1] bcast_S128_S1x128_1 bg1)

/-- The global network's output from its hidden layer: the clip below at zero and the second linear layer. -/
def kGlobOut (h : FVec F S1x128 .f32) (Wg2 : FVec F S128x16 .f32) (bg2 : FVec F S16 .f32) : FVec F S1x16 .f32 :=
  addf
    (Host.dotGeneral dot_S1x128_S128x16_S1x16_1_0_0_1_n_n none
      (maximumf h (broadcastInDim S1x128 ![] bcast_S_S1x128 (constant S_ .f32 0x00000000#32)))
      Wg2)
    (broadcastInDim S1x16 ![1] bcast_S16_S1x16_1 bg2)

/-- The global network. -/
def kGlob (E : FVec F S1200000x64 .f32) (N : FVec F S100000x64 .f32) (g : FVec F S1x16 .f32) (Wg1 : FVec F S144x128 .f32)
    (bg1 : FVec F S128 .f32) (Wg2 : FVec F S128x16 .f32) (bg2 : FVec F S16 .f32) : FVec F S1x16 .f32 :=
  kGlobOut (kGlobHid E N g Wg1 bg1) Wg2 bg2

/-- The effective first bias of a network whose first weight matrix has `S` rows: the bias as a row plus the global
    features against the matrix's first 16 rows (given as that slice). -/
def effBias (b : FVec F S128 .f32) (g : FVec F S1x16 .f32) (W16 : FVec F S16x128 .f32) : FVec F S1x128 .f32 :=
  addf (shapeCast _ b shapeCasts_S128_S1x128) (Host.dotGeneral dot_S1x16_S16x128_S1x128_1_0_0_1_n_n none g W16)

/-! ## The typed references' transports are identities at literal references -/

theorem ofBuf_toBuf {T : BufTy} (x : TRef sig T) (v : T.Contents (Elt F)) : x.ofBuf (x.toBuf v) = v := by
  obtain ⟨r, h, h2, h3⟩ := x
  subst h
  rfl

theorem toBuf_v4 (h1 h2 h3) (v : FVec F S1200000x64 .f32) :
    (TRef.of (sig := sig) (T := ⟨S1200000x64, .f32⟩) main_v4 h1 h2 h3).toBuf (Val := Elt F) v = v := rfl
theorem toBuf_v5 (h1 h2 h3) (v : FVec F S1200000x64 .f32) :
    (TRef.of (sig := sig) (T := ⟨S1200000x64, .f32⟩) main_v5 h1 h2 h3).toBuf (Val := Elt F) v = v := rfl
theorem ofBuf_v1 (h1 h2 h3) (v : IVec S1200000 32) :
    (TRef.of (sig := sig) (T := ⟨S1200000, .i32⟩) main_v1 h1 h2 h3).ofBuf (Val := Elt F) v = v := rfl
theorem ofBuf_v3 (h1 h2 h3) (v : IVec S1200000 32) :
    (TRef.of (sig := sig) (T := ⟨S1200000, .i32⟩) main_v3 h1 h2 h3).ofBuf (Val := Elt F) v = v := rfl
theorem ofBuf_arg0 (h1 h2 h3) (v : FVec F S100000x64 .f32) :
    (TRef.of (sig := sig) (T := ⟨S100000x64, .f32⟩) main_arg0 h1 h2 h3).ofBuf (Val := Elt F) v = v := rfl
theorem ofBuf_cst_2 (h1 h2 h3) (v : FVec F S_ .f32) :
    (TRef.of (sig := sig) (T := ⟨S_, .f32⟩) main_cst_2 h1 h2 h3).ofBuf (Val := Elt F) v = v := rfl
theorem ofBuf_v21 (h1 h2 h3) (v : FVec F S100000 .f32) :
    (TRef.of (sig := sig) (T := ⟨S100000, .f32⟩) main_v21 h1 h2 h3).ofBuf (Val := Elt F) v = v := rfl
theorem toBuf_v22 (h1 h2 h3) (v : FVec F S100000 .f32) :
    (TRef.of (sig := sig) (T := ⟨S100000, .f32⟩) main_v22 h1 h2 h3).toBuf (Val := Elt F) v = v := rfl
theorem ofBuf_v45 (h1 h2 h3) (v : FVec F S1x128 .f32) :
    (TRef.of (sig := sig) (T := ⟨S1x128, .f32⟩) main_v45 h1 h2 h3).ofBuf (Val := Elt F) v = v := rfl
theorem toBuf_v46 (h1 h2 h3) (v : FVec F S1x128 .f32) :
    (TRef.of (sig := sig) (T := ⟨S1x128, .f32⟩) main_v46 h1 h2 h3).toBuf (Val := Elt F) v = v := rfl

/-! ## Each stretch read from ANY contents `W` of the buffers before it -/

section Reads

variable (W : Valuation τ sig (Elt F))

set_option maxHeartbeats 4000000 in
/-- The first stretch leaves the edge index array's source row in `main_v1`, -/
theorem read_v1 : StableHlo.after hostOps0 W (Proc.devRef .tc main_v1) = rowOf (W (Proc.devRef .tc main_arg1)) := by
  after_results_simp <;> rfl
set_option maxHeartbeats 4000000 in
/-- and its target row in `main_v3`. -/
theorem read_v3 : StableHlo.after hostOps0 W (Proc.devRef .tc main_v3) = colOf (W (Proc.devRef .tc main_arg1)) := by
  after_results_simp <;> rfl

set_option maxHeartbeats 8000000 in
/-- The second stretch: the fill-mode gather of the node features at the source row. -/
theorem read_v4 : StableHlo.after hostOps0_1 W (Proc.devRef .tc main_v4) = takeFn (W (Proc.devRef .tc main_arg0)) (W (Proc.devRef .tc main_v1)) := by
  after_results_simp
  simp only [ofBuf_toBuf, toBuf_v4, toBuf_v5, ofBuf_v1, ofBuf_v3, ofBuf_arg0, ofBuf_cst_2, ofBuf_v21, toBuf_v22, ofBuf_v45, toBuf_v46]
  first | (with_reducible rfl) | (unfold takeFn takeMask startIdx wrapIdx; with_reducible rfl)
set_option maxHeartbeats 8000000 in
/-- The third stretch: the same at the target row. -/
theorem read_v5 : StableHlo.after hostOps0_2 W (Proc.devRef .tc main_v5) = takeFn (W (Proc.devRef .tc main_arg0)) (W (Proc.devRef .tc main_v3)) := by
  after_results_simp
  simp only [ofBuf_toBuf, toBuf_v4, toBuf_v5, ofBuf_v1, ofBuf_v3, ofBuf_arg0, ofBuf_cst_2, ofBuf_v21, toBuf_v22, ofBuf_v45, toBuf_v46]
  first | (with_reducible rfl) | (unfold takeFn takeMask startIdx wrapIdx; with_reducible rfl)

set_option maxHeartbeats 4000000 in
/-- The fourth stretch: the first weight matrix's rows [16, 80), -/
theorem read_v6 : StableHlo.after hostOps0_3 W (Proc.devRef .tc main_v6) = extractStridedSlice S64x128 ![16, 0] (W (Proc.devRef .tc main_arg4)) slices_S208x128_S64x128_16_0 := by
  after_results_simp <;> rfl
set_option maxHeartbeats 4000000 in
/-- rows [80, 144), -/
theorem read_v7 : StableHlo.after hostOps0_3 W (Proc.devRef .tc main_v7) = extractStridedSlice S64x128 ![80, 0] (W (Proc.devRef .tc main_arg4)) slices_S208x128_S64x128_80_0 := by
  after_results_simp <;> rfl
set_option maxHeartbeats 4000000 in
/-- rows [144, 208), -/
theorem read_v8 : StableHlo.after hostOps0_3 W (Proc.devRef .tc main_v8) = extractStridedSlice S64x128 ![144, 0] (W (Proc.devRef .tc main_arg4)) slices_S208x128_S64x128_144_0 := by
  after_results_simp <;> rfl
set_option maxHeartbeats 4000000 in
/-- the effective first bias, -/
theorem read_v12 : StableHlo.after hostOps0_3 W (Proc.devRef .tc main_v12)
    = effBias (W (Proc.devRef .tc main_arg5)) (W (Proc.devRef .tc main_arg3)) (extractStridedSlice S16x128 ![0, 0] (W (Proc.devRef .tc main_arg4)) slices_S208x128_S16x128_0_0) := by
  after_results_simp <;> rfl
set_option maxHeartbeats 4000000 in
/-- and the second bias as a row. -/
theorem read_v13 : StableHlo.after hostOps0_3 W (Proc.devRef .tc main_v13) = shapeCast _ (W (Proc.devRef .tc main_arg7)) shapeCasts_S64_S1x64 := by
  after_results_simp <;> rfl

set_option maxHeartbeats 16000000 in
/-- The three stretches between the regions: the aggregated messages, -/
theorem read_v25 : StableHlo.after hostOps1_2 (StableHlo.after hostOps1_1 (StableHlo.after hostOps1 W)) (Proc.devRef .tc main_v25)
      = kAgg (W (Proc.devRef .tc main_v14)) (W (Proc.devRef .tc main_v1)) := by
  after_results_simp
  simp only [ofBuf_toBuf, toBuf_v4, toBuf_v5, ofBuf_v1, ofBuf_v3, ofBuf_arg0, ofBuf_cst_2, ofBuf_v21, toBuf_v22, ofBuf_v45, toBuf_v46]
  first | (with_reducible rfl) | (unfold kAgg; with_reducible rfl)
set_option maxHeartbeats 4000000 in
/-- the node network's first weight matrix's rows [16, 80), -/
theorem read_v26 : StableHlo.after hostOps1_2 W (Proc.devRef .tc main_v26) = extractStridedSlice S64x128 ![16, 0] (W (Proc.devRef .tc main_arg8)) slices_S144x128_S64x128_16_0 := by
  after_results_simp <;> rfl
set_option maxHeartbeats 4000000 in
/-- rows [80, 144), -/
theorem read_v27 : StableHlo.after hostOps1_2 W (Proc.devRef .tc main_v27) = extractStridedSlice S64x128 ![80, 0] (W (Proc.devRef .tc main_arg8)) slices_S144x128_S64x128_80_0 := by
  after_results_simp <;> rfl
set_option maxHeartbeats 4000000 in
/-- its effective first bias, -/
theorem read_v31 : StableHlo.after hostOps1_2 W (Proc.devRef .tc main_v31)
    = effBias (W (Proc.devRef .tc main_arg9)) (W (Proc.devRef .tc main_arg3)) (extractStridedSlice S16x128 ![0, 0] (W (Proc.devRef .tc main_arg8)) slices_S144x128_S16x128_0_0) := by
  after_results_simp <;> rfl
set_option maxHeartbeats 4000000 in
/-- and its second bias as a row. -/
theorem read_v32 : StableHlo.after hostOps1_2 W (Proc.devRef .tc main_v32) = shapeCast _ (W (Proc.devRef .tc main_arg11)) shapeCasts_S64_S1x64 := by
  after_results_simp <;> rfl

set_option maxHeartbeats 16000000 in
/-- The first of the last stretches: the global network's hidden layer before the clip, -/
theorem read_v45 : StableHlo.after hostOps2 W (Proc.devRef .tc main_v45)
      = kGlobHid (W (Proc.devRef .tc main_v14)) (W (Proc.devRef .tc main_v33)) (W (Proc.devRef .tc main_arg3)) (W (Proc.devRef .tc main_arg12)) (W (Proc.devRef .tc main_arg13)) := by
  after_results
  rfl
set_option maxHeartbeats 16000000 in
/-- and the two after it: the clip and the second layer. -/
theorem read_v49 : StableHlo.after hostOps2_2 (StableHlo.after hostOps2_1 W) (Proc.devRef .tc main_v49)
      = kGlobOut (W (Proc.devRef .tc main_v45)) (W (Proc.devRef .tc main_arg14)) (W (Proc.devRef .tc main_arg15)) := by
  after_results_simp
  simp only [ofBuf_toBuf, toBuf_v4, toBuf_v5, ofBuf_v1, ofBuf_v3, ofBuf_arg0, ofBuf_cst_2, ofBuf_v21, toBuf_v22, ofBuf_v45, toBuf_v46]
  first | (with_reducible rfl) | (unfold kGlobOut; with_reducible rfl)

end Reads

variable (m : (ℓ : Loc nD τ sig) → Buf (Elt F) ℓ) (outs : Outs (F := F)) (c : Dev nD)

/-! ## Launch contents that no item has touched yet -/

theorem V1_launch (r : Ref sig .tc) (h0 : r ∉ hostOps0_W) : V1 m c r = m ((c : Thread nD τ).loc r) :=
  (V1_of m c r h0).trans rfl
theorem V2_launch (r : Ref sig .tc) (h0 : r ∉ hostOps0_W) (h1 : r ∉ hostOps0_1_W) : V2 m c r = m ((c : Thread nD τ).loc r) :=
  (V2_of m c r h1).trans (V1_launch m c r h0)
theorem V3_launch (r : Ref sig .tc) (h0 : r ∉ hostOps0_W) (h1 : r ∉ hostOps0_1_W) (h2 : r ∉ hostOps0_2_W) :
    V3 m c r = m ((c : Thread nD τ).loc r) :=
  (V3_of m c r h2).trans (V2_launch m c r h0 h1)
theorem V4_launch (r : Ref sig .tc) (h0 : r ∉ hostOps0_W) (h1 : r ∉ hostOps0_1_W) (h2 : r ∉ hostOps0_2_W) (h3 : r ∉ hostOps0_3_W) :
    V4 m c r = m ((c : Thread nD τ).loc r) :=
  (V4_of m c r h3).trans (V3_launch m c r h0 h1 h2)
theorem V7_launch (r : Ref sig .tc) (h0 : r ∉ hostOps0_W) (h1 : r ∉ hostOps0_1_W) (h2 : r ∉ hostOps0_2_W) (h3 : r ∉ hostOps0_3_W)
    (h4 : r ∉ ([main_v14] : List (Ref sig .tc))) (h5 : r ∉ hostOps1_W) (h6 : r ∉ hostOps1_1_W) :
    V7 m outs c r = m ((c : Thread nD τ).loc r) :=
  (V7_of m outs c r h6).trans <| (V6_of m outs c r h5).trans <| (V5_of m outs c r h4).trans (V4_launch m c r h0 h1 h2 h3)
theorem V8_launch (r : Ref sig .tc) (h0 : r ∉ hostOps0_W) (h1 : r ∉ hostOps0_1_W) (h2 : r ∉ hostOps0_2_W) (h3 : r ∉ hostOps0_3_W)
    (h4 : r ∉ ([main_v14] : List (Ref sig .tc))) (h5 : r ∉ hostOps1_W) (h6 : r ∉ hostOps1_1_W) (h7 : r ∉ hostOps1_2_W) :
    V8 m outs c r = m ((c : Thread nD τ).loc r) :=
  (V8_of m outs c r h7).trans (V7_launch m outs c r h0 h1 h2 h3 h4 h5 h6)
theorem V9_launch (r : Ref sig .tc) (h0 : r ∉ hostOps0_W) (h1 : r ∉ hostOps0_1_W) (h2 : r ∉ hostOps0_2_W) (h3 : r ∉ hostOps0_3_W)
    (h4 : r ∉ ([main_v14] : List (Ref sig .tc))) (h5 : r ∉ hostOps1_W) (h6 : r ∉ hostOps1_1_W) (h7 : r ∉ hostOps1_2_W)
    (h8 : r ∉ ([main_v33] : List (Ref sig .tc))) : V9 m outs c r = m ((c : Thread nD τ).loc r) :=
  (V9_of m outs c r h8).trans (V8_launch m outs c r h0 h1 h2 h3 h4 h5 h6 h7)

/-! ## Before the edge region -/

/-- The source row of the edge index array, after the first stretch. -/
theorem V1_v1 : V1 m c main_v1 = rowOf (m ((c : Thread nD τ).loc main_arg1)) := read_v1 (V0 m c)
/-- The target row. -/
theorem V1_v3 : V1 m c main_v3 = colOf (m ((c : Thread nD τ).loc main_arg1)) := read_v3 (V0 m c)

/-- The gathered source rows. -/
theorem V4_v4 : V4 m c main_v4 = takeFn (m ((c : Thread nD τ).loc main_arg0)) (rowOf (m ((c : Thread nD τ).loc main_arg1))) := by
  rw [V4_of m c main_v4 (by decide), V3_of m c main_v4 (by decide)]
  refine (read_v4 (V1 m c)).trans ?_
  rw [show V1 m c (Proc.devRef .tc main_v1) = rowOf (m ((c : Thread nD τ).loc main_arg1)) from V1_v1 m c,
    show V1 m c (Proc.devRef .tc main_arg0) = m ((c : Thread nD τ).loc main_arg0) from V1_launch m c main_arg0 (by decide)]
/-- The gathered target rows. -/
theorem V4_v5 : V4 m c main_v5 = takeFn (m ((c : Thread nD τ).loc main_arg0)) (colOf (m ((c : Thread nD τ).loc main_arg1))) := by
  rw [V4_of m c main_v5 (by decide)]
  refine (read_v5 (V2 m c)).trans ?_
  rw [show V2 m c (Proc.devRef .tc main_v3) = colOf (m ((c : Thread nD τ).loc main_arg1)) from (V2_of m c main_v3 (by decide)).trans (V1_v3 m c),
    show V2 m c (Proc.devRef .tc main_arg0) = m ((c : Thread nD τ).loc main_arg0) from V2_launch m c main_arg0 (by decide) (by decide)]

theorem V4_arg2 : V4 m c main_arg2 = m ((c : Thread nD τ).loc main_arg2) := V4_launch m c main_arg2 (by decide) (by decide) (by decide) (by decide)
theorem V4_arg6 : V4 m c main_arg6 = m ((c : Thread nD τ).loc main_arg6) := V4_launch m c main_arg6 (by decide) (by decide) (by decide) (by decide)

/-- The first weight matrix's rows [16, 80). -/
theorem V4_v6 : V4 m c main_v6 = extractStridedSlice S64x128 ![16, 0] (m ((c : Thread nD τ).loc main_arg4)) slices_S208x128_S64x128_16_0 := by
  refine (read_v6 (V3 m c)).trans ?_
  rw [show V3 m c (Proc.devRef .tc main_arg4) = m ((c : Thread nD τ).loc main_arg4) from V3_launch m c main_arg4 (by decide) (by decide) (by decide)]
/-- Rows [80, 144). -/
theorem V4_v7 : V4 m c main_v7 = extractStridedSlice S64x128 ![80, 0] (m ((c : Thread nD τ).loc main_arg4)) slices_S208x128_S64x128_80_0 := by
  refine (read_v7 (V3 m c)).trans ?_
  rw [show V3 m c (Proc.devRef .tc main_arg4) = m ((c : Thread nD τ).loc main_arg4) from V3_launch m c main_arg4 (by decide) (by decide) (by decide)]
/-- Rows [144, 208). -/
theorem V4_v8 : V4 m c main_v8 = extractStridedSlice S64x128 ![144, 0] (m ((c : Thread nD τ).loc main_arg4)) slices_S208x128_S64x128_144_0 := by
  refine (read_v8 (V3 m c)).trans ?_
  rw [show V3 m c (Proc.devRef .tc main_arg4) = m ((c : Thread nD τ).loc main_arg4) from V3_launch m c main_arg4 (by decide) (by decide) (by decide)]
/-- The effective first bias. -/
theorem V4_v12 : V4 m c main_v12 = effBias (m ((c : Thread nD τ).loc main_arg5)) (m ((c : Thread nD τ).loc main_arg3))
    (extractStridedSlice S16x128 ![0, 0] (m ((c : Thread nD τ).loc main_arg4)) slices_S208x128_S16x128_0_0) := by
  refine (read_v12 (V3 m c)).trans ?_
  rw [show V3 m c (Proc.devRef .tc main_arg4) = m ((c : Thread nD τ).loc main_arg4) from V3_launch m c main_arg4 (by decide) (by decide) (by decide),
    show V3 m c (Proc.devRef .tc main_arg3) = m ((c : Thread nD τ).loc main_arg3) from V3_launch m c main_arg3 (by decide) (by decide) (by decide),
    show V3 m c (Proc.devRef .tc main_arg5) = m ((c : Thread nD τ).loc main_arg5) from V3_launch m c main_arg5 (by decide) (by decide) (by decide)]
/-- The second bias as a row. -/
theorem V4_v13 : V4 m c main_v13 = shapeCast _ (m ((c : Thread nD τ).loc main_arg7)) shapeCasts_S64_S1x64 := by
  refine (read_v13 (V3 m c)).trans ?_
  rw [show V3 m c (Proc.devRef .tc main_arg7) = m ((c : Thread nD τ).loc main_arg7) from V3_launch m c main_arg7 (by decide) (by decide) (by decide)]

/-! ## Between the regions -/

/-- What the edge region left in its output array is still there when the stretches after it read it. -/
theorem V5_v14 : V5 m outs c main_v14 = outs 5 main_v14 c := by
  show Function.update (V4 m c) (Proc.devRef .tc main_v14) (outs 5 main_v14 c) (Proc.devRef .tc main_v14) = _
  rw [Function.update_self]
/-- The source row is still there too. -/
theorem V5_v1 : V5 m outs c main_v1 = rowOf (m ((c : Thread nD τ).loc main_arg1)) :=
  (V5_of m outs c main_v1 (by decide)).trans <| (V4_of m c main_v1 (by decide)).trans <| (V3_of m c main_v1 (by decide)).trans <|
    (V2_of m c main_v1 (by decide)).trans (V1_v1 m c)

/-- The aggregated messages the node region reads. -/
theorem V8_v25 : V8 m outs c main_v25 = kAgg (outs 5 main_v14 c) (rowOf (m ((c : Thread nD τ).loc main_arg1))) := by
  refine (read_v25 (V5 m outs c)).trans ?_
  rw [show V5 m outs c (Proc.devRef .tc main_v14) = outs 5 main_v14 c from V5_v14 m outs c,
    show V5 m outs c (Proc.devRef .tc main_v1) = rowOf (m ((c : Thread nD τ).loc main_arg1)) from V5_v1 m outs c]

theorem V8_arg0 : V8 m outs c main_arg0 = m ((c : Thread nD τ).loc main_arg0) :=
  V8_launch m outs c main_arg0 (by decide) (by decide) (by decide) (by decide) (by decide) (by decide) (by decide) (by decide)
theorem V8_arg10 : V8 m outs c main_arg10 = m ((c : Thread nD τ).loc main_arg10) :=
  V8_launch m outs c main_arg10 (by decide) (by decide) (by decide) (by decide) (by decide) (by decide) (by decide) (by decide)

/-- The node network's first weight matrix's rows [16, 80). -/
theorem V8_v26 : V8 m outs c main_v26 = extractStridedSlice S64x128 ![16, 0] (m ((c : Thread nD τ).loc main_arg8)) slices_S144x128_S64x128_16_0 := by
  refine (read_v26 (V7 m outs c)).trans ?_
  rw [show V7 m outs c (Proc.devRef .tc main_arg8) = m ((c : Thread nD τ).loc main_arg8) from
    V7_launch m outs c main_arg8 (by decide) (by decide) (by decide) (by decide) (by decide) (by decide) (by decide)]
/-- Rows [80, 144). -/
theorem V8_v27 : V8 m outs c main_v27 = extractStridedSlice S64x128 ![80, 0] (m ((c : Thread nD τ).loc main_arg8)) slices_S144x128_S64x128_80_0 := by
  refine (read_v27 (V7 m outs c)).trans ?_
  rw [show V7 m outs c (Proc.devRef .tc main_arg8) = m ((c : Thread nD τ).loc main_arg8) from
    V7_launch m outs c main_arg8 (by decide) (by decide) (by decide) (by decide) (by decide) (by decide) (by decide)]
/-- The node network's effective first bias. -/
theorem V8_v31 : V8 m outs c main_v31 = effBias (m ((c : Thread nD τ).loc main_arg9)) (m ((c : Thread nD τ).loc main_arg3))
    (extractStridedSlice S16x128 ![0, 0] (m ((c : Thread nD τ).loc main_arg8)) slices_S144x128_S16x128_0_0) := by
  refine (read_v31 (V7 m outs c)).trans ?_
  rw [show V7 m outs c (Proc.devRef .tc main_arg8) = m ((c : Thread nD τ).loc main_arg8) from
      V7_launch m outs c main_arg8 (by decide) (by decide) (by decide) (by decide) (by decide) (by decide) (by decide),
    show V7 m outs c (Proc.devRef .tc main_arg3) = m ((c : Thread nD τ).loc main_arg3) from
      V7_launch m outs c main_arg3 (by decide) (by decide) (by decide) (by decide) (by decide) (by decide) (by decide),
    show V7 m outs c (Proc.devRef .tc main_arg9) = m ((c : Thread nD τ).loc main_arg9) from
      V7_launch m outs c main_arg9 (by decide) (by decide) (by decide) (by decide) (by decide) (by decide) (by decide)]
/-- The node network's second bias as a row. -/
theorem V8_v32 : V8 m outs c main_v32 = shapeCast _ (m ((c : Thread nD τ).loc main_arg11)) shapeCasts_S64_S1x64 := by
  refine (read_v32 (V7 m outs c)).trans ?_
  rw [show V7 m outs c (Proc.devRef .tc main_arg11) = m ((c : Thread nD τ).loc main_arg11) from
    V7_launch m outs c main_arg11 (by decide) (by decide) (by decide) (by decide) (by decide) (by decide) (by decide)]

/-! ## At the end -/

/-- The edge region's output array is never written again. -/
theorem V9_v14 : V9 m outs c main_v14 = outs 5 main_v14 c :=
  (V9_of m outs c main_v14 (by decide)).trans <| (V8_of m outs c main_v14 (by decide)).trans <| (V7_of m outs c main_v14 (by decide)).trans <|
    (V6_of m outs c main_v14 (by decide)).trans (V5_v14 m outs c)
theorem V12_v14 : V12 m outs c main_v14 = outs 5 main_v14 c :=
  (V12_of m outs c main_v14 (by decide)).trans <| (V11_of m outs c main_v14 (by decide)).trans <| (V10_of m outs c main_v14 (by decide)).trans (V9_v14 m outs c)

/-- What the node region left in its output array is still there when the last stretches read it. -/
theorem V9_v33 : V9 m outs c main_v33 = outs 9 main_v33 c := by
  show Function.update (V8 m outs c) (Proc.devRef .tc main_v33) (outs 9 main_v33 c) (Proc.devRef .tc main_v33) = _
  rw [Function.update_self]
/-- The node region's output array is never written again. -/
theorem V12_v33 : V12 m outs c main_v33 = outs 9 main_v33 c :=
  (V12_of m outs c main_v33 (by decide)).trans <| (V11_of m outs c main_v33 (by decide)).trans <| (V10_of m outs c main_v33 (by decide)).trans (V9_v33 m outs c)

/-- The global network's hidden layer, after the first of the last stretches. -/
theorem V10_v45 : V10 m outs c main_v45 = kGlobHid (outs 5 main_v14 c) (outs 9 main_v33 c) (m ((c : Thread nD τ).loc main_arg3))
    (m ((c : Thread nD τ).loc main_arg12)) (m ((c : Thread nD τ).loc main_arg13)) := by
  refine (read_v45 (V9 m outs c)).trans ?_
  rw [show V9 m outs c (Proc.devRef .tc main_v14) = outs 5 main_v14 c from V9_v14 m outs c,
    show V9 m outs c (Proc.devRef .tc main_v33) = outs 9 main_v33 c from V9_v33 m outs c,
    show V9 m outs c (Proc.devRef .tc main_arg3) = m ((c : Thread nD τ).loc main_arg3) from V9_launch m outs c main_arg3 (by decide) (by decide) (by decide) (by decide) (by decide) (by decide) (by decide) (by decide) (by decide),
    show V9 m outs c (Proc.devRef .tc main_arg12) = m ((c : Thread nD τ).loc main_arg12) from V9_launch m outs c main_arg12 (by decide) (by decide) (by decide) (by decide) (by decide) (by decide) (by decide) (by decide) (by decide),
    show V9 m outs c (Proc.devRef .tc main_arg13) = m ((c : Thread nD τ).loc main_arg13) from V9_launch m outs c main_arg13 (by decide) (by decide) (by decide) (by decide) (by decide) (by decide) (by decide) (by decide) (by decide)]

/-- The global output. -/
theorem V12_v49 : V12 m outs c main_v49 = kGlob (outs 5 main_v14 c) (outs 9 main_v33 c) (m ((c : Thread nD τ).loc main_arg3))
    (m ((c : Thread nD τ).loc main_arg12)) (m ((c : Thread nD τ).loc main_arg13)) (m ((c : Thread nD τ).loc main_arg14)) (m ((c : Thread nD τ).loc main_arg15)) := by
  refine (read_v49 (V10 m outs c)).trans ?_
  rw [show V10 m outs c (Proc.devRef .tc main_v45) = _ from V10_v45 m outs c,
    show V10 m outs c (Proc.devRef .tc main_arg14) = m ((c : Thread nD τ).loc main_arg14) from (V10_of m outs c main_arg14 (by decide)).trans (V9_launch m outs c main_arg14 (by decide) (by decide) (by decide) (by decide) (by decide) (by decide) (by decide) (by decide) (by decide)),
    show V10 m outs c (Proc.devRef .tc main_arg15) = m ((c : Thread nD τ).loc main_arg15) from (V10_of m outs c main_arg15 (by decide)).trans (V9_launch m outs c main_arg15 (by decide) (by decide) (by decide) (by decide) (by decide) (by decide) (by decide) (by decide) (by decide))]
  rfl

end Cert.KernelIdeal.HostVal

end
-- ==== Proof.Spec.lean ====
/-
  What the two networks compute, index by index, over the extended reals.

  Each network is a two-layer perceptron applied row by row: a first linear layer on the concatenation of a few feature
  vectors plus a bias, clipped below at zero, then a second linear layer plus a bias. It is written here in two
  arrangements of the SAME sums.
  * The concatenated arrangement (`edgeRef`, `nodeRef`): the first layer is ONE sum over the concatenated features —
    the 16 global features, then the 64-wide pieces — against the whole first weight matrix, plus the bias vector.
  * The split arrangement (`edgeKer`, `nodeKer`): one 64-term sum per 64-wide piece against that piece's own rows of
    the weight matrix, added up, plus an EFFECTIVE bias row that already holds the bias and the global features'
    16-term sum (the same for every row).
  The two agree whenever the split arrangement's weight pieces are the corresponding rows of the whole matrix and its
  effective bias is the bias plus the global part (`edgeKer_eq_edgeRef`, `nodeKer_eq_nodeRef`): a finite sum over a
  range cut into consecutive pieces is the sum of the pieces' sums, and addition of extended reals is commutative
  and associative — nothing here multiplies out a sum, so no finiteness is needed.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `r` rows and `c` columns. -/
abbrev M (r c : Nat) : Type := (⟨2, ![r, c]⟩ : Shape).Idx → EReal
/-- A vector of extended reals of length `n`. -/
abbrev Vc (n : Nat) : Type := (⟨1, ![n]⟩ : Shape).Idx → EReal

/-! ## The edge network: rows are the 1,200,000 edges -/

/-- Split arrangement, hidden unit `k` of edge `e` before the clip: three 64-term sums and the effective bias. -/
def edgeHidK (xr xc ea : M 1200000 64) (w1 w2 w3 : M 64 128) (b1 : M 1 128) (e : Fin 1200000) (k : Fin 128) : EReal :=
  (((∑ j : Fin 64, xr (ix2 e j) * w1 (ix2 j k)) + ∑ j : Fin 64, xc (ix2 e j) * w2 (ix2 j k))
    + ∑ j : Fin 64, ea (ix2 e j) * w3 (ix2 j k)) + b1 (ix2 0 k)

/-- Split arrangement, output feature `f` of edge `e`. -/
def edgeOutK (xr xc ea : M 1200000 64) (w1 w2 w3 : M 64 128) (b1 : M 1 128) (W2 : M 128 64) (b2 : M 1 64)
    (e : Fin 1200000) (f : Fin 64) : EReal :=
  (∑ k : Fin 128, max (edgeHidK xr xc ea w1 w2 w3 b1 e k) 0 * W2 (ix2 k f)) + b2 (ix2 0 f)

/-- The edge network's output array, split arrangement. -/
def edgeKer (xr xc ea : M 1200000 64) (w1 w2 w3 : M 64 128) (b1 : M 1 128) (W2 : M 128 64) (b2 : M 1 64) : M 1200000 64 :=
  fun i => edgeOutK xr xc ea w1 w2 w3 b1 W2 b2 (i 0) (i 1)

/-- Edge `e`'s concatenated input at position `j`: 16 global features, then the source row, the target row and the
    edge's own attributes, 64 each. -/
def edgeCat (g : M 1 16) (xr xc ea : M 1200000 64) (e : Fin 1200000) (j : Fin 208) : EReal :=
  if h : j.val < 16 then g (ix2 0 ⟨j.val, h⟩)
  else if h2 : j.val < 80 then xr (ix2 e ⟨j.val - 16, by omega⟩)
  else if h3 : j.val < 144 then xc (ix2 e ⟨j.val - 80, by omega⟩)
  else ea (ix2 e ⟨j.val - 144, by omega⟩)

/-- Concatenated arrangement, hidden unit `k` of edge `e` before the clip. -/
def edgeHidR (g : M 1 16) (xr xc ea : M 1200000 64) (We1 : M 208 128) (be1 : Vc 128) (e : Fin 1200000) (k : Fin 128) : EReal :=
  (∑ j : Fin 208, edgeCat g xr xc ea e j * We1 (ix2 j k)) + be1 (ix1 k)

/-- Concatenated arrangement, output feature `f` of edge `e`. -/
def edgeOutR (g : M 1 16) (xr xc ea : M 1200000 64) (We1 : M 208 128) (be1 : Vc 128) (We2 : M 128 64) (be2 : Vc 64)
    (e : Fin 1200000) (f : Fin 64) : EReal :=
  (∑ k : Fin 128, max (edgeHidR g xr xc ea We1 be1 e k) 0 * We2 (ix2 k f)) + be2 (ix1 f)

/-- The edge network's output array, concatenated arrangement. -/
def edgeRef (g : M 1 16) (xr xc ea : M 1200000 64) (We1 : M 208 128) (be1 : Vc 128) (We2 : M 128 64) (be2 : Vc 64) : M 1200000 64 :=
  fun i => edgeOutR g xr xc ea We1 be1 We2 be2 (i 0) (i 1)

/-! ## The node network: rows are the 100,000 nodes -/

/-- Split arrangement, hidden unit `k` of node `n` before the clip: two 64-term sums and the effective bias. -/
def nodeHidK (x agg : M 100000 64) (w1 w2 : M 64 128) (b1 : M 1 128) (n : Fin 100000) (k : Fin 128) : EReal :=
  ((∑ j : Fin 64, x (ix2 n j) * w1 (ix2 j k)) + ∑ j : Fin 64, agg (ix2 n j) * w2 (ix2 j k)) + b1 (ix2 0 k)

/-- Split arrangement, output feature `f` of node `n`. -/
def nodeOutK (x agg : M 100000 64) (w1 w2 : M 64 128) (b1 : M 1 128) (W2 : M 128 64) (b2 : M 1 64)
    (n : Fin 100000) (f : Fin 64) : EReal :=
  (∑ k : Fin 128, max (nodeHidK x agg w1 w2 b1 n k) 0 * W2 (ix2 k f)) + b2 (ix2 0 f)

/-- The node network's output array, split arrangement. -/
def nodeKer (x agg : M 100000 64) (w1 w2 : M 64 128) (b1 : M 1 128) (W2 : M 128 64) (b2 : M 1 64) : M 100000 64 :=
  fun i => nodeOutK x agg w1 w2 b1 W2 b2 (i 0) (i 1)

/-- Node `n`'s concatenated input at position `j`: 16 global features, then the node's features and its aggregated
    messages, 64 each. -/
def nodeCat (g : M 1 16) (x agg : M 100000 64) (n : Fin 100000) (j : Fin 144) : EReal :=
  if h : j.val < 16 then g (ix2 0 ⟨j.val, h⟩)
  else if h2 : j.val < 80 then x (ix2 n ⟨j.val - 16, by omega⟩)
  else agg (ix2 n ⟨j.val - 80, by omega⟩)

/-- Concatenated arrangement, hidden unit `k` of node `n` before the clip. -/
def nodeHidR (g : M 1 16) (x agg : M 100000 64) (Wn1 : M 144 128) (bn1 : Vc 128) (n : Fin 100000) (k : Fin 128) : EReal :=
  (∑ j : Fin 144, nodeCat g x agg n j * Wn1 (ix2 j k)) + bn1 (ix1 k)

/-- Concatenated arrangement, output feature `f` of node `n`. -/
def nodeOutR (g : M 1 16) (x agg : M 100000 64) (Wn1 : M 144 128) (bn1 : Vc 128) (Wn2 : M 128 64) (bn2 : Vc 64)
    (n : Fin 100000) (f : Fin 64) : EReal :=
  (∑ k : Fin 128, max (nodeHidR g x agg Wn1 bn1 n k) 0 * Wn2 (ix2 k f)) + bn2 (ix1 f)

/-- The node network's output array, concatenated arrangement. -/
def nodeRef (g : M 1 16) (x agg : M 100000 64) (Wn1 : M 144 128) (bn1 : Vc 128) (Wn2 : M 128 64) (bn2 : Vc 64) : M 100000 64 :=
  fun i => nodeOutR g x agg Wn1 bn1 Wn2 bn2 (i 0) (i 1)

end Cert.Spec

end
-- ==== Proof.KI.Value0.lean ====
/-
  The edge region's output array after the region, over the extended reals: the 250 blocks of 4800 rows tile the
  1,200,000 x 64 array, block t covering rows [4800 t, 4800 t + 4800), and each flushed block is the split arrangement of
  the edge network (Spec.lean) on the rows it covers — the row blocks of the three feature arrays against the three
  whole 64 x 128 weight pieces, the effective bias row, the whole second weight matrix and bias row.
-/
import proofs.«408850_j13786845020469_1_alg».proof.Proof.KI.Region0
import proofs.«408850_j13786845020469_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the region is entered, at the ideal instance
variable (V : (c : Dev nD) → (b : Ref sig .tc) → Buf (Elt Ideal) ((c : Thread nD τ).loc b))

/-! ## The two products read at an index -/

-- the first layer's product (4800 x 64 against 64 x 128): which operand entries meet at output (i, ·) and contraction index q
private theorem lhs_first_0 (i : S4800x128.Idx) (q : dot_S4800x64_S64x128_S4800x128_1_0_0_1_n_n.contr.Idx) :
    (dot_S4800x64_S64x128_S4800x128_1_0_0_1_n_n.lhsIdx i q 0).val = (i 0).val := by
  unfold DotDims.lhsIdx
  rw [dif_neg (show ¬(0 : Fin S4800x64.rank) ∈ dot_S4800x64_S64x128_S4800x128_1_0_0_1_n_n.lhsBatch by decide), dif_pos (show (0 : Fin S4800x64.rank) ∈ dot_S4800x64_S64x128_S4800x128_1_0_0_1_n_n.lhsNonContracting by decide)]
  rfl
private theorem lhs_first_1 (i : S4800x128.Idx) (q : dot_S4800x64_S64x128_S4800x128_1_0_0_1_n_n.contr.Idx) :
    (dot_S4800x64_S64x128_S4800x128_1_0_0_1_n_n.lhsIdx i q 1).val = (q ⟨0, by decide⟩).val :=
  dot_S4800x64_S64x128_S4800x128_1_0_0_1_n_n.lhsIdx_val_of_single rfl i q
private theorem rhs_first_0 (i : S4800x128.Idx) (q : dot_S4800x64_S64x128_S4800x128_1_0_0_1_n_n.contr.Idx) :
    (dot_S4800x64_S64x128_S4800x128_1_0_0_1_n_n.rhsIdx i q 0).val = (q ⟨0, by decide⟩).val :=
  dot_S4800x64_S64x128_S4800x128_1_0_0_1_n_n.rhsIdx_val_of_single rfl i q
private theorem rhs_first_1 (i : S4800x128.Idx) (q : dot_S4800x64_S64x128_S4800x128_1_0_0_1_n_n.contr.Idx) :
    (dot_S4800x64_S64x128_S4800x128_1_0_0_1_n_n.rhsIdx i q 1).val = (i 1).val := by
  unfold DotDims.rhsIdx
  rw [dif_neg (show ¬(1 : Fin S64x128.rank) ∈ dot_S4800x64_S64x128_S4800x128_1_0_0_1_n_n.rhsBatch by decide), dif_pos (show (1 : Fin S64x128.rank) ∈ dot_S4800x64_S64x128_S4800x128_1_0_0_1_n_n.rhsNonContracting by decide)]
  rfl

/-- A first-layer product into the zero block, at hidden unit `k` of row `p`: the 64-term sum along the row. -/
private theorem first_product_apply {φ₁ φ₂ : FTy} (a : FVec Ideal S4800x64 φ₁) (b : FVec Ideal S64x128 φ₂) (p : Fin 4800) (k : Fin 128) :
    matmul dot_S4800x64_S64x128_S4800x128_1_0_0_1_n_n none a b (constant (F := Ideal) S4800x128 .f32 0x00000000#32) (ix2 p k)
      = ∑ j : Fin 64, a (ix2 p j) * b (ix2 j k) := by
  simp only [matmul]
  rw [Ideal.matmul_constant_zero_apply, ← Equiv.sum_comp (ValueIdx.contrEquiv1 dot_S4800x64_S64x128_S4800x128_1_0_0_1_n_n 64 rfl rfl).symm]
  refine Finset.sum_congr rfl fun j _ => ?_
  have hj := ValueIdx.contrEquiv1_symm_val dot_S4800x64_S64x128_S4800x128_1_0_0_1_n_n 64 rfl rfl j
  have el : dot_S4800x64_S64x128_S4800x128_1_0_0_1_n_n.lhsIdx (ix2 p k) ((ValueIdx.contrEquiv1 dot_S4800x64_S64x128_S4800x128_1_0_0_1_n_n 64 rfl rfl).symm j) = ix2 p j := funext fun d => Fin.ext (by
    match d with
    | ⟨0, _⟩ => exact lhs_first_0 _ _
    | ⟨1, _⟩ => exact (lhs_first_1 _ _).trans hj)
  have er : dot_S4800x64_S64x128_S4800x128_1_0_0_1_n_n.rhsIdx (ix2 p k) ((ValueIdx.contrEquiv1 dot_S4800x64_S64x128_S4800x128_1_0_0_1_n_n 64 rfl rfl).symm j) = ix2 j k := funext fun d => Fin.ext (by
    match d with
    | ⟨0, _⟩ => exact (rhs_first_0 _ _).trans hj
    | ⟨1, _⟩ => exact rhs_first_1 _ _)
  rw [el, er]

-- the second layer's product (4800 x 128 against 128 x 64)
private theorem lhs_second_0 (i : S4800x64.Idx) (q : dot_S4800x128_S128x64_S4800x64_1_0_0_1_n_n.contr.Idx) :
    (dot_S4800x128_S128x64_S4800x64_1_0_0_1_n_n.lhsIdx i q 0).val = (i 0).val := by
  unfold DotDims.lhsIdx
  rw [dif_neg (show ¬(0 : Fin S4800x128.rank) ∈ dot_S4800x128_S128x64_S4800x64_1_0_0_1_n_n.lhsBatch by decide), dif_pos (show (0 : Fin S4800x128.rank) ∈ dot_S4800x128_S128x64_S4800x64_1_0_0_1_n_n.lhsNonContracting by decide)]
  rfl
private theorem lhs_second_1 (i : S4800x64.Idx) (q : dot_S4800x128_S128x64_S4800x64_1_0_0_1_n_n.contr.Idx) :
    (dot_S4800x128_S128x64_S4800x64_1_0_0_1_n_n.lhsIdx i q 1).val = (q ⟨0, by decide⟩).val :=
  dot_S4800x128_S128x64_S4800x64_1_0_0_1_n_n.lhsIdx_val_of_single rfl i q
private theorem rhs_second_0 (i : S4800x64.Idx) (q : dot_S4800x128_S128x64_S4800x64_1_0_0_1_n_n.contr.Idx) :
    (dot_S4800x128_S128x64_S4800x64_1_0_0_1_n_n.rhsIdx i q 0).val = (q ⟨0, by decide⟩).val :=
  dot_S4800x128_S128x64_S4800x64_1_0_0_1_n_n.rhsIdx_val_of_single rfl i q
private theorem rhs_second_1 (i : S4800x64.Idx) (q : dot_S4800x128_S128x64_S4800x64_1_0_0_1_n_n.contr.Idx) :
    (dot_S4800x128_S128x64_S4800x64_1_0_0_1_n_n.rhsIdx i q 1).val = (i 1).val := by
  unfold DotDims.rhsIdx
  rw [dif_neg (show ¬(1 : Fin S128x64.rank) ∈ dot_S4800x128_S128x64_S4800x64_1_0_0_1_n_n.rhsBatch by decide), dif_pos (show (1 : Fin S128x64.rank) ∈ dot_S4800x128_S128x64_S4800x64_1_0_0_1_n_n.rhsNonContracting by decide)]
  rfl

/-- The second-layer product into the zero block, at output feature `f` of row `p`: the 128-term sum over the hidden units. -/
private theorem second_product_apply {φ₁ φ₂ : FTy} (a : FVec Ideal S4800x128 φ₁) (b : FVec Ideal S128x64 φ₂) (p : Fin 4800) (f : Fin 64) :
    matmul dot_S4800x128_S128x64_S4800x64_1_0_0_1_n_n none a b (constant (F := Ideal) S4800x64 .f32 0x00000000#32) (ix2 p f)
      = ∑ k : Fin 128, a (ix2 p k) * b (ix2 k f) := by
  simp only [matmul]
  rw [Ideal.matmul_constant_zero_apply, ← Equiv.sum_comp (ValueIdx.contrEquiv1 dot_S4800x128_S128x64_S4800x64_1_0_0_1_n_n 128 rfl rfl).symm]
  refine Finset.sum_congr rfl fun k _ => ?_
  have hk := ValueIdx.contrEquiv1_symm_val dot_S4800x128_S128x64_S4800x64_1_0_0_1_n_n 128 rfl rfl k
  have el : dot_S4800x128_S128x64_S4800x64_1_0_0_1_n_n.lhsIdx (ix2 p f) ((ValueIdx.contrEquiv1 dot_S4800x128_S128x64_S4800x64_1_0_0_1_n_n 128 rfl rfl).symm k) = ix2 p k := funext fun d => Fin.ext (by
    match d with
    | ⟨0, _⟩ => exact lhs_second_0 _ _
    | ⟨1, _⟩ => exact (lhs_second_1 _ _).trans hk)
  have er : dot_S4800x128_S128x64_S4800x64_1_0_0_1_n_n.rhsIdx (ix2 p f) ((ValueIdx.contrEquiv1 dot_S4800x128_S128x64_S4800x64_1_0_0_1_n_n 128 rfl rfl).symm k) = ix2 k f := funext fun d => Fin.ext (by
    match d with
    | ⟨0, _⟩ => exact (rhs_second_0 _ _).trans hk
    | ⟨1, _⟩ => exact rhs_second_1 _ _)
  rw [el, er]

/-! ## The stored block at an index -/

/-- A 1 x n row spread over 4800 rows, read at (p, k): the row's entry k. -/
private theorem row128_apply (b : FVec Ideal S1x128 .f32) (p : Fin 4800) (k : Fin 128) :
    broadcastTo S4800x128 b broadcasts_S1x128_S4800x128 (ix2 p k) = b (ix2 0 k) :=
  broadcastTo_apply b broadcasts_S1x128_S4800x128 (ix2 p k) (ix2 0 k) (fun a => by
    match a with
    | ⟨0, _⟩ => rfl
    | ⟨1, _⟩ => rfl)

private theorem row64_apply (b : FVec Ideal S1x64 .f32) (p : Fin 4800) (f : Fin 64) :
    broadcastTo S4800x64 b broadcasts_S1x64_S4800x64 (ix2 p f) = b (ix2 0 f) :=
  broadcastTo_apply b broadcasts_S1x64_S4800x64 (ix2 p f) (ix2 0 f) (fun a => by
    match a with
    | ⟨0, _⟩ => rfl
    | ⟨1, _⟩ => rfl)

/-- The hidden layer the body forms, at unit `k` of row `p`, from the loaded blocks. -/
private theorem hidden_apply (x0 x1 x2 : Vec Ideal S4800x64 .f32) (x3 x4 x5 : Vec Ideal S64x128 .f32) (x6 : Vec Ideal S1x128 .f32)
    (p : Fin 4800) (k : Fin 128) :
    (maximumf (addf (addf (addf
        (matmul dot_S4800x64_S64x128_S4800x128_1_0_0_1_n_n none (truncf .bf16 x0 bitsLt_bf16_f32) (truncf .bf16 x3 bitsLt_bf16_f32) (constant (F := Ideal) S4800x128 .f32 0x00000000#32))
        (matmul dot_S4800x64_S64x128_S4800x128_1_0_0_1_n_n none (truncf .bf16 x1 bitsLt_bf16_f32) (truncf .bf16 x4 bitsLt_bf16_f32) (constant (F := Ideal) S4800x128 .f32 0x00000000#32)))
        (matmul dot_S4800x64_S64x128_S4800x128_1_0_0_1_n_n none (truncf .bf16 x2 bitsLt_bf16_f32) (truncf .bf16 x5 bitsLt_bf16_f32) (constant (F := Ideal) S4800x128 .f32 0x00000000#32)))
        (broadcastTo S4800x128 x6 broadcasts_S1x128_S4800x128))
      (broadcast S4800x128 (Scalar.ofBits (F := Ideal) .f32 0x00000000#32)) : FVec Ideal S4800x128 .f32) (ix2 p k)
    = max ((((∑ j : Fin 64, x0 (ix2 p j) * x3 (ix2 j k)) + ∑ j : Fin 64, x1 (ix2 p j) * x4 (ix2 j k))
        + ∑ j : Fin 64, x2 (ix2 p j) * x5 (ix2 j k)) + x6 (ix2 0 k)) 0 := by
  rw [maximumf_apply, addf_apply, addf_apply, addf_apply, first_product_apply, first_product_apply, first_product_apply, row128_apply]
  simp only [truncf_apply, broadcast_apply]
  rw [show (Scalar.ofBits (F := Ideal) .f32 0x00000000#32 : EReal) = 0 from Ideal.ofBits_zero_f32]

/-- THE STORED BLOCK AT (p, f): the edge network in the split arrangement on row `p` of the three feature blocks. -/
private theorem stored_apply (x0 x1 x2 : Vec Ideal S4800x64 .f32) (x3 x4 x5 : Vec Ideal S64x128 .f32) (x6 : Vec Ideal S1x128 .f32)
    (x7 : Vec Ideal S128x64 .f32) (x8 : Vec Ideal S1x64 .f32) (p : Fin 4800) (f : Fin 64) :
    k0_pay1 (k0_pay2 x0 x1 x2 x3 x4 x5 x6 x7) (k0_pay3 x8) (ix2 p f)
      = (∑ k : Fin 128, max ((((∑ j : Fin 64, x0 (ix2 p j) * x3 (ix2 j k)) + ∑ j : Fin 64, x1 (ix2 p j) * x4 (ix2 j k))
          + ∑ j : Fin 64, x2 (ix2 p j) * x5 (ix2 j k)) + x6 (ix2 0 k)) 0 * x7 (ix2 k f)) + x8 (ix2 0 f) := by
  unfold k0_pay1 k0_pay2 k0_pay3
  rw [addf_apply, row64_apply, second_product_apply]
  simp only [shapeCast_self, truncf_apply]
  refine congrArg (· + x8 (ix2 0 f)) (Finset.sum_congr rfl fun k _ => ?_)
  exact congrArg (· * x7 (ix2 k f)) (hidden_apply x0 x1 x2 x3 x4 x5 x6 p k)

/-! ## The blocks the body reads, as entries of the arrays -/

private theorem zero_offsets : (![0, 0] : Fin 2 → Nat) = fun _ => 0 := funext fun a => by fin_cases a <;> rfl

/-- The index maps over the 250 points: the three feature windows and the output step one block of rows per point and
    stay at column block 0; the six parameter windows stay at block (0, 0). -/
private theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- The source-row block at point `t` is rows 4800 t … 4800 t + 4799 of the gathered source rows. -/
private theorem src_block_apply (c : Dev nD) (t : Fin cfg0.N) (x : S4800x64.Idx) (k : S1200000x64.Idx)
    (hk0 : (k 0).val = 4800 * t.val + (x 0).val) (hk1 : (k 1).val = (x 1).val) :
    (iblk0 V c 0 t : Vec Ideal S4800x64 .f32) x = (V c main_v4 : S1200000x64.Idx → Elt Ideal .f32) k := by
  obtain ⟨⟨h0, h1⟩, -⟩ := index_facts t
  unfold iblk0
  rw [View.read_apply]
  show V c main_v4 _ = V c main_v4 _
  congr 1
  funext a
  apply Fin.ext
  match a with
  | ⟨0, _⟩ => show win0_0.index t (0 : Fin 2) * 4800 + 1 * (x 0).val = (k 0).val; rw [h0, hk0]; omega
  | ⟨1, _⟩ => show win0_0.index t (1 : Fin 2) * 64 + 1 * (x 1).val = (k 1).val; rw [h1, hk1]; omega

/-- The target-row block at point `t` is the same rows of the gathered target rows. -/
private theorem tgt_block_apply (c : Dev nD) (t : Fin cfg0.N) (x : S4800x64.Idx) (k : S1200000x64.Idx)
    (hk0 : (k 0).val = 4800 * t.val + (x 0).val) (hk1 : (k 1).val = (x 1).val) :
    (iblk0 V c 1 t : Vec Ideal S4800x64 .f32) x = (V c main_v5 : S1200000x64.Idx → Elt Ideal .f32) k := by
  obtain ⟨-, ⟨h0, h1⟩, -⟩ := index_facts t
  unfold iblk0
  rw [View.read_apply]
  show V c main_v5 _ = V c main_v5 _
  congr 1
  funext a
  apply Fin.ext
  match a with
  | ⟨0, _⟩ => show win0_1.index t (0 : Fin 2) * 4800 + 1 * (x 0).val = (k 0).val; rw [h0, hk0]; omega
  | ⟨1, _⟩ => show win0_1.index t (1 : Fin 2) * 64 + 1 * (x 1).val = (k 1).val; rw [h1, hk1]; omega

/-- The edge-attribute block at point `t` is the same rows of the edge attributes. -/
private theorem attr_block_apply (c : Dev nD) (t : Fin cfg0.N) (x : S4800x64.Idx) (k : S1200000x64.Idx)
    (hk0 : (k 0).val = 4800 * t.val + (x 0).val) (hk1 : (k 1).val = (x 1).val) :
    (iblk0 V c 2 t : Vec Ideal S4800x64 .f32) x = (V c main_arg2 : S1200000x64.Idx → Elt Ideal .f32) k := by
  obtain ⟨-, -, ⟨h0, h1⟩, -⟩ := index_facts t
  unfold iblk0
  rw [View.read_apply]
  show V c main_arg2 _ = V c main_arg2 _
  congr 1
  funext a
  apply Fin.ext
  match a with
  | ⟨0, _⟩ => show win0_2.index t (0 : Fin 2) * 4800 + 1 * (x 0).val = (k 0).val; rw [h0, hk0]; omega
  | ⟨1, _⟩ => show win0_2.index t (1 : Fin 2) * 64 + 1 * (x 1).val = (k 1).val; rw [h1, hk1]; omega

/-- Each parameter window's block, at every point, is its whole array. -/
private theorem w1_block_apply (c : Dev nD) (t : Fin cfg0.N) (x : S64x128.Idx) :
    (iblk0 V c 3 t : Vec Ideal S64x128 .f32) x = (V c main_v6 : S64x128.Idx → Elt Ideal .f32) x := by
  obtain ⟨-, -, -, ⟨h0, h1⟩, -⟩ := index_facts t
  unfold iblk0
  rw [View.read_apply]
  show V c main_v6 _ = V c main_v6 _
  congr 1
  funext a
  apply Fin.ext
  match a with
  | ⟨0, _⟩ => show win0_3.index t (0 : Fin 2) * 64 + 1 * (x 0).val = (x 0).val; rw [h0]; omega
  | ⟨1, _⟩ => show win0_3.index t (1 : Fin 2) * 128 + 1 * (x 1).val = (x 1).val; rw [h1]; omega

private theorem w2_block_apply (c : Dev nD) (t : Fin cfg0.N) (x : S64x128.Idx) :
    (iblk0 V c 4 t : Vec Ideal S64x128 .f32) x = (V c main_v7 : S64x128.Idx → Elt Ideal .f32) x := by
  obtain ⟨-, -, -, -, ⟨h0, h1⟩, -⟩ := index_facts t
  unfold iblk0
  rw [View.read_apply]
  show V c main_v7 _ = V c main_v7 _
  congr 1
  funext a
  apply Fin.ext
  match a with
  | ⟨0, _⟩ => show win0_4.index t (0 : Fin 2) * 64 + 1 * (x 0).val = (x 0).val; rw [h0]; omega
  | ⟨1, _⟩ => show win0_4.index t (1 : Fin 2) * 128 + 1 * (x 1).val = (x 1).val; rw [h1]; omega

private theorem w3_block_apply (c : Dev nD) (t : Fin cfg0.N) (x : S64x128.Idx) :
    (iblk0 V c 5 t : Vec Ideal S64x128 .f32) x = (V c main_v8 : S64x128.Idx → Elt Ideal .f32) x := by
  obtain ⟨-, -, -, -, -, ⟨h0, h1⟩, -⟩ := index_facts t
  unfold iblk0
  rw [View.read_apply]
  show V c main_v8 _ = V c main_v8 _
  congr 1
  funext a
  apply Fin.ext
  match a with
  | ⟨0, _⟩ => show win0_5.index t (0 : Fin 2) * 64 + 1 * (x 0).val = (x 0).val; rw [h0]; omega
  | ⟨1, _⟩ => show win0_5.index t (1 : Fin 2) * 128 + 1 * (x 1).val = (x 1).val; rw [h1]; omega

private theorem b1_block_apply (c : Dev nD) (t : Fin cfg0.N) (x : S1x128.Idx) :
    (iblk0 V c 6 t : Vec Ideal S1x128 .f32) x = (V c main_v12 : S1x128.Idx → Elt Ideal .f32) x := by
  obtain ⟨-, -, -, -, -, -, ⟨h0, h1⟩, -⟩ := index_facts t
  unfold iblk0
  rw [View.read_apply]
  show V c main_v12 _ = V c main_v12 _
  congr 1
  funext a
  apply Fin.ext
  match a with
  | ⟨0, _⟩ => show win0_6.index t (0 : Fin 2) * 1 + 1 * (x 0).val = (x 0).val; rw [h0]; omega
  | ⟨1, _⟩ => show win0_6.index t (1 : Fin 2) * 128 + 1 * (x 1).val = (x 1).val; rw [h1]; omega

private theorem wout_block_apply (c : Dev nD) (t : Fin cfg0.N) (x : S128x64.Idx) :
    (iblk0 V c 7 t : Vec Ideal S128x64 .f32) x = (V c main_arg6 : S128x64.Idx → Elt Ideal .f32) x := by
  obtain ⟨-, -, -, -, -, -, -, ⟨h0, h1⟩, -⟩ := index_facts t
  unfold iblk0
  rw [View.read_apply]
  show V c main_arg6 _ = V c main_arg6 _
  congr 1
  funext a
  apply Fin.ext
  match a with
  | ⟨0, _⟩ => show win0_7.index t (0 : Fin 2) * 128 + 1 * (x 0).val = (x 0).val; rw [h0]; omega
  | ⟨1, _⟩ => show win0_7.index t (1 : Fin 2) * 64 + 1 * (x 1).val = (x 1).val; rw [h1]; omega

private theorem b2_block_apply (c : Dev nD) (t : Fin cfg0.N) (x : S1x64.Idx) :
    (iblk0 V c 8 t : Vec Ideal S1x64 .f32) x = (V c main_v13 : S1x64.Idx → Elt Ideal .f32) x := by
  obtain ⟨-, -, -, -, -, -, -, -, ⟨h0, h1⟩, -⟩ := index_facts t
  unfold iblk0
  rw [View.read_apply]
  show V c main_v13 _ = V c main_v13 _
  congr 1
  funext a
  apply Fin.ext
  match a with
  | ⟨0, _⟩ => show win0_8.index t (0 : Fin 2) * 1 + 1 * (x 0).val = (x 0).val; rw [h0]; omega
  | ⟨1, _⟩ => show win0_8.index t (1 : Fin 2) * 64 + 1 * (x 1).val = (x 1).val; rw [h1]; omega

/-! ## What each point writes back, and the array after the region -/

/-- WHAT POINT `t` WRITES BACK is block `t` of the edge network, split arrangement, of the arrays as the region finds
    them: entry (p, f) of the stored block is the network's output feature `f` on edge 4800 t + p. -/
private theorem flushed_eq (c : Dev nD) (t : Fin cfg0.N) :
    (dat0 (F := Ideal) V c).flushed 9 t
      = ((cfg0.win 9).blk t).view.read (Elt Ideal) (Cert.Spec.edgeKer (V c main_v4) (V c main_v5) (V c main_arg2) (V c main_v6) (V c main_v7) (V c main_v8) (V c main_v12) (V c main_arg6) (V c main_v13)) := by
  show (cfg0.win 9).cut (grid0.coords t) ((dat0 (F := Ideal) V c).after 9 t) = _
  rw [after0_9]
  unfold out0_9
  rw [View.canon_unit_zero zero_offsets]
  simp only [View.ld_unit_zero (S := S4800x64) zero_offsets, View.ld_unit_zero (S := S64x128) zero_offsets, View.ld_unit_zero (S := S1x128) zero_offsets, View.ld_unit_zero (S := S128x64) zero_offsets, View.ld_unit_zero (S := S1x64) zero_offsets]
  obtain ⟨-, -, -, -, -, -, -, -, -, ⟨h0, h1⟩⟩ := index_facts t
  funext j
  obtain ⟨p, f, rfl⟩ : ∃ (p : Fin 4800) (f : Fin 64), j = ix2 p f := ⟨j 0, j 1, eq_ix2 j⟩
  have hN : cfg0.N = 250 := N_0
  have hrow : 4800 * t.val + p.val < 1200000 := by have := t.isLt; have := p.isLt; omega
  -- where entry (p, f) of block t sits in the array: edge 4800 t + p, feature f
  have hemb : ((cfg0.win 9).blk t).view.emb (ix2 p f) = (ix2 (⟨4800 * t.val + p.val, hrow⟩ : Fin 1200000) f : S1200000x64.Idx) := by
    funext a
    apply Fin.ext
    match a with
    | ⟨0, _⟩ => show win0_9.index t (0 : Fin 2) * 4800 + 1 * p.val = 4800 * t.val + p.val; rw [h0]; omega
    | ⟨1, _⟩ => show win0_9.index t (1 : Fin 2) * 64 + 1 * f.val = f.val; rw [h1]; omega
  refine (stored_apply (iblk0 V c 0 t) (iblk0 V c 1 t) (iblk0 V c 2 t) (iblk0 V c 3 t) (iblk0 V c 4 t) (iblk0 V c 5 t) (iblk0 V c 6 t) (iblk0 V c 7 t) (iblk0 V c 8 t) p f).trans ?_
  rw [View.read_apply]
  show _ = Cert.Spec.edgeKer (V c main_v4) (V c main_v5) (V c main_arg2) (V c main_v6) (V c main_v7) (V c main_v8) (V c main_v12) (V c main_arg6) (V c main_v13) (((cfg0.win 9).blk t).view.emb (ix2 p f))
  rw [hemb]
  show _ = Cert.Spec.edgeOutK (V c main_v4) (V c main_v5) (V c main_arg2) (V c main_v6) (V c main_v7) (V c main_v8) (V c main_v12) (V c main_arg6) (V c main_v13) ⟨4800 * t.val + p.val, hrow⟩ f
  unfold Cert.Spec.edgeOutK Cert.Spec.edgeHidK
  refine congrArg₂ (· + ·) (Finset.sum_congr rfl fun k _ => ?_) (b2_block_apply V c t (ix2 0 f))
  refine congrArg₂ (fun a b => max a 0 * b) ?_ (wout_block_apply V c t (ix2 k f))
  refine congrArg₂ (· + ·) (congrArg₂ (· + ·) (congrArg₂ (· + ·) ?_ ?_) ?_) (b1_block_apply V c t (ix2 0 k))
  · exact Finset.sum_congr rfl fun j _ => congrArg₂ (· * ·) (src_block_apply V c t (ix2 p j) (ix2 ⟨4800 * t.val + p.val, hrow⟩ j) rfl rfl) (w1_block_apply V c t (ix2 j k))
  · exact Finset.sum_congr rfl fun j _ => congrArg₂ (· * ·) (tgt_block_apply V c t (ix2 p j) (ix2 ⟨4800 * t.val + p.val, hrow⟩ j) rfl rfl) (w2_block_apply V c t (ix2 j k))
  · exact Finset.sum_congr rfl fun j _ => congrArg₂ (· * ·) (attr_block_apply V c t (ix2 p j) (ix2 ⟨4800 * t.val + p.val, hrow⟩ j) rfl rfl) (w3_block_apply V c t (ix2 j k))

/-- An index of the output array is in point `t`'s block iff each coordinate is in the block's range on its axis. -/
private theorem mem_block (t : Fin cfg0.N) (i : S1200000x64.Idx) :
    i ∈ ((cfg0.win 9).blk t).view.set ↔ ∀ a : Fin 2, win0_9.index t a * S4800x64.size a ≤ (i a).val ∧ (i a).val < win0_9.index t a * S4800x64.size a + S4800x64.size a := by
  show i ∈ ((View.whole main_v14).slice (win0_9.rect t)).set ↔ _
  rw [View.set_slice_whole, Rect.mem_set_unit]
  exact Iff.rfl

/-- The 250 row blocks tile the array: edge r is in the block of point r / 4800. -/
private theorem covered (i : S1200000x64.Idx) :
    ∃ t : Fin cfg0.N, (cfg0.win 9).flush t = true ∧ i ∈ ((cfg0.win 9).blk t).view.set := by
  have hi0 : (i 0).val < 1200000 := (i 0).isLt
  have hi1 : (i 1).val < 64 := (i 1).isLt
  have hN : cfg0.N = 250 := N_0
  obtain ⟨t, ht⟩ : ∃ t : Fin cfg0.N, t.val = (i 0).val / 4800 := ⟨⟨(i 0).val / 4800, by rw [hN]; omega⟩, rfl⟩
  obtain ⟨-, -, -, -, -, -, -, -, -, ⟨h0, h1⟩⟩ := index_facts t
  refine ⟨t, flush0_9 t, ?_⟩
  rw [mem_block]
  intro a
  match a with
  | ⟨0, _⟩ => show win0_9.index t (0 : Fin 2) * 4800 ≤ (i 0).val ∧ (i 0).val < win0_9.index t (0 : Fin 2) * 4800 + 4800; rw [h0, ht]; omega
  | ⟨1, _⟩ => show win0_9.index t (1 : Fin 2) * 64 ≤ (i 1).val ∧ (i 1).val < win0_9.index t (1 : Fin 2) * 64 + 64; rw [h1]; omega

/-- After the edge region its output array holds, index by index, the edge network in the split arrangement of the
    nine arrays the region read, as it found them. -/
theorem edge_value (c : Dev nD) :
    (dat0 (F := Ideal) V c).arrAt 9 cfg0.N
      = Cert.Spec.edgeKer (V c main_v4) (V c main_v5) (V c main_arg2) (V c main_v6) (V c main_v7) (V c main_v8) (V c main_v12) (V c main_arg6) (V c main_v13) :=
  (dat0 (F := Ideal) V c).arrAt_eq_of_cover 9 (Cert.Spec.edgeKer (V c main_v4) (V c main_v5) (V c main_arg2) (V c main_v6) (V c main_v7) (V c main_v8) (V c main_v12) (V c main_arg6) (V c main_v13))
    (fun t _ => flushed_eq V c t) covered

end Cert.KernelIdeal.Reg

end
-- ==== Proof.KI.Value1.lean ====
/-
  The node region's output array after the region, over the extended reals: the 20 blocks of 5000 rows tile the
  100,000 x 64 array, block t covering rows [5000 t, 5000 t + 5000), and each flushed block is the split arrangement of
  the node network (Spec.lean) on the rows it covers — the row blocks of the node features and of the aggregated
  messages against the two whole 64 x 128 weight pieces, the effective bias row, the whole second weight matrix and bias row.
-/
import proofs.«408850_j13786845020469_1_alg».proof.Proof.KI.Region1
import proofs.«408850_j13786845020469_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the region is entered, at the ideal instance
variable (V : (c : Dev nD) → (b : Ref sig .tc) → Buf (Elt Ideal) ((c : Thread nD τ).loc b))

/-! ## The two products of the node network, read at an index -/

private theorem lhs_hid_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
private theorem lhs_hid_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
private theorem rhs_hid_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
private theorem rhs_hid_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- A 5000 x 64 block times a 64 x 128 weight piece, into the zero block, at row `p` and hidden unit `k`: the 64-term sum. -/
private theorem hid_product_apply (l : FVec Ideal S5000x64 .bf16) (r : FVec Ideal S64x128 .bf16) (p : Fin 5000) (k : Fin 128) :
    matmul dot_S5000x64_S64x128_S5000x128_1_0_0_1_n_n none l r (constant (F := Ideal) S5000x128 .f32 0x00000000#32) (ix2 p k)
      = ∑ j : Fin 64, l (ix2 p j) * r (ix2 j k) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun j _ => ?_
  have hj := ValueIdx.contrEquiv1_symm_val dot_S5000x64_S64x128_S5000x128_1_0_0_1_n_n 64 rfl rfl j
  have el : dot_S5000x64_S64x128_S5000x128_1_0_0_1_n_n.lhsIdx (ix2 p k) ((ValueIdx.contrEquiv1 dot_S5000x64_S64x128_S5000x128_1_0_0_1_n_n 64 rfl rfl).symm j) = ix2 p j := funext fun a => Fin.ext (by
    match a with
    | ⟨0, _⟩ => exact lhs_hid_0 _ _
    | ⟨1, _⟩ => exact (lhs_hid_1 _ _).trans hj)
  have er : dot_S5000x64_S64x128_S5000x128_1_0_0_1_n_n.rhsIdx (ix2 p k) ((ValueIdx.contrEquiv1 dot_S5000x64_S64x128_S5000x128_1_0_0_1_n_n 64 rfl rfl).symm j) = ix2 j k := funext fun a => Fin.ext (by
    match a with
    | ⟨0, _⟩ => exact (rhs_hid_0 _ _).trans hj
    | ⟨1, _⟩ => exact rhs_hid_1 _ _)
  rw [el, er]

private theorem lhs_out_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
private theorem lhs_out_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
private theorem rhs_out_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
private theorem rhs_out_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A 5000 x 128 block of clipped hidden units times the 128 x 64 second weight matrix, into the zero block, at row `p`
    and output feature `f`: the 128-term sum. -/
private theorem out_product_apply (l : FVec Ideal S5000x128 .bf16) (r : FVec Ideal S128x64 .bf16) (p : Fin 5000) (f : Fin 64) :
    matmul dot_S5000x128_S128x64_S5000x64_1_0_0_1_n_n none l r (constant (F := Ideal) S5000x64 .f32 0x00000000#32) (ix2 p f)
      = ∑ k : Fin 128, l (ix2 p k) * r (ix2 k f) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p f) ((ValueIdx.contrEquiv1 dot_S5000x128_S128x64_S5000x64_1_0_0_1_n_n 128 rfl rfl).symm k) = ix2 p k := funext fun a => Fin.ext (by
    match a with
    | ⟨0, _⟩ => exact lhs_out_0 _ _
    | ⟨1, _⟩ => exact (lhs_out_1 _ _).trans hk)
  have er : dot_S5000x128_S128x64_S5000x64_1_0_0_1_n_n.rhsIdx (ix2 p f) ((ValueIdx.contrEquiv1 dot_S5000x128_S128x64_S5000x64_1_0_0_1_n_n 128 rfl rfl).symm k) = ix2 k f := funext fun a => Fin.ext (by
    match a with
    | ⟨0, _⟩ => exact (rhs_out_0 _ _).trans hk
    | ⟨1, _⟩ => exact rhs_out_1 _ _)
  rw [el, er]

/-! ## The bias rows, spread over the block's rows -/

/-- The 1 x 128 effective first bias spread over 5000 rows reads, at any row, its entry of the hidden unit. -/
private theorem bias1_rows_apply (b : Vec Ideal S1x128 .f32) (p : Fin 5000) (k : Fin 128) :
    broadcastTo S5000x128 b broadcasts_S1x128_S5000x128 (ix2 p k) = b (ix2 0 k) :=
  broadcastTo_apply b broadcasts_S1x128_S5000x128 (ix2 p k) (ix2 0 k) fun a => by
    match a with
    | ⟨0, _⟩ => rfl
    | ⟨1, _⟩ => rfl

/-- The 1 x 64 second bias spread over 5000 rows reads, at any row, its entry of the output feature. -/
private theorem bias2_rows_apply (b : Vec Ideal S1x64 .f32) (p : Fin 5000) (f : Fin 64) :
    broadcastTo S5000x64 b broadcasts_S1x64_S5000x64 (ix2 p f) = b (ix2 0 f) :=
  broadcastTo_apply b broadcasts_S1x64_S5000x64 (ix2 p f) (ix2 0 f) fun a => by
    match a with
    | ⟨0, _⟩ => rfl
    | ⟨1, _⟩ => rfl

/-! ## The stored block at an index -/

/-- What the body stores, at row `p` of the block and output feature `f`, from the seven blocks it read: the node
    network's split arrangement on row `p` of the two feature blocks. -/
private theorem node_payload_apply (x0 x1 : Vec Ideal S5000x64 .f32) (x2 x3 : Vec Ideal S64x128 .f32) (x4 : Vec Ideal S1x128 .f32)
    (x5 : Vec Ideal S128x64 .f32) (x6 : Vec Ideal S1x64 .f32) (p : Fin 5000) (f : Fin 64) :
    k1_pay1 (F := Ideal) x0 x1 x2 x3 x4 x5 x6 (ix2 p f)
      = (∑ k : Fin 128, max (((∑ j : Fin 64, x0 (ix2 p j) * x2 (ix2 j k)) + ∑ j : Fin 64, x1 (ix2 p j) * x3 (ix2 j k)) + x4 (ix2 0 k)) 0
            * x5 (ix2 k f)) + x6 (ix2 0 f) := by
  unfold k1_pay1
  simp only [shapeCast_self]
  rw [addf_apply, out_product_apply, bias2_rows_apply]
  congr 1
  refine Finset.sum_congr rfl fun k _ => ?_
  rw [truncf_apply, truncf_apply, maximumf_apply, addf_apply, addf_apply, hid_product_apply, hid_product_apply, bias1_rows_apply,
    broadcast_apply]
  simp only [truncf_apply]
  show max _ (Ideal.ofBits .f32 0x00000000#32) * _ = _
  rw [Ideal.ofBits_zero_f32]

/-! ## From a stored block to the node network on the rows it covers -/

/-- The stored block at (`p`, `f`) is the node network at array index `i`, once the two feature blocks' row `p` is row
    `i 0` of the two feature arrays, the five small blocks are the five small arrays, and `f` is `i`'s column. -/
private theorem node_block_at (x agg : Cert.Spec.M 100000 64) (w1 w2 : Cert.Spec.M 64 128) (b1 : Cert.Spec.M 1 128)
    (W2 : Cert.Spec.M 128 64) (b2 : Cert.Spec.M 1 64)
    (x0 x1 : Vec Ideal S5000x64 .f32) (x2 x3 : Vec Ideal S64x128 .f32) (x4 : Vec Ideal S1x128 .f32)
    (x5 : Vec Ideal S128x64 .f32) (x6 : Vec Ideal S1x64 .f32) (p : Fin 5000) (f : Fin 64) (i : S100000x64.Idx)
    (h0 : ∀ j : Fin 64, x0 (ix2 p j) = x (ix2 (i 0) j)) (h1 : ∀ j : Fin 64, x1 (ix2 p j) = agg (ix2 (i 0) j))
    (h2 : x2 = w1) (h3 : x3 = w2) (h4 : x4 = b1) (h5 : x5 = W2) (h6 : x6 = b2) (hf : i 1 = f) :
    k1_pay1 (F := Ideal) x0 x1 x2 x3 x4 x5 x6 (ix2 p f) = Cert.Spec.nodeKer x agg w1 w2 b1 W2 b2 i := by
  rw [node_payload_apply]
  subst h2 h3 h4 h5 h6
  unfold Cert.Spec.nodeKer Cert.Spec.nodeOutK Cert.Spec.nodeHidK
  simp only [h0, h1, hf]

private theorem zero_offsets : (![0, 0] : Fin 2 → Nat) = fun _ => 0 := funext fun a => by fin_cases a <;> rfl

/-- The windows' block indices, decided over the 20 points: the two feature windows and the output window move down
    one block of rows per point, in the one column block; the five small windows stay at their one block. -/
private theorem node_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of the node-feature block at point `t` is the array's row under row `p` of the output block at `t`. -/
private theorem feat_block_row (c : Dev nD) (t : Fin cfg1.N) (p : Fin 5000) (f j : Fin 64) :
    (iblk1 (F := Ideal) V c 0 t : Vec Ideal S5000x64 .f32) (ix2 p j)
      = (V c main_arg0 : S100000x64.Idx → EReal) (ix2 ((((cfg1.win 7).blk t).view.emb (ix2 p f) : S100000x64.Idx) 0) j) := by
  obtain ⟨a0, a1, -, -, -, -, -, -, -, -, -, -, -, -, o0, o1⟩ := node_index_facts t
  show (V c main_arg0 : S100000x64.Idx → EReal) (((cfg1.win 0).blk t).view.emb (ix2 p j)) = _
  refine congrArg _ (funext fun a => Fin.ext ?_)
  match a with
  | ⟨0, _⟩ => show win1_0.index t (0 : Fin 2) * 5000 + 1 * p.val = win1_7.index t (0 : Fin 2) * 5000 + 1 * p.val; omega
  | ⟨1, _⟩ => show win1_0.index t (1 : Fin 2) * 64 + 1 * j.val = j.val; omega

/-- Row `p` of the aggregated-message block at point `t`, likewise. -/
private theorem agg_block_row (c : Dev nD) (t : Fin cfg1.N) (p : Fin 5000) (f j : Fin 64) :
    (iblk1 (F := Ideal) V c 1 t : Vec Ideal S5000x64 .f32) (ix2 p j)
      = (V c main_v25 : S100000x64.Idx → EReal) (ix2 ((((cfg1.win 7).blk t).view.emb (ix2 p f) : S100000x64.Idx) 0) j) := by
  obtain ⟨-, -, a0, a1, -, -, -, -, -, -, -, -, -, -, o0, o1⟩ := node_index_facts t
  show (V c main_v25 : S100000x64.Idx → EReal) (((cfg1.win 1).blk t).view.emb (ix2 p j)) = _
  refine congrArg _ (funext fun a => Fin.ext ?_)
  match a with
  | ⟨0, _⟩ => show win1_1.index t (0 : Fin 2) * 5000 + 1 * p.val = win1_7.index t (0 : Fin 2) * 5000 + 1 * p.val; omega
  | ⟨1, _⟩ => show win1_1.index t (1 : Fin 2) * 64 + 1 * j.val = j.val; omega

/-- The first weight piece's block at any point is the whole 64 x 128 array. -/
private theorem w1_block (c : Dev nD) (t : Fin cfg1.N) :
    (iblk1 (F := Ideal) V c 2 t : Vec Ideal S64x128 .f32) = (V c main_v26 : S64x128.Idx → EReal) := by
  obtain ⟨-, -, -, -, a0, a1, -, -, -, -, -, -, -, -, -, -⟩ := node_index_facts t
  funext y
  show (V c main_v26 : S64x128.Idx → EReal) (((cfg1.win 2).blk t).view.emb y) = _
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 128 + 1 * (y 1).val = (y 1).val; omega

/-- The second weight piece's block at any point is the whole 64 x 128 array. -/
private theorem w2_block (c : Dev nD) (t : Fin cfg1.N) :
    (iblk1 (F := Ideal) V c 3 t : Vec Ideal S64x128 .f32) = (V c main_v27 : S64x128.Idx → EReal) := by
  obtain ⟨-, -, -, -, -, -, a0, a1, -, -, -, -, -, -, -, -⟩ := node_index_facts t
  funext y
  show (V c main_v27 : S64x128.Idx → EReal) (((cfg1.win 3).blk t).view.emb y) = _
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 128 + 1 * (y 1).val = (y 1).val; omega

/-- The effective first bias's block at any point is the whole 1 x 128 row. -/
private theorem b1_block (c : Dev nD) (t : Fin cfg1.N) :
    (iblk1 (F := Ideal) V c 4 t : Vec Ideal S1x128 .f32) = (V c main_v31 : S1x128.Idx → EReal) := by
  obtain ⟨-, -, -, -, -, -, -, -, a0, a1, -, -, -, -, -, -⟩ := node_index_facts t
  funext y
  show (V c main_v31 : S1x128.Idx → EReal) (((cfg1.win 4).blk t).view.emb y) = _
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The second weight matrix's block at any point is the whole 128 x 64 array. -/
private theorem W2_block (c : Dev nD) (t : Fin cfg1.N) :
    (iblk1 (F := Ideal) V c 5 t : Vec Ideal S128x64 .f32) = (V c main_arg10 : S128x64.Idx → EReal) := by
  obtain ⟨-, -, -, -, -, -, -, -, -, -, a0, a1, -, -, -, -⟩ := node_index_facts t
  funext y
  show (V c main_arg10 : S128x64.Idx → EReal) (((cfg1.win 5).blk t).view.emb y) = _
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 64 + 1 * (y 1).val = (y 1).val; omega

/-- The second bias's block at any point is the whole 1 x 64 row. -/
private theorem b2_block (c : Dev nD) (t : Fin cfg1.N) :
    (iblk1 (F := Ideal) V c 6 t : Vec Ideal S1x64 .f32) = (V c main_v32 : S1x64.Idx → EReal) := by
  obtain ⟨-, -, -, -, -, -, -, -, -, -, -, -, a0, a1, -, -⟩ := node_index_facts t
  funext y
  show (V c main_v32 : S1x64.Idx → EReal) (((cfg1.win 6).blk t).view.emb y) = _
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 64 + 1 * (y 1).val = (y 1).val; omega

/-- The column of an index of the output block at point `t` is its column in the array. -/
private theorem out_block_col (t : Fin cfg1.N) (p : Fin 5000) (f : Fin 64) :
    (((cfg1.win 7).blk t).view.emb (ix2 p f) : S100000x64.Idx) 1 = f := by
  obtain ⟨-, -, -, -, -, -, -, -, -, -, -, -, -, -, o0, o1⟩ := node_index_facts t
  refine Fin.ext ?_
  show win1_7.index t (1 : Fin 2) * 64 + 1 * f.val = f.val
  omega

/-- What point `t` writes back is block `t` of the node network of the seven arrays as the region finds them. -/
private theorem node_flushed (c : Dev nD) (t : Fin cfg1.N) :
    (dat1 (F := Ideal) V c).flushed 7 t
      = ((cfg1.win 7).blk t).view.read (Elt Ideal)
          (Cert.Spec.nodeKer (V c main_arg0) (V c main_v25) (V c main_v26) (V c main_v27) (V c main_v31) (V c main_arg10) (V c main_v32)) := by
  show (cfg1.win 7).cut (grid1.coords t) ((dat1 (F := Ideal) V c).after 7 t) = _
  rw [after1_7]
  unfold out1_7
  rw [View.canon_unit_zero zero_offsets]
  simp only [View.ld_unit_zero (S := S5000x64) zero_offsets, View.ld_unit_zero (S := S64x128) zero_offsets,
    View.ld_unit_zero (S := S1x128) zero_offsets, View.ld_unit_zero (S := S128x64) zero_offsets,
    View.ld_unit_zero (S := S1x64) zero_offsets]
  funext y
  obtain ⟨p, f, rfl⟩ : ∃ (p : Fin 5000) (f : Fin 64), y = ix2 p f := ⟨y 0, y 1, eq_ix2 y⟩
  exact node_block_at (V c main_arg0) (V c main_v25) (V c main_v26) (V c main_v27) (V c main_v31) (V c main_arg10) (V c main_v32)
    (iblk1 (F := Ideal) V c 0 t) (iblk1 (F := Ideal) V c 1 t) (iblk1 (F := Ideal) V c 2 t) (iblk1 (F := Ideal) V c 3 t)
    (iblk1 (F := Ideal) V c 4 t) (iblk1 (F := Ideal) V c 5 t) (iblk1 (F := Ideal) V c 6 t) p f
    (((cfg1.win 7).blk t).view.emb (ix2 p f))
    (fun j => feat_block_row V c t p f j) (fun j => agg_block_row V c t p f j)
    (w1_block V c t) (w2_block V c t) (b1_block V c t) (W2_block V c t) (b2_block V c t) (out_block_col t p f)

/-- An index of the array is in point `t`'s block iff each coordinate is in the block's range on its axis. -/
private theorem mem_out_block (t : Fin cfg1.N) (i : S100000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v33).slice (win1_7.rect t)).set ↔ _
  rw [View.set_slice_whole, Rect.mem_set_unit]
  exact Iff.rfl

/-- The 20 blocks of 5000 rows tile the 100,000 rows: row `r` is in the block of point `r / 5000`. -/
private theorem out_blocks_cover (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega) N_1.symm⟩, rfl⟩
  obtain ⟨-, -, -, -, -, -, -, -, -, -, -, -, -, -, o0, o1⟩ := node_index_facts t
  refine ⟨t, flush1_7 t, ?_⟩
  rw [mem_out_block]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

/-- After the node region its output array holds, index by index, the node network in the split arrangement of the
    seven arrays the region read, as it found them. -/
theorem node_value (c : Dev nD) :
    (dat1 (F := Ideal) V c).arrAt 7 cfg1.N
      = Cert.Spec.nodeKer (V c main_arg0) (V c main_v25) (V c main_v26) (V c main_v27) (V c main_v31) (V c main_arg10) (V c main_v32) :=
  (dat1 (F := Ideal) V c).arrAt_eq_of_cover 7 _ (fun t _ => node_flushed V c t) out_blocks_cover

end Cert.KernelIdeal.Reg

end
-- ==== Proof.KI.HostIdx.lean ====
/-
  The arrays the kernel program prepares on the host for its two regions, read at an index over the extended reals:
  a 64-row slice of a weight matrix starting at row r reads the matrix at row r + j; the effective first bias (the bias
  vector as a row, plus the 1 x 16 global features times the matrix's first 16 rows) reads, at column k, the bias at k
  plus the 16-term sum; a bias vector reshaped to a row reads the vector.
-/
import proofs.«408850_j13786845020469_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HostIdx

open Cert.KernelIdeal Cert.KernelIdeal.Gen Idealize.ShloMosaic Idealize.ShloMosaic.ValueIdx

/-! ## The host's 1 x 16 by 16 x 128 product, the first 16 rows of a weight matrix, and a 128-vector as a row -/

/-- The left operand's index on its kept axis is the output's row. -/
private theorem lhs_dot_0 (i : S1x128.Idx) (q : dot_S1x16_S16x128_S1x128_1_0_0_1_n_n.contr.Idx) :
    (dot_S1x16_S16x128_S1x128_1_0_0_1_n_n.lhsIdx i q 0).val = (i 0).val := by
  unfold DotDims.lhsIdx
  rw [dif_neg (show ¬(0 : Fin S1x16.rank) ∈ dot_S1x16_S16x128_S1x128_1_0_0_1_n_n.lhsBatch by decide), dif_pos (show (0 : Fin S1x16.rank) ∈ dot_S1x16_S16x128_S1x128_1_0_0_1_n_n.lhsNonContracting by decide)]
  rfl
/-- The left operand's index on its contracted axis is the contraction index. -/
private theorem lhs_dot_1 (i : S1x128.Idx) (q : dot_S1x16_S16x128_S1x128_1_0_0_1_n_n.contr.Idx) :
    (dot_S1x16_S16x128_S1x128_1_0_0_1_n_n.lhsIdx i q 1).val = (q ⟨0, by decide⟩).val :=
  dot_S1x16_S16x128_S1x128_1_0_0_1_n_n.lhsIdx_val_of_single rfl i q
/-- The right operand's index on its contracted axis is the contraction index. -/
private theorem rhs_dot_0 (i : S1x128.Idx) (q : dot_S1x16_S16x128_S1x128_1_0_0_1_n_n.contr.Idx) :
    (dot_S1x16_S16x128_S1x128_1_0_0_1_n_n.rhsIdx i q 0).val = (q ⟨0, by decide⟩).val :=
  dot_S1x16_S16x128_S1x128_1_0_0_1_n_n.rhsIdx_val_of_single rfl i q
/-- The right operand's index on its kept axis is the output's column. -/
private theorem rhs_dot_1 (i : S1x128.Idx) (q : dot_S1x16_S16x128_S1x128_1_0_0_1_n_n.contr.Idx) :
    (dot_S1x16_S16x128_S1x128_1_0_0_1_n_n.rhsIdx i q 1).val = (i 1).val := by
  unfold DotDims.rhsIdx
  rw [dif_neg (show ¬(1 : Fin S16x128.rank) ∈ dot_S1x16_S16x128_S1x128_1_0_0_1_n_n.rhsBatch by decide), dif_pos (show (1 : Fin S16x128.rank) ∈ dot_S1x16_S16x128_S1x128_1_0_0_1_n_n.rhsNonContracting by decide)]
  rfl

/-- Over the extended reals the host's product of a 1 x 16 row with a 16 x 128 matrix is, at column `k`, the 16-term sum. -/
private theorem hostDot_apply (g : FVec Ideal S1x16 .f32) (V : FVec Ideal S16x128 .f32) (k : Fin 128) :
    Host.dotGeneral dot_S1x16_S16x128_S1x128_1_0_0_1_n_n none g V (ix2 0 k) = ∑ j : Fin 16, g (ix2 0 j) * V (ix2 j k) := by
  simp only [Host.dotGeneral]
  rw [Ideal.dotGeneral_apply, ← Equiv.sum_comp (ValueIdx.contrEquiv1 dot_S1x16_S16x128_S1x128_1_0_0_1_n_n 16 rfl rfl).symm]
  refine Finset.sum_congr rfl fun j _ => ?_
  have hj := ValueIdx.contrEquiv1_symm_val dot_S1x16_S16x128_S1x128_1_0_0_1_n_n 16 rfl rfl j
  have el : dot_S1x16_S16x128_S1x128_1_0_0_1_n_n.lhsIdx (ix2 0 k) ((ValueIdx.contrEquiv1 dot_S1x16_S16x128_S1x128_1_0_0_1_n_n 16 rfl rfl).symm j) = ix2 0 j := funext fun a => Fin.ext (by
    match a with
    | ⟨0, _⟩ => exact lhs_dot_0 _ _
    | ⟨1, _⟩ => exact (lhs_dot_1 _ _).trans hj)
  have er : dot_S1x16_S16x128_S1x128_1_0_0_1_n_n.rhsIdx (ix2 0 k) ((ValueIdx.contrEquiv1 dot_S1x16_S16x128_S1x128_1_0_0_1_n_n 16 rfl rfl).symm j) = ix2 j k := funext fun a => Fin.ext (by
    match a with
    | ⟨0, _⟩ => exact (rhs_dot_0 _ _).trans hj
    | ⟨1, _⟩ => exact rhs_dot_1 _ _)
  rw [el, er]

/-- A 128-vector reshaped to a 1 x 128 row reads the vector: both positions are `k` in row-major order. -/
private theorem row128 (b : FVec Ideal S128 .f32) (k : Fin 128) : shapeCast _ b shapeCasts_S128_S1x128 (ix2 0 k) = b (ix1 k) := by
  refine shapeCast_apply b shapeCasts_S128_S1x128 (ix2 0 k) (ix1 k) ?_
  rewrite [Shape.rowMajor_val_two, Shape.rowMajor_val_one]
  show k.val = 0 * 128 + k.val
  omega

/-- The first 16 rows of the 208-row matrix. -/
private theorem slice208_0 (W : FVec Ideal S208x128 .f32) (j : Fin 16) (k : Fin 128) :
    extractStridedSlice S16x128 ![0, 0] W slices_S208x128_S16x128_0_0 (ix2 j k) = W (ix2 ⟨j.val, by omega⟩ k) := by
  refine extractStridedSlice_apply _ W _ _ _ (fun a => ?_)
  match a with
  | ⟨0, _⟩ => exact (Nat.zero_add j.val).symm
  | ⟨1, _⟩ => exact (Nat.zero_add k.val).symm
/-- The first 16 rows of the 144-row matrix. -/
private theorem slice144_0 (W : FVec Ideal S144x128 .f32) (j : Fin 16) (k : Fin 128) :
    extractStridedSlice S16x128 ![0, 0] W slices_S144x128_S16x128_0_0 (ix2 j k) = W (ix2 ⟨j.val, by omega⟩ k) := by
  refine extractStridedSlice_apply _ W _ _ _ (fun a => ?_)
  match a with
  | ⟨0, _⟩ => exact (Nat.zero_add j.val).symm
  | ⟨1, _⟩ => exact (Nat.zero_add k.val).symm

/-! ## The edge network's first weight matrix (208 rows) -/

theorem slice208_16 (W : FVec Ideal S208x128 .f32) (j : Fin 64) (k : Fin 128) :
    extractStridedSlice S64x128 ![16, 0] W slices_S208x128_S64x128_16_0 (ix2 j k) = W (ix2 ⟨16 + j.val, by omega⟩ k) := by
  refine extractStridedSlice_apply _ W _ _ _ (fun a => ?_)
  match a with
  | ⟨0, _⟩ => rfl
  | ⟨1, _⟩ => exact (Nat.zero_add k.val).symm
theorem slice208_80 (W : FVec Ideal S208x128 .f32) (j : Fin 64) (k : Fin 128) :
    extractStridedSlice S64x128 ![80, 0] W slices_S208x128_S64x128_80_0 (ix2 j k) = W (ix2 ⟨80 + j.val, by omega⟩ k) := by
  refine extractStridedSlice_apply _ W _ _ _ (fun a => ?_)
  match a with
  | ⟨0, _⟩ => rfl
  | ⟨1, _⟩ => exact (Nat.zero_add k.val).symm
theorem slice208_144 (W : FVec Ideal S208x128 .f32) (j : Fin 64) (k : Fin 128) :
    extractStridedSlice S64x128 ![144, 0] W slices_S208x128_S64x128_144_0 (ix2 j k) = W (ix2 ⟨144 + j.val, by omega⟩ k) := by
  refine extractStridedSlice_apply _ W _ _ _ (fun a => ?_)
  match a with
  | ⟨0, _⟩ => rfl
  | ⟨1, _⟩ => exact (Nat.zero_add k.val).symm
/-- The edge network's effective first bias at column `k`. -/
theorem effBias208 (b : FVec Ideal S128 .f32) (g : FVec Ideal S1x16 .f32) (W : FVec Ideal S208x128 .f32) (k : Fin 128) :
    addf (shapeCast _ b shapeCasts_S128_S1x128)
        (Host.dotGeneral dot_S1x16_S16x128_S1x128_1_0_0_1_n_n none g (extractStridedSlice S16x128 ![0, 0] W slices_S208x128_S16x128_0_0)) (ix2 0 k)
      = b (ix1 k) + ∑ j : Fin 16, g (ix2 0 j) * W (ix2 ⟨j.val, by omega⟩ k) := by
  rw [addf_apply, row128, hostDot_apply]
  refine congrArg (b (ix1 k) + ·) (Finset.sum_congr rfl fun j _ => ?_)
  rw [slice208_0]

/-! ## The node network's first weight matrix (144 rows) -/

theorem slice144_16 (W : FVec Ideal S144x128 .f32) (j : Fin 64) (k : Fin 128) :
    extractStridedSlice S64x128 ![16, 0] W slices_S144x128_S64x128_16_0 (ix2 j k) = W (ix2 ⟨16 + j.val, by omega⟩ k) := by
  refine extractStridedSlice_apply _ W _ _ _ (fun a => ?_)
  match a with
  | ⟨0, _⟩ => rfl
  | ⟨1, _⟩ => exact (Nat.zero_add k.val).symm
theorem slice144_80 (W : FVec Ideal S144x128 .f32) (j : Fin 64) (k : Fin 128) :
    extractStridedSlice S64x128 ![80, 0] W slices_S144x128_S64x128_80_0 (ix2 j k) = W (ix2 ⟨80 + j.val, by omega⟩ k) := by
  refine extractStridedSlice_apply _ W _ _ _ (fun a => ?_)
  match a with
  | ⟨0, _⟩ => rfl
  | ⟨1, _⟩ => exact (Nat.zero_add k.val).symm
/-- The node network's effective first bias at column `k`. -/
theorem effBias144 (b : FVec Ideal S128 .f32) (g : FVec Ideal S1x16 .f32) (W : FVec Ideal S144x128 .f32) (k : Fin 128) :
    addf (shapeCast _ b shapeCasts_S128_S1x128)
        (Host.dotGeneral dot_S1x16_S16x128_S1x128_1_0_0_1_n_n none g (extractStridedSlice S16x128 ![0, 0] W slices_S144x128_S16x128_0_0)) (ix2 0 k)
      = b (ix1 k) + ∑ j : Fin 16, g (ix2 0 j) * W (ix2 ⟨j.val, by omega⟩ k) := by
  rw [addf_apply, row128, hostDot_apply]
  refine congrArg (b (ix1 k) + ·) (Finset.sum_congr rfl fun j _ => ?_)
  rw [slice144_0]

/-! ## A 64-vector as a 1 x 64 row -/

theorem row64 (b : FVec Ideal S64 .f32) (f : Fin 64) : shapeCast _ b shapeCasts_S64_S1x64 (ix2 0 f) = b (ix1 f) := by
  refine shapeCast_apply b shapeCasts_S64_S1x64 (ix2 0 f) (ix1 f) ?_
  rewrite [Shape.rowMajor_val_two, Shape.rowMajor_val_one]
  show f.val = 0 * 64 + f.val
  omega

end Cert.KernelIdeal.HostIdx

end
-- ==== Proof.SpecLaw.lean ====
/-
  The two arrangements of each network's sums agree (see Spec.lean's header): a sum over the concatenated features is
  the sum of the pieces' sums, and the effective bias row already holds the bias plus the global features' part.
-/
import proofs.«408850_j13786845020469_1_alg».proof.Proof.Spec
import Mathlib.Algebra.BigOperators.Fin

noncomputable section

open scoped BigOperators

namespace Cert.Spec

open Idealize.ShloMosaic Idealize.ShloMosaic.ValueIdx

/-- Five summands reordered, by commutativity and associativity of addition alone. -/
private theorem reorder5 (A B C G c : EReal) : ((A + B) + C) + (c + G) = (((G + A) + B) + C) + c := by
  rw [add_assoc (G + A) B C, add_assoc G A (B + C), ← add_assoc A B C, add_comm G ((A + B) + C),
    add_assoc ((A + B) + C) G c, add_comm G c]

/-- Four summands reordered, likewise. -/
private theorem reorder4 (A B G c : EReal) : (A + B) + (c + G) = ((G + A) + B) + c := by
  rw [add_assoc G A B, add_comm G (A + B), add_assoc (A + B) G c, add_comm G c]

/-- A sum over `n = a + b` consecutive indices is the sum over the first `a` plus the sum over the last `b`. -/
private theorem sum_cut {a b n : Nat} (h : n = a + b) (F : Fin n → EReal) :
    ∑ j : Fin n, F j = (∑ j : Fin a, F ⟨j.val, by omega⟩) + ∑ j : Fin b, F ⟨a + j.val, by omega⟩ := by
  subst h
  rw [Fin.sum_univ_add]
  rfl

/-- A sum over 208 consecutive indices cut at 16, 80 and 144. -/
private theorem sum_cut4 (F : Fin 208 → EReal) :
    ∑ j : Fin 208, F j
      = (((∑ j : Fin 16, F ⟨j.val, by omega⟩) + ∑ j : Fin 64, F ⟨16 + j.val, by omega⟩)
          + ∑ j : Fin 64, F ⟨80 + j.val, by omega⟩) + ∑ j : Fin 64, F ⟨144 + j.val, by omega⟩ := by
  rw [sum_cut (a := 144) (b := 64) rfl F,
    sum_cut (a := 80) (b := 64) rfl (fun j : Fin 144 => F ⟨j.val, by omega⟩),
    sum_cut (a := 16) (b := 64) rfl (fun j : Fin 80 => F ⟨j.val, by omega⟩)]

/-- A sum over 144 consecutive indices cut at 16 and 80. -/
private theorem sum_cut3 (F : Fin 144 → EReal) :
    ∑ j : Fin 144, F j
      = ((∑ j : Fin 16, F ⟨j.val, by omega⟩) + ∑ j : Fin 64, F ⟨16 + j.val, by omega⟩)
          + ∑ j : Fin 64, F ⟨80 + j.val, by omega⟩ := by
  rw [sum_cut (a := 80) (b := 64) rfl F,
    sum_cut (a := 16) (b := 64) rfl (fun j : Fin 80 => F ⟨j.val, by omega⟩)]

/-- The hidden units agree: cut the 208-term sum into its four pieces, read the concatenated input on each piece, and
    reorder the five summands. -/
private theorem edgeHid_eq (g : M 1 16) (xr xc ea : M 1200000 64) (We1 : M 208 128) (be1 : Vc 128)
    (w1 w2 w3 : M 64 128) (b1 : M 1 128)
    (h1 : ∀ (j : Fin 64) (k : Fin 128), w1 (ix2 j k) = We1 (ix2 ⟨16 + j.val, by omega⟩ k))
    (h2 : ∀ (j : Fin 64) (k : Fin 128), w2 (ix2 j k) = We1 (ix2 ⟨80 + j.val, by omega⟩ k))
    (h3 : ∀ (j : Fin 64) (k : Fin 128), w3 (ix2 j k) = We1 (ix2 ⟨144 + j.val, by omega⟩ k))
    (hb1 : ∀ k : Fin 128, b1 (ix2 0 k) = be1 (ix1 k) + ∑ j : Fin 16, g (ix2 0 j) * We1 (ix2 ⟨j.val, by omega⟩ k))
    (e : Fin 1200000) (k : Fin 128) :
    edgeHidK xr xc ea w1 w2 w3 b1 e k = edgeHidR g xr xc ea We1 be1 e k := by
  unfold edgeHidK edgeHidR
  rw [sum_cut4, hb1 k]
  have eG : ∀ j : Fin 16, edgeCat g xr xc ea e ⟨j.val, by omega⟩ = g (ix2 0 j) := by
    intro j
    unfold edgeCat
    rw [dif_pos (show (⟨j.val, by omega⟩ : Fin 208).val < 16 from j.isLt)]
  have eR : ∀ j : Fin 64, edgeCat g xr xc ea e ⟨16 + j.val, by omega⟩ = xr (ix2 e j) := by
    intro j
    unfold edgeCat
    rw [dif_neg (show ¬ (⟨16 + j.val, by omega⟩ : Fin 208).val < 16 by simp),
      dif_pos (show (⟨16 + j.val, by omega⟩ : Fin 208).val < 80 by have := j.isLt; simp; omega)]
    congr 2
    exact Fin.ext (by simp)
  have eC : ∀ j : Fin 64, edgeCat g xr xc ea e ⟨80 + j.val, by omega⟩ = xc (ix2 e j) := by
    intro j
    unfold edgeCat
    rw [dif_neg (show ¬ (⟨80 + j.val, by omega⟩ : Fin 208).val < 16 by simp; omega),
      dif_neg (show ¬ (⟨80 + j.val, by omega⟩ : Fin 208).val < 80 by simp),
      dif_pos (show (⟨80 + j.val, by omega⟩ : Fin 208).val < 144 by have := j.isLt; simp; omega)]
    congr 2
    exact Fin.ext (by simp)
  have eA : ∀ j : Fin 64, edgeCat g xr xc ea e ⟨144 + j.val, by omega⟩ = ea (ix2 e j) := by
    intro j
    unfold edgeCat
    rw [dif_neg (show ¬ (⟨144 + j.val, by omega⟩ : Fin 208).val < 16 by simp; omega),
      dif_neg (show ¬ (⟨144 + j.val, by omega⟩ : Fin 208).val < 80 by simp; omega),
      dif_neg (show ¬ (⟨144 + j.val, by omega⟩ : Fin 208).val < 144 by simp)]
    congr 2
    exact Fin.ext (by simp)
  simp only [eG, eR, eC, eA, h1, h2, h3]
  exact reorder5 _ _ _ _ _

/-- The edge network: the split arrangement over the weight matrix's row pieces [16, 80), [80, 144), [144, 208) and the
    effective bias (bias plus the 16 global features against rows [0, 16)) is the concatenated arrangement. -/
theorem edgeKer_eq_edgeRef (g : M 1 16) (xr xc ea : M 1200000 64) (We1 : M 208 128) (be1 : Vc 128) (We2 : M 128 64) (be2 : Vc 64)
    (w1 w2 w3 : M 64 128) (b1 : M 1 128) (b2 : M 1 64)
    (h1 : ∀ (j : Fin 64) (k : Fin 128), w1 (ix2 j k) = We1 (ix2 ⟨16 + j.val, by omega⟩ k))
    (h2 : ∀ (j : Fin 64) (k : Fin 128), w2 (ix2 j k) = We1 (ix2 ⟨80 + j.val, by omega⟩ k))
    (h3 : ∀ (j : Fin 64) (k : Fin 128), w3 (ix2 j k) = We1 (ix2 ⟨144 + j.val, by omega⟩ k))
    (hb1 : ∀ k : Fin 128, b1 (ix2 0 k) = be1 (ix1 k) + ∑ j : Fin 16, g (ix2 0 j) * We1 (ix2 ⟨j.val, by omega⟩ k))
    (hb2 : ∀ f : Fin 64, b2 (ix2 0 f) = be2 (ix1 f)) :
    edgeKer xr xc ea w1 w2 w3 b1 We2 b2 = edgeRef g xr xc ea We1 be1 We2 be2 := by
  have out : ∀ (e : Fin 1200000) (f : Fin 64),
      edgeOutK xr xc ea w1 w2 w3 b1 We2 b2 e f = edgeOutR g xr xc ea We1 be1 We2 be2 e f := by
    intro e f
    unfold edgeOutK edgeOutR
    rw [hb2 f]
    simp only [edgeHid_eq g xr xc ea We1 be1 w1 w2 w3 b1 h1 h2 h3 hb1]
  funext i
  exact out (i 0) (i 1)

/-- The hidden units of the node network agree, likewise with three pieces. -/
private theorem nodeHid_eq (g : M 1 16) (x agg : M 100000 64) (Wn1 : M 144 128) (bn1 : Vc 128)
    (w1 w2 : M 64 128) (b1 : M 1 128)
    (h1 : ∀ (j : Fin 64) (k : Fin 128), w1 (ix2 j k) = Wn1 (ix2 ⟨16 + j.val, by omega⟩ k))
    (h2 : ∀ (j : Fin 64) (k : Fin 128), w2 (ix2 j k) = Wn1 (ix2 ⟨80 + j.val, by omega⟩ k))
    (hb1 : ∀ k : Fin 128, b1 (ix2 0 k) = bn1 (ix1 k) + ∑ j : Fin 16, g (ix2 0 j) * Wn1 (ix2 ⟨j.val, by omega⟩ k))
    (n : Fin 100000) (k : Fin 128) :
    nodeHidK x agg w1 w2 b1 n k = nodeHidR g x agg Wn1 bn1 n k := by
  unfold nodeHidK nodeHidR
  rw [sum_cut3, hb1 k]
  have eG : ∀ j : Fin 16, nodeCat g x agg n ⟨j.val, by omega⟩ = g (ix2 0 j) := by
    intro j
    unfold nodeCat
    rw [dif_pos (show (⟨j.val, by omega⟩ : Fin 144).val < 16 from j.isLt)]
  have eX : ∀ j : Fin 64, nodeCat g x agg n ⟨16 + j.val, by omega⟩ = x (ix2 n j) := by
    intro j
    unfold nodeCat
    rw [dif_neg (show ¬ (⟨16 + j.val, by omega⟩ : Fin 144).val < 16 by simp),
      dif_pos (show (⟨16 + j.val, by omega⟩ : Fin 144).val < 80 by have := j.isLt; simp; omega)]
    congr 2
    exact Fin.ext (by simp)
  have eA : ∀ j : Fin 64, nodeCat g x agg n ⟨80 + j.val, by omega⟩ = agg (ix2 n j) := by
    intro j
    unfold nodeCat
    rw [dif_neg (show ¬ (⟨80 + j.val, by omega⟩ : Fin 144).val < 16 by simp; omega),
      dif_neg (show ¬ (⟨80 + j.val, by omega⟩ : Fin 144).val < 80 by simp)]
    congr 2
    exact Fin.ext (by simp)
  simp only [eG, eX, eA, h1, h2]
  exact reorder4 _ _ _ _

/-- The node network, likewise: row pieces [16, 80) and [80, 144) of the 144-row weight matrix. -/
theorem nodeKer_eq_nodeRef (g : M 1 16) (x agg : M 100000 64) (Wn1 : M 144 128) (bn1 : Vc 128) (Wn2 : M 128 64) (bn2 : Vc 64)
    (w1 w2 : M 64 128) (b1 : M 1 128) (b2 : M 1 64)
    (h1 : ∀ (j : Fin 64) (k : Fin 128), w1 (ix2 j k) = Wn1 (ix2 ⟨16 + j.val, by omega⟩ k))
    (h2 : ∀ (j : Fin 64) (k : Fin 128), w2 (ix2 j k) = Wn1 (ix2 ⟨80 + j.val, by omega⟩ k))
    (hb1 : ∀ k : Fin 128, b1 (ix2 0 k) = bn1 (ix1 k) + ∑ j : Fin 16, g (ix2 0 j) * Wn1 (ix2 ⟨j.val, by omega⟩ k))
    (hb2 : ∀ f : Fin 64, b2 (ix2 0 f) = bn2 (ix1 f)) :
    nodeKer x agg w1 w2 b1 Wn2 b2 = nodeRef g x agg Wn1 bn1 Wn2 bn2 := by
  have out : ∀ (n : Fin 100000) (f : Fin 64),
      nodeOutK x agg w1 w2 b1 Wn2 b2 n f = nodeOutR g x agg Wn1 bn1 Wn2 bn2 n f := by
    intro n f
    unfold nodeOutK nodeOutR
    rw [hb2 f]
    simp only [nodeHid_eq g x agg Wn1 bn1 w1 w2 b1 h1 h2 hb1]
  funext i
  exact out (i 0) (i 1)

end Cert.Spec

end
-- ==== Proof.Ref.RefValue.lean ====
/-
  The reference's two networks, read index by index over the extended reals: its edge outputs are the edge network
  in the concatenated arrangement (Spec.lean) of the gathered source rows, the gathered target rows, the edge
  attributes and the global features against the whole first weight matrix; its node outputs the node network in the
  concatenated arrangement of the global features, the node features and the aggregated messages.
-/
import proofs.«408850_j13786845020469_1_alg».proof.Proof.Ref.ReadP
import proofs.«408850_j13786845020469_1_alg».proof.Proof.Spec

noncomputable section

open scoped BigOperators

namespace Cert.RefValue

open Cert.ReferenceIdeal Cert.ReferenceIdeal.Gen Cert.ReferenceIdeal.ReadP Idealize.ShloMosaic Idealize.ShloMosaic.ValueIdx

/-! ## The edge network -/

/-- A concatenation along the columns of a 16-wide block and three 64-wide blocks, read at row `e`, column `k`:
    the block whose span of columns holds `k`, at `k` less the widths before it. -/
private theorem cat4_apply {α : Type} (G : S1200000x16.Idx → α) (A B C : S1200000x64.Idx → α)
    (e : Fin 1200000) (k : Fin 208) :
    concatenate S1200000x208 1 [⟨S1200000x16, G⟩, ⟨S1200000x64, A⟩, ⟨S1200000x64, B⟩, ⟨S1200000x64, C⟩]
        concatenates_S1200000x16_S1200000x64_S1200000x64_S1200000x64_S1200000x208_d1 (ix2 e k)
      = if h : k.val < 16 then G (ix2 e ⟨k.val, h⟩)
        else if h2 : k.val < 80 then A (ix2 e ⟨k.val - 16, by omega⟩)
        else if h3 : k.val < 144 then B (ix2 e ⟨k.val - 80, by omega⟩)
        else C (ix2 e ⟨k.val - 144, by have := k.isLt; omega⟩) := by
  have hk := k.isLt
  by_cases h : k.val < 16
  · rw [dif_pos h]
    exact concatenate_apply_piece (1 : Fin S1200000x208.rank) _ _ (ix2 e k) 0 (by show (0 : Nat) < 4; omega) S1200000x16 G rfl rfl 0 rfl
      (ix2 e ⟨k.val, h⟩)
      (fun b hb => by match b with | ⟨0, _⟩ => rfl | ⟨1, _⟩ => exact absurd rfl hb)
      (by show 0 + k.val = k.val; omega)
  · rw [dif_neg h]
    by_cases h2 : k.val < 80
    · rw [dif_pos h2]
      exact concatenate_apply_piece (1 : Fin S1200000x208.rank) _ _ (ix2 e k) 1 (by show (1 : Nat) < 4; omega) S1200000x64 A rfl rfl 16 rfl
        (ix2 e ⟨k.val - 16, by omega⟩)
        (fun b hb => by match b with | ⟨0, _⟩ => rfl | ⟨1, _⟩ => exact absurd rfl hb)
        (by show 16 + (k.val - 16) = k.val; omega)
    · rw [dif_neg h2]
      by_cases h3 : k.val < 144
      · rw [dif_pos h3]
        exact concatenate_apply_piece (1 : Fin S1200000x208.rank) _ _ (ix2 e k) 2 (by show (2 : Nat) < 4; omega) S1200000x64 B rfl rfl 80 rfl
          (ix2 e ⟨k.val - 80, by omega⟩)
          (fun b hb => by match b with | ⟨0, _⟩ => rfl | ⟨1, _⟩ => exact absurd rfl hb)
          (by show 80 + (k.val - 80) = k.val; omega)
      · rw [dif_neg h3]
        exact concatenate_apply_piece (1 : Fin S1200000x208.rank) _ _ (ix2 e k) 3 (by show (3 : Nat) < 4; omega) S1200000x64 C rfl rfl 144 rfl
          (ix2 e ⟨k.val - 144, by omega⟩)
          (fun b hb => by match b with | ⟨0, _⟩ => rfl | ⟨1, _⟩ => exact absurd rfl hb)
          (by show 144 + (k.val - 144) = k.val; omega)

/-- The reference's concatenated edge features at edge `e`, position `k`: the global features in the first 16
    columns (the same for every edge), then the gathered source row, the gathered target row and the attributes. -/
private theorem edge_cat_apply (x0 : (⟨S100000x64, .f32⟩ : BufTy).Contents (Elt Ideal)) (x1 : (⟨S2x1200000, .i32⟩ : BufTy).Contents (Elt Ideal)) (x2 : (⟨S1200000x64, .f32⟩ : BufTy).Contents (Elt Ideal)) (x3 : (⟨S1x16, .f32⟩ : BufTy).Contents (Elt Ideal)) (e : Fin 1200000) (k : Fin 208) :
    val_main_v19 (F := Ideal) x0 x1 x2 x3 (ix2 e k)
      = Cert.Spec.edgeCat x3 (val_main_v11 (F := Ideal) x0 x1) (val_main_v18 (F := Ideal) x0 x1) x2 e k := by
  unfold val_main_v19
  generalize val_main_v11 (F := Ideal) x0 x1 = A
  generalize val_main_v18 (F := Ideal) x0 x1 = B
  refine (cat4_apply (val_main_v4 (F := Ideal) x3) A B x2 e k).trans ?_
  unfold Cert.Spec.edgeCat
  by_cases h : k.val < 16
  · rw [dif_pos h, dif_pos h, val_main_v4_apply]
    exact congrArg x3 (funext fun a => Fin.ext (by match a with | ⟨0, _⟩ => rfl | ⟨1, _⟩ => rfl))
  · rw [dif_neg h, dif_neg h]

/-- The reference's hidden layer at edge `e`, unit `k`, after the clip at zero. -/
private theorem edge_hid_apply (x0 : (⟨S100000x64, .f32⟩ : BufTy).Contents (Elt Ideal)) (x1 : (⟨S2x1200000, .i32⟩ : BufTy).Contents (Elt Ideal)) (x2 : (⟨S1200000x64, .f32⟩ : BufTy).Contents (Elt Ideal)) (x3 : (⟨S1x16, .f32⟩ : BufTy).Contents (Elt Ideal)) (x4 : (⟨S208x128, .f32⟩ : BufTy).Contents (Elt Ideal)) (x5 : (⟨S128, .f32⟩ : BufTy).Contents (Elt Ideal)) (e : Fin 1200000) (k : Fin 128) :
    val_main_v24 (F := Ideal) x0 x1 x2 x3 x4 x5 (ix2 e k)
      = max (Cert.Spec.edgeHidR x3 (val_main_v11 (F := Ideal) x0 x1) (val_main_v18 (F := Ideal) x0 x1) x2 x4 x5 e k) 0 := by
  rw [val_main_v24_apply, val_main_v23_apply, val_main_v20_apply, val_main_v22_apply, val_main_v21_apply,
    val_main_call0_v0_apply, val_main_call0_cst_apply, Ideal.maximumf_def, Ideal.addf_def, Ideal.ofBits_def,
    Ideal.ofBits_zero_f32]
  unfold Cert.Spec.edgeHidR
  have hb : idx_main_v21 (idx_main_v22 (ix2 e k)) = ix1 k :=
    funext fun a => Fin.ext (by match a with | ⟨0, _⟩ => rfl)
  rw [hb]
  congr 2
  refine Finset.sum_congr rfl fun j _ => ?_
  have hl : lidx_main_v20 (ix2 e k) j = ix2 e j :=
    funext fun a => Fin.ext (by match a with | ⟨0, _⟩ => rfl | ⟨1, _⟩ => rfl)
  have hr : ridx_main_v20 (ix2 e k) j = ix2 j k :=
    funext fun a => Fin.ext (by match a with | ⟨0, _⟩ => rfl | ⟨1, _⟩ => rfl)
  rw [hl, hr, edge_cat_apply]

/-- The reference's edge outputs: the concatenated arrangement over its two gathers. -/
theorem ref_edge (x0 : (⟨S100000x64, .f32⟩ : BufTy).Contents (Elt Ideal)) (x1 : (⟨S2x1200000, .i32⟩ : BufTy).Contents (Elt Ideal)) (x2 : (⟨S1200000x64, .f32⟩ : BufTy).Contents (Elt Ideal)) (x3 : (⟨S1x16, .f32⟩ : BufTy).Contents (Elt Ideal)) (x4 : (⟨S208x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) :
    val_main_v28 (F := Ideal) x0 x1 x2 x3 x4 x5 x6 x7
      = Cert.Spec.edgeRef x3 (val_main_v11 (F := Ideal) x0 x1) (val_main_v18 (F := Ideal) x0 x1) x2 x4 x5 x6 x7 := by
  funext i
  obtain ⟨e, f, rfl⟩ : ∃ (e : Fin 1200000) (f : Fin 64), i = ix2 e f := ⟨i 0, i 1, eq_ix2 i⟩
  rw [val_main_v28_apply, val_main_v25_apply, val_main_v27_apply, val_main_v26_apply, Ideal.addf_def]
  show _ = Cert.Spec.edgeOutR x3 (val_main_v11 (F := Ideal) x0 x1) (val_main_v18 (F := Ideal) x0 x1) x2 x4 x5 x6 x7 e f
  unfold Cert.Spec.edgeOutR
  have hb : idx_main_v26 (idx_main_v27 (ix2 e f)) = ix1 f :=
    funext fun a => Fin.ext (by match a with | ⟨0, _⟩ => rfl)
  rw [hb]
  congr 1
  refine Finset.sum_congr rfl fun k _ => ?_
  have hl : lidx_main_v25 (ix2 e f) k = ix2 e k :=
    funext fun a => Fin.ext (by match a with | ⟨0, _⟩ => rfl | ⟨1, _⟩ => rfl)
  have hr : ridx_main_v25 (ix2 e f) k = ix2 k f :=
    funext fun a => Fin.ext (by match a with | ⟨0, _⟩ => rfl | ⟨1, _⟩ => rfl)
  rw [hl, hr, edge_hid_apply]

/-! ## The node network -/

/-- A concatenation along the columns of a 16-wide block and two 64-wide blocks, read at row `n`, column `k`. -/
private theorem cat3_apply {α : Type} (G : S100000x16.Idx → α) (A B : S100000x64.Idx → α)
    (n : Fin 100000) (k : Fin 144) :
    concatenate S100000x144 1 [⟨S100000x16, G⟩, ⟨S100000x64, A⟩, ⟨S100000x64, B⟩]
        concatenates_S100000x16_S100000x64_S100000x64_S100000x144_d1 (ix2 n k)
      = if h : k.val < 16 then G (ix2 n ⟨k.val, h⟩)
        else if h2 : k.val < 80 then A (ix2 n ⟨k.val - 16, by omega⟩)
        else B (ix2 n ⟨k.val - 80, by have := k.isLt; omega⟩) := by
  have hk := k.isLt
  by_cases h : k.val < 16
  · rw [dif_pos h]
    exact concatenate_apply_piece (1 : Fin S100000x144.rank) _ _ (ix2 n k) 0 (by show (0 : Nat) < 3; omega) S100000x16 G rfl rfl 0 rfl
      (ix2 n ⟨k.val, h⟩)
      (fun b hb => by match b with | ⟨0, _⟩ => rfl | ⟨1, _⟩ => exact absurd rfl hb)
      (by show 0 + k.val = k.val; omega)
  · rw [dif_neg h]
    by_cases h2 : k.val < 80
    · rw [dif_pos h2]
      exact concatenate_apply_piece (1 : Fin S100000x144.rank) _ _ (ix2 n k) 1 (by show (1 : Nat) < 3; omega) S100000x64 A rfl rfl 16 rfl
        (ix2 n ⟨k.val - 16, by omega⟩)
        (fun b hb => by match b with | ⟨0, _⟩ => rfl | ⟨1, _⟩ => exact absurd rfl hb)
        (by show 16 + (k.val - 16) = k.val; omega)
    · rw [dif_neg h2]
      exact concatenate_apply_piece (1 : Fin S100000x144.rank) _ _ (ix2 n k) 2 (by show (2 : Nat) < 3; omega) S100000x64 B rfl rfl 80 rfl
        (ix2 n ⟨k.val - 80, by omega⟩)
        (fun b hb => by match b with | ⟨0, _⟩ => rfl | ⟨1, _⟩ => exact absurd rfl hb)
        (by show 80 + (k.val - 80) = k.val; omega)

/-- The reference's concatenated node features at node `n`, position `k`: the global features in the first 16
    columns (the same for every node), then the node's own features and its aggregated messages. -/
private theorem node_cat_apply (x0 : (⟨S100000x64, .f32⟩ : BufTy).Contents (Elt Ideal)) (x1 : (⟨S2x1200000, .i32⟩ : BufTy).Contents (Elt Ideal)) (x2 : (⟨S1200000x64, .f32⟩ : BufTy).Contents (Elt Ideal)) (x3 : (⟨S1x16, .f32⟩ : BufTy).Contents (Elt Ideal)) (x4 : (⟨S208x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (n : Fin 100000) (k : Fin 144) :
    val_main_v41 (F := Ideal) x0 x1 x2 x3 x4 x5 x6 x7 (ix2 n k)
      = Cert.Spec.nodeCat x3 x0 (val_main_v39 (F := Ideal) x0 x1 x2 x3 x4 x5 x6 x7) n k := by
  unfold val_main_v41
  generalize val_main_v39 (F := Ideal) x0 x1 x2 x3 x4 x5 x6 x7 = A
  refine (cat3_apply (val_main_v40 (F := Ideal) x3) x0 A n k).trans ?_
  unfold Cert.Spec.nodeCat
  by_cases h : k.val < 16
  · rw [dif_pos h, dif_pos h, val_main_v40_apply]
    exact congrArg x3 (funext fun a => Fin.ext (by match a with | ⟨0, _⟩ => rfl | ⟨1, _⟩ => rfl))
  · rw [dif_neg h, dif_neg h]

/-- The reference's hidden layer at node `n`, unit `k`, after the clip at zero. -/
private theorem node_hid_apply (x0 : (⟨S100000x64, .f32⟩ : BufTy).Contents (Elt Ideal)) (x1 : (⟨S2x1200000, .i32⟩ : BufTy).Contents (Elt Ideal)) (x2 : (⟨S1200000x64, .f32⟩ : BufTy).Contents (Elt Ideal)) (x3 : (⟨S1x16, .f32⟩ : BufTy).Contents (Elt Ideal)) (x4 : (⟨S208x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S144x128, .f32⟩ : BufTy).Contents (Elt Ideal)) (x9 : (⟨S128, .f32⟩ : BufTy).Contents (Elt Ideal)) (n : Fin 100000) (k : Fin 128) :
    val_main_v46 (F := Ideal) x0 x1 x2 x3 x4 x5 x6 x7 x8 x9 (ix2 n k)
      = max (Cert.Spec.nodeHidR x3 x0 (val_main_v39 (F := Ideal) x0 x1 x2 x3 x4 x5 x6 x7) x8 x9 n k) 0 := by
  rw [val_main_v46_apply, val_main_v45_apply, val_main_v42_apply, val_main_v44_apply, val_main_v43_apply,
    val_main_call2_v0_apply, val_main_call2_cst_apply, Ideal.maximumf_def, Ideal.addf_def, Ideal.ofBits_def,
    Ideal.ofBits_zero_f32]
  unfold Cert.Spec.nodeHidR
  have hb : idx_main_v43 (idx_main_v44 (ix2 n k)) = ix1 k :=
    funext fun a => Fin.ext (by match a with | ⟨0, _⟩ => rfl)
  rw [hb]
  congr 2
  refine Finset.sum_congr rfl fun j _ => ?_
  have hl : lidx_main_v42 (ix2 n k) j = ix2 n j :=
    funext fun a => Fin.ext (by match a with | ⟨0, _⟩ => rfl | ⟨1, _⟩ => rfl)
  have hr : ridx_main_v42 (ix2 n k) j = ix2 j k :=
    funext fun a => Fin.ext (by match a with | ⟨0, _⟩ => rfl | ⟨1, _⟩ => rfl)
  rw [hl, hr, node_cat_apply]

/-- The reference's node outputs: the concatenated arrangement over its aggregated messages. -/
theorem ref_node (x0 : (⟨S100000x64, .f32⟩ : BufTy).Contents (Elt Ideal)) (x1 : (⟨S2x1200000, .i32⟩ : BufTy).Contents (Elt Ideal)) (x2 : (⟨S1200000x64, .f32⟩ : BufTy).Contents (Elt Ideal)) (x3 : (⟨S1x16, .f32⟩ : BufTy).Contents (Elt Ideal)) (x4 : (⟨S208x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S144x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal)) :
    val_main_v50 (F := Ideal) x0 x1 x2 x3 x4 x5 x6 x7 x8 x9 x10 x11
      = Cert.Spec.nodeRef x3 x0 (val_main_v39 (F := Ideal) x0 x1 x2 x3 x4 x5 x6 x7) x8 x9 x10 x11 := by
  funext i
  obtain ⟨n, f, rfl⟩ : ∃ (n : Fin 100000) (f : Fin 64), i = ix2 n f := ⟨i 0, i 1, eq_ix2 i⟩
  rw [val_main_v50_apply, val_main_v47_apply, val_main_v49_apply, val_main_v48_apply, Ideal.addf_def]
  show _ = Cert.Spec.nodeOutR x3 x0 (val_main_v39 (F := Ideal) x0 x1 x2 x3 x4 x5 x6 x7) x8 x9 x10 x11 n f
  unfold Cert.Spec.nodeOutR
  have hb : idx_main_v48 (idx_main_v49 (ix2 n f)) = ix1 f :=
    funext fun a => Fin.ext (by match a with | ⟨0, _⟩ => rfl)
  rw [hb]
  congr 1
  refine Finset.sum_congr rfl fun k _ => ?_
  have hl : lidx_main_v47 (ix2 n f) k = ix2 n k :=
    funext fun a => Fin.ext (by match a with | ⟨0, _⟩ => rfl | ⟨1, _⟩ => rfl)
  have hr : ridx_main_v47 (ix2 n f) k = ix2 k f :=
    funext fun a => Fin.ext (by match a with | ⟨0, _⟩ => rfl | ⟨1, _⟩ => rfl)
  rw [hl, hr, node_hid_apply]

end Cert.RefValue

end
-- ==== Proof.Shared.lean ====
/-
  The host chains BOTH programs apply, each named once as a function of the arrays it reads, so that the comparison of
  the two programs never opens them: the mean aggregation of edge messages onto their source nodes (`aggFn`: segment
  sums of the messages and of ones, the counts clipped below at one, the quotient) and the small global network
  (`globFn`: the column means of the edge and node outputs, concatenated with the global features, through a
  two-layer perceptron). Also the reference's own stages restated over these names.
-/
import proofs.«408850_j13786845020469_1_alg».proof.Proof.Ref.ReadP

noncomputable section

namespace Cert.Shared

open Cert.ReferenceIdeal Cert.ReferenceIdeal.Gen Cert.ReferenceIdeal.ReadP Idealize.ShloMosaic

variable {F : FTy → Type} [FloatOps F]

/-- The source-node row of the edge index array, as a vector of 1,200,000 words. -/
def rowOf (ei : IVec S2x1200000 32) : IVec S1200000 32 :=
  shapeCast _ (extractStridedSlice S1x1200000 ![0, 0] ei slices_S2x1200000_S1x1200000_0_0) shapeCasts_S1x1200000_S1200000

/-- Mean aggregation: per node and feature, the sum of the messages of the edges whose source is that node, over the
    number of such edges clipped below at one. -/
def aggFn (E : FVec F S1200000x64 .f32) (ei : IVec S2x1200000 32) : FVec F S100000x64 .f32 :=
  Host.divf
    (Host.scatterAdd scatter_S100000x64_S1200000x1_S1200000x64_1_0_0_1
      (broadcastInDim S100000x64 ![] bcast_S_S100000x64 (constant S_ .f32 0x00000000#32))
      (broadcastInDim S1200000x1 ![0] bcast_S1200000_S1200000x1_0 (rowOf ei)) E)
    (broadcastInDim S100000x64 ![0, 1] bcast_S100000x1_S100000x64_0_1
      (broadcastInDim S100000x1 ![0] bcast_S100000_S100000x1_0
        (maximumf (broadcastInDim S100000 ![] bcast_S_S100000 (id (constant S_ .f32 0x3F800000#32)))
          (Host.scatterAdd scatter_S100000_S1200000x1_S1200000_n_0_0_1
            (broadcastInDim S100000 ![] bcast_S_S100000 (constant S_ .f32 0x00000000#32))
            (broadcastInDim S1200000x1 ![0] bcast_S1200000_S1200000x1_0 (rowOf ei))
            (broadcastInDim S1200000 ![] bcast_S_S1200000 (constant S_ .f32 0x3F800000#32))))))

/-- The global network: the node outputs' and the edge outputs' column means and the global features, concatenated,
    through a linear layer, a clip below at zero and a second linear layer. -/
def globFn (E : FVec F S1200000x64 .f32) (N : FVec F S100000x64 .f32) (g : FVec F S1x16 .f32) (Wg1 : FVec F S144x128 .f32)
    (bg1 : FVec F S128 .f32) (Wg2 : FVec F S128x16 .f32) (bg2 : FVec F S16 .f32) : FVec F S1x16 .f32 :=
  addf
    (Host.dotGeneral dot_S1x128_S128x16_S1x16_1_0_0_1_n_n none
      (maximumf
        (addf
          (Host.dotGeneral dot_S1x144_S144x128_S1x128_1_0_0_1_n_n none
            (concatenate S1x144 1
              [⟨S1x64, Host.divf (broadcastInDim S1x64 ![1] bcast_S64_S1x64_1 (Host.reduceAdd N (constant S_ .f32 0x00000000#32) reducesTo_S100000x64_S64_d0 h_S_))
                  (broadcastInDim S1x64 ![] bcast_S_S1x64 (constant S_ .f32 0x47C35000#32))⟩,
               ⟨S1x64, Host.divf (broadcastInDim S1x64 ![1] bcast_S64_S1x64_1 (Host.reduceAdd E (constant S_ .f32 0x00000000#32) reducesTo_S1200000x64_S64_d0 h_S_))
                  (broadcastInDim S1x64 ![] bcast_S_S1x64 (constant S_ .f32 0x49927C00#32))⟩,
               ⟨S1x16, g⟩] concatenates_S1x64_S1x64_S1x16_S1x144_d1)
            Wg1)
          (broadcastInDim S1x128 ![1] bcast_S128_S1x128_1 bg1))
        (broadcastInDim S1x128 ![] bcast_S_S1x128 (constant S_ .f32 0x00000000#32)))
      Wg2)
    (broadcastInDim S1x16 ![1] bcast_S16_S1x16_1 bg2)

/-- The reference's aggregated messages are `aggFn` of its edge outputs. -/
theorem ref_agg (x0 : (⟨S100000x64, .f32⟩ : BufTy).Contents (Elt F)) (x1 : (⟨S2x1200000, .i32⟩ : BufTy).Contents (Elt F)) (x2 : (⟨S1200000x64, .f32⟩ : BufTy).Contents (Elt F)) (x3 : (⟨S1x16, .f32⟩ : BufTy).Contents (Elt F)) (x4 : (⟨S208x128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) :
    val_main_v39 (F := F) x0 x1 x2 x3 x4 x5 x6 x7 = aggFn (val_main_v28 (F := F) x0 x1 x2 x3 x4 x5 x6 x7) x1 := by
  unfold val_main_v39 val_main_v38 val_main_v37 val_main_v36 val_main_call1_v1 val_main_call1_v0 val_main_cst_5 val_main_v35 val_main_v34
    val_main_v33 val_main_cst_4 val_main_v32 val_main_cst_3 val_main_v31 val_main_v30 val_main_v29 val_main_cst val_main_v1 val_main_v0 aggFn rowOf
  rfl

/-- The reference's global output is `globFn` of its edge and node outputs. -/
theorem ref_glob (x0 : (⟨S100000x64, .f32⟩ : BufTy).Contents (Elt F)) (x1 : (⟨S2x1200000, .i32⟩ : BufTy).Contents (Elt F)) (x2 : (⟨S1200000x64, .f32⟩ : BufTy).Contents (Elt F)) (x3 : (⟨S1x16, .f32⟩ : BufTy).Contents (Elt F)) (x4 : (⟨S208x128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (x8 : (⟨S144x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S144x128, .f32⟩ : BufTy).Contents (Elt F)) (x13 : (⟨S128, .f32⟩ : BufTy).Contents (Elt F)) (x14 : (⟨S128x16, .f32⟩ : BufTy).Contents (Elt F)) (x15 : (⟨S16, .f32⟩ : BufTy).Contents (Elt F)) :
    val_main_v66 (F := F) x0 x1 x2 x3 x4 x5 x6 x7 x8 x9 x10 x11 x12 x13 x14 x15
      = globFn (val_main_v28 (F := F) x0 x1 x2 x3 x4 x5 x6 x7) (val_main_v50 (F := F) x0 x1 x2 x3 x4 x5 x6 x7 x8 x9 x10 x11) x3 x12 x13 x14 x15 := by
  unfold val_main_v66 val_main_v65 val_main_v64 val_main_v63 val_main_call3_v0 val_main_call3_cst val_main_v62 val_main_v61 val_main_v60 val_main_v59
    val_main_v58 val_main_v57 val_main_cst_9 val_main_v56 val_main_v55 val_main_cst_8 val_main_v54 val_main_v53 val_main_cst_7 val_main_v52
    val_main_v51 val_main_cst_6 globFn
  rfl

end Cert.Shared

end
-- ==== Proof.Bridge.lean ====
/-
  The kernel program's three results equal the reference's, over the extended reals, on agreeing inputs whose edge index
  entries all lie in the node range.
  * Edge outputs. The kernel program's edge region leaves the split arrangement (Spec.lean) of the arrays the host
    prepared for it; under in-range indices its two fill-mode gathers are the plain gathers the reference makes; the
    prepared weight pieces and effective bias are the rows of the first weight matrix and the bias plus the global
    part; so the split arrangement is the concatenated one, which is what the reference computes.
  * Node outputs. Both programs aggregate the (equal) edge outputs onto the source nodes by the same chain of
    operations; the node region leaves the split arrangement over that aggregate, the reference computes the
    concatenated one.
  * Global output. Both programs push the (equal) edge and node outputs through the same small chain.
-/
import proofs.«408850_j13786845020469_1_alg».proof.Proof.KI.Run
import proofs.«408850_j13786845020469_1_alg».proof.Proof.KI.HostVal
import proofs.«408850_j13786845020469_1_alg».proof.Proof.KI.Value0
import proofs.«408850_j13786845020469_1_alg».proof.Proof.KI.Value1
import proofs.«408850_j13786845020469_1_alg».proof.Proof.KI.HostIdx
import proofs.«408850_j13786845020469_1_alg».proof.Proof.KI.Take
import proofs.«408850_j13786845020469_1_alg».proof.Proof.SpecLaw
import proofs.«408850_j13786845020469_1_alg».proof.Proof.Ref.RefValue
import proofs.«408850_j13786845020469_1_alg».proof.Proof.Shared

set_option maxRecDepth 16384

noncomputable section

namespace Cert.Bridge

open Idealize.ShloMosaic Idealize.ShloMosaic.TcCoe Idealize.SL.Sem
open Cert.KernelIdeal.Gen (V4 V8 V12)
open Cert.KernelIdeal.Reg (outs outsA Ve0 Ve1 dat0 dat1 W5 W9)
open Cert.KernelIdeal.Take (takeFn rowOf colOf startIdx wrapIdx InRange)
open Cert.KernelIdeal.HostVal (kAgg kGlob kGlobHid kGlobOut effBias)

/-! ## Cross-program identities: the same operations over the two programs' (identical) shape facts -/

/-- The reference's source-row gather is the kernel program's plain gather at the source row. -/
theorem ref_gather_row (x0 : FVec Ideal Cert.KernelIdeal.S100000x64 .f32) (x1 : IVec Cert.KernelIdeal.S2x1200000 32) :
    Cert.ReferenceIdeal.ReadP.val_main_v11 (F := Ideal) x0 x1
      = Host.gather Cert.KernelIdeal.gather_S100000x64_S1200000x1_S1200000x64_1_0_n_n_0_1_164 x0 (startIdx (rowOf x1)) := by
  unfold Cert.ReferenceIdeal.ReadP.val_main_v11 Cert.ReferenceIdeal.ReadP.val_main_v10 Cert.ReferenceIdeal.ReadP.val_main_v9 Cert.ReferenceIdeal.ReadP.val_main_v8 Cert.ReferenceIdeal.ReadP.val_main_v7 Cert.ReferenceIdeal.ReadP.val_main_c_0
    Cert.ReferenceIdeal.ReadP.val_main_v6 Cert.ReferenceIdeal.ReadP.val_main_v5 Cert.ReferenceIdeal.ReadP.val_main_c Cert.ReferenceIdeal.ReadP.val_main_v1 Cert.ReferenceIdeal.ReadP.val_main_v0 startIdx wrapIdx rowOf
  rfl
/-- The reference's target-row gather likewise. -/
theorem ref_gather_col (x0 : FVec Ideal Cert.KernelIdeal.S100000x64 .f32) (x1 : IVec Cert.KernelIdeal.S2x1200000 32) :
    Cert.ReferenceIdeal.ReadP.val_main_v18 (F := Ideal) x0 x1
      = Host.gather Cert.KernelIdeal.gather_S100000x64_S1200000x1_S1200000x64_1_0_n_n_0_1_164 x0 (startIdx (colOf x1)) := by
  unfold Cert.ReferenceIdeal.ReadP.val_main_v18 Cert.ReferenceIdeal.ReadP.val_main_v17 Cert.ReferenceIdeal.ReadP.val_main_v16 Cert.ReferenceIdeal.ReadP.val_main_v15 Cert.ReferenceIdeal.ReadP.val_main_v14 Cert.ReferenceIdeal.ReadP.val_main_c_2
    Cert.ReferenceIdeal.ReadP.val_main_v13 Cert.ReferenceIdeal.ReadP.val_main_v12 Cert.ReferenceIdeal.ReadP.val_main_c_1 Cert.ReferenceIdeal.ReadP.val_main_v3 Cert.ReferenceIdeal.ReadP.val_main_v2 startIdx wrapIdx colOf
  rfl

/-- The two programs' mean aggregations are one function. -/
theorem agg_same (E : FVec Ideal Cert.KernelIdeal.S1200000x64 .f32) (x1 : IVec Cert.KernelIdeal.S2x1200000 32) :
    kAgg E (rowOf x1) = Cert.Shared.aggFn E x1 := by
  unfold kAgg Cert.Shared.aggFn Cert.Shared.rowOf rowOf
  rfl
/-- The two programs' global networks are one function. -/
theorem glob_same (E : FVec Ideal Cert.KernelIdeal.S1200000x64 .f32) (N : FVec Ideal Cert.KernelIdeal.S100000x64 .f32) (g : FVec Ideal Cert.KernelIdeal.S1x16 .f32)
    (Wg1 : FVec Ideal Cert.KernelIdeal.S144x128 .f32) (bg1 : FVec Ideal Cert.KernelIdeal.S128 .f32) (Wg2 : FVec Ideal Cert.KernelIdeal.S128x16 .f32) (bg2 : FVec Ideal Cert.KernelIdeal.S16 .f32) :
    kGlob E N g Wg1 bg1 Wg2 bg2 = Cert.Shared.globFn E N g Wg1 bg1 Wg2 bg2 := by
  unfold kGlob kGlobOut kGlobHid Cert.Shared.globFn
  rfl

/-! ## The kernel program's results -/

section Kernel

variable (m : (ℓ : Loc Cert.KernelIdeal.nD Cert.KernelIdeal.τ Cert.KernelIdeal.sig) → Buf (Elt Ideal) ℓ) (c : Dev Cert.KernelIdeal.nD)

abbrev a0 : FVec Ideal Cert.KernelIdeal.S100000x64 .f32 := m ((c.tc : Thread Cert.KernelIdeal.nD Cert.KernelIdeal.τ).loc Cert.KernelIdeal.main_arg0)
abbrev a1 : IVec Cert.KernelIdeal.S2x1200000 32 := m ((c.tc : Thread Cert.KernelIdeal.nD Cert.KernelIdeal.τ).loc Cert.KernelIdeal.main_arg1)
abbrev a2 : FVec Ideal Cert.KernelIdeal.S1200000x64 .f32 := m ((c.tc : Thread Cert.KernelIdeal.nD Cert.KernelIdeal.τ).loc Cert.KernelIdeal.main_arg2)
abbrev a3 : FVec Ideal Cert.KernelIdeal.S1x16 .f32 := m ((c.tc : Thread Cert.KernelIdeal.nD Cert.KernelIdeal.τ).loc Cert.KernelIdeal.main_arg3)
abbrev a4 : FVec Ideal Cert.KernelIdeal.S208x128 .f32 := m ((c.tc : Thread Cert.KernelIdeal.nD Cert.KernelIdeal.τ).loc Cert.KernelIdeal.main_arg4)
abbrev a5 : FVec Ideal Cert.KernelIdeal.S128 .f32 := m ((c.tc : Thread Cert.KernelIdeal.nD Cert.KernelIdeal.τ).loc Cert.KernelIdeal.main_arg5)
abbrev a6 : FVec Ideal Cert.KernelIdeal.S128x64 .f32 := m ((c.tc : Thread Cert.KernelIdeal.nD Cert.KernelIdeal.τ).loc Cert.KernelIdeal.main_arg6)
abbrev a7 : FVec Ideal Cert.KernelIdeal.S64 .f32 := m ((c.tc : Thread Cert.KernelIdeal.nD Cert.KernelIdeal.τ).loc Cert.KernelIdeal.main_arg7)
abbrev a8 : FVec Ideal Cert.KernelIdeal.S144x128 .f32 := m ((c.tc : Thread Cert.KernelIdeal.nD Cert.KernelIdeal.τ).loc Cert.KernelIdeal.main_arg8)
abbrev a9 : FVec Ideal Cert.KernelIdeal.S128 .f32 := m ((c.tc : Thread Cert.KernelIdeal.nD Cert.KernelIdeal.τ).loc Cert.KernelIdeal.main_arg9)
abbrev a10 : FVec Ideal Cert.KernelIdeal.S128x64 .f32 := m ((c.tc : Thread Cert.KernelIdeal.nD Cert.KernelIdeal.τ).loc Cert.KernelIdeal.main_arg10)
abbrev a11 : FVec Ideal Cert.KernelIdeal.S64 .f32 := m ((c.tc : Thread Cert.KernelIdeal.nD Cert.KernelIdeal.τ).loc Cert.KernelIdeal.main_arg11)
abbrev a12 : FVec Ideal Cert.KernelIdeal.S144x128 .f32 := m ((c.tc : Thread Cert.KernelIdeal.nD Cert.KernelIdeal.τ).loc Cert.KernelIdeal.main_arg12)
abbrev a13 : FVec Ideal Cert.KernelIdeal.S128 .f32 := m ((c.tc : Thread Cert.KernelIdeal.nD Cert.KernelIdeal.τ).loc Cert.KernelIdeal.main_arg13)
abbrev a14 : FVec Ideal Cert.KernelIdeal.S128x16 .f32 := m ((c.tc : Thread Cert.KernelIdeal.nD Cert.KernelIdeal.τ).loc Cert.KernelIdeal.main_arg14)
abbrev a15 : FVec Ideal Cert.KernelIdeal.S16 .f32 := m ((c.tc : Thread Cert.KernelIdeal.nD Cert.KernelIdeal.τ).loc Cert.KernelIdeal.main_arg15)

/-- The plain gathers of the node features at the two rows of the edge index array. -/
abbrev xr : FVec Ideal Cert.KernelIdeal.S1200000x64 .f32 :=
  Host.gather Cert.KernelIdeal.gather_S100000x64_S1200000x1_S1200000x64_1_0_n_n_0_1_164 (a0 m c) (startIdx (rowOf (a1 m c)))
abbrev xc : FVec Ideal Cert.KernelIdeal.S1200000x64 .f32 :=
  Host.gather Cert.KernelIdeal.gather_S100000x64_S1200000x1_S1200000x64_1_0_n_n_0_1_164 (a0 m c) (startIdx (colOf (a1 m c)))

/-- The edge outputs, as the kernel program leaves them. -/
abbrev kE : FVec Ideal Cert.KernelIdeal.S1200000x64 .f32 := V12 m (outs m) c Cert.KernelIdeal.main_v14
/-- The node outputs. -/
abbrev kN : FVec Ideal Cert.KernelIdeal.S100000x64 .f32 := V12 m (outs m) c Cert.KernelIdeal.main_v33
/-- The global output. -/
abbrev kG : FVec Ideal Cert.KernelIdeal.S1x16 .f32 := V12 m (outs m) c Cert.KernelIdeal.main_v49

/-- The kernel program's edge outputs are the edge network in the concatenated arrangement. -/
theorem ker_edge (hpre : Cert.Pre_KernelIdeal m) :
    kE m c = Cert.Spec.edgeRef (a3 m c) (xr m c) (xc m c) (a2 m c) (a4 m c) (a5 m c) (a6 m c) (a7 m c) := by
  refine (Cert.KernelIdeal.HostVal.V12_v14 m (outs m) c).trans <| (Cert.KernelIdeal.Reg.outs5 m c).trans <| (Cert.KernelIdeal.Reg.W5_arr m c 9).trans <|
    (Cert.KernelIdeal.Reg.edge_value (Ve0 m) c).trans ?_
  rw [show Ve0 m c Cert.KernelIdeal.main_v4 = takeFn (a0 m c) (rowOf (a1 m c)) from Cert.KernelIdeal.HostVal.V4_v4 m c,
    show Ve0 m c Cert.KernelIdeal.main_v5 = takeFn (a0 m c) (colOf (a1 m c)) from Cert.KernelIdeal.HostVal.V4_v5 m c,
    show Ve0 m c Cert.KernelIdeal.main_arg2 = a2 m c from Cert.KernelIdeal.HostVal.V4_arg2 m c,
    show Ve0 m c Cert.KernelIdeal.main_v6 = _ from Cert.KernelIdeal.HostVal.V4_v6 m c,
    show Ve0 m c Cert.KernelIdeal.main_v7 = _ from Cert.KernelIdeal.HostVal.V4_v7 m c,
    show Ve0 m c Cert.KernelIdeal.main_v8 = _ from Cert.KernelIdeal.HostVal.V4_v8 m c,
    show Ve0 m c Cert.KernelIdeal.main_v12 = _ from Cert.KernelIdeal.HostVal.V4_v12 m c,
    show Ve0 m c Cert.KernelIdeal.main_arg6 = a6 m c from Cert.KernelIdeal.HostVal.V4_arg6 m c,
    show Ve0 m c Cert.KernelIdeal.main_v13 = _ from Cert.KernelIdeal.HostVal.V4_v13 m c,
    Cert.KernelIdeal.Take.takeFn_eq_gather _ _ (Cert.KernelIdeal.Take.rowOf_inRange _ (Cert.KernelIdeal.Take.inRange_of_pre m hpre c)),
    Cert.KernelIdeal.Take.takeFn_eq_gather _ _ (Cert.KernelIdeal.Take.colOf_inRange _ (Cert.KernelIdeal.Take.inRange_of_pre m hpre c))]
  exact Cert.Spec.edgeKer_eq_edgeRef (a3 m c) (xr m c) (xc m c) (a2 m c) (a4 m c) (a5 m c) (a6 m c) (a7 m c) _ _ _ _ _
    (fun j k => Cert.KernelIdeal.HostIdx.slice208_16 _ j k) (fun j k => Cert.KernelIdeal.HostIdx.slice208_80 _ j k) (fun j k => Cert.KernelIdeal.HostIdx.slice208_144 _ j k)
    (fun k => Cert.KernelIdeal.HostIdx.effBias208 _ _ _ k) (fun f => Cert.KernelIdeal.HostIdx.row64 _ f)

/-- What the node region reads as the edge outputs is what the program returns as the edge outputs. -/
theorem outsA_eq_kE : outsA m 5 Cert.KernelIdeal.main_v14 c = kE m c :=
  (Cert.KernelIdeal.Reg.outsA5 m c).trans <| (Cert.KernelIdeal.Reg.outs5 m c).symm.trans (Cert.KernelIdeal.HostVal.V12_v14 m (outs m) c).symm

/-- The kernel program's node outputs are the node network in the concatenated arrangement over the aggregate of its
    edge outputs. -/
theorem ker_node :
    kN m c = Cert.Spec.nodeRef (a3 m c) (a0 m c) (kAgg (kE m c) (rowOf (a1 m c))) (a8 m c) (a9 m c) (a10 m c) (a11 m c) := by
  refine (Cert.KernelIdeal.HostVal.V12_v33 m (outs m) c).trans <| (Cert.KernelIdeal.Reg.outs9 m c).trans <| (Cert.KernelIdeal.Reg.W9_arr m c 7).trans <|
    (Cert.KernelIdeal.Reg.node_value (Ve1 m) c).trans ?_
  rw [show Ve1 m c Cert.KernelIdeal.main_arg0 = a0 m c from Cert.KernelIdeal.HostVal.V8_arg0 m (outsA m) c,
    show Ve1 m c Cert.KernelIdeal.main_v25 = _ from Cert.KernelIdeal.HostVal.V8_v25 m (outsA m) c,
    show Ve1 m c Cert.KernelIdeal.main_v26 = _ from Cert.KernelIdeal.HostVal.V8_v26 m (outsA m) c,
    show Ve1 m c Cert.KernelIdeal.main_v27 = _ from Cert.KernelIdeal.HostVal.V8_v27 m (outsA m) c,
    show Ve1 m c Cert.KernelIdeal.main_v31 = _ from Cert.KernelIdeal.HostVal.V8_v31 m (outsA m) c,
    show Ve1 m c Cert.KernelIdeal.main_arg10 = a10 m c from Cert.KernelIdeal.HostVal.V8_arg10 m (outsA m) c,
    show Ve1 m c Cert.KernelIdeal.main_v32 = _ from Cert.KernelIdeal.HostVal.V8_v32 m (outsA m) c,
    outsA_eq_kE m c]
  exact Cert.Spec.nodeKer_eq_nodeRef (a3 m c) (a0 m c) _ (a8 m c) (a9 m c) (a10 m c) (a11 m c) _ _ _ _
    (fun j k => Cert.KernelIdeal.HostIdx.slice144_16 _ j k) (fun j k => Cert.KernelIdeal.HostIdx.slice144_80 _ j k)
    (fun k => Cert.KernelIdeal.HostIdx.effBias144 _ _ _ k) (fun f => Cert.KernelIdeal.HostIdx.row64 _ f)

/-- The kernel program's global output is the global network of its edge and node outputs. -/
theorem ker_glob : kG m c = kGlob (kE m c) (kN m c) (a3 m c) (a12 m c) (a13 m c) (a14 m c) (a15 m c) := by
  refine (Cert.KernelIdeal.HostVal.V12_v49 m (outs m) c).trans ?_
  rw [show outs m 5 Cert.KernelIdeal.main_v14 c = kE m c from (Cert.KernelIdeal.HostVal.V12_v14 m (outs m) c).symm,
    show outs m 9 Cert.KernelIdeal.main_v33 c = kN m c from (Cert.KernelIdeal.HostVal.V12_v33 m (outs m) c).symm]

end Kernel

/-! ## Against the reference -/

section Against

variable (m : (ℓ : Loc Cert.KernelIdeal.nD Cert.KernelIdeal.τ Cert.KernelIdeal.sig) → Buf (Elt Ideal) ℓ) (c : Dev Cert.KernelIdeal.nD)

open Cert.ReferenceIdeal.ReadP in
/-- The reference's edge outputs on the kernel program's arguments are the kernel program's. -/
theorem edge_eq (hpre : Cert.Pre_KernelIdeal m) :
    val_main_v28 (F := Ideal) (a0 m c) (a1 m c) (a2 m c) (a3 m c) (a4 m c) (a5 m c) (a6 m c) (a7 m c) = kE m c := by
  rw [Cert.RefValue.ref_edge, ref_gather_row, ref_gather_col]
  exact (ker_edge m c hpre).symm

open Cert.ReferenceIdeal.ReadP in
/-- The reference's node outputs likewise. -/
theorem node_eq (hpre : Cert.Pre_KernelIdeal m) :
    val_main_v50 (F := Ideal) (a0 m c) (a1 m c) (a2 m c) (a3 m c) (a4 m c) (a5 m c) (a6 m c) (a7 m c) (a8 m c) (a9 m c) (a10 m c) (a11 m c) = kN m c := by
  rw [Cert.RefValue.ref_node, Cert.Shared.ref_agg, edge_eq m c hpre, ← agg_same]
  exact (ker_node m c).symm

open Cert.ReferenceIdeal.ReadP in
/-- The reference's global output likewise. -/
theorem glob_eq (hpre : Cert.Pre_KernelIdeal m) :
    val_main_v66 (F := Ideal) (a0 m c) (a1 m c) (a2 m c) (a3 m c) (a4 m c) (a5 m c) (a6 m c) (a7 m c) (a8 m c) (a9 m c) (a10 m c) (a11 m c) (a12 m c) (a13 m c) (a14 m c) (a15 m c) = kG m c := by
  rw [Cert.Shared.ref_glob, edge_eq m c hpre, node_eq m c hpre, ← glob_same]
  exact (ker_glob m c).symm

end Against

end Cert.Bridge

end
-- ==== Proof.lean ====
/-
  The certificate's five claims.
  The three frames: each program runs to the end, nothing faulting, and leaves its argument arrays as launched — the
  kernel program at both float instances by the one launch of its twelve items (Proof/K/Run.lean at the word level,
  Proof/KI/Run.lean idealized), the reference by its run of host operations. The idealization rewrote nothing, so
  `preserves` holds trivially. The equivalence: from memories agreeing on the arguments, with every float input finite
  and every edge index in the node range, the idealized kernel program and the idealized reference end with equal
  edge outputs, node outputs and global output (Proof/Bridge.lean), arguments unchanged.
-/
import proofs.«408850_j13786845020469_1_alg».proof.Defs
import proofs.«408850_j13786845020469_1_alg».proof.Proof.Gen.Kernel
import proofs.«408850_j13786845020469_1_alg».proof.Proof.Gen.KernelIdeal
import proofs.«408850_j13786845020469_1_alg».proof.Proof.Gen.ReferenceIdeal
import proofs.«408850_j13786845020469_1_alg».proof.Proof.Gen.Pre_finite_inputs
import proofs.«408850_j13786845020469_1_alg».proof.Proof.K.Run
import proofs.«408850_j13786845020469_1_alg».proof.Proof.KI.Run
import proofs.«408850_j13786845020469_1_alg».proof.Proof.Ref.RefRun
import proofs.«408850_j13786845020469_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Reg.frame (F := Bits) m ρ

theorem frame_ki : Cert.frame_KernelIdeal := fun m ρ _ => Cert.KernelIdeal.Reg.frame (F := Ideal) m ρ

theorem frame_ri : Cert.frame_ReferenceIdeal := fun m ρ _ =>
  (θ_run Cert.ReferenceIdeal.defs _ _).mono (fun _ h c => (h c).2.2.2) (Cert.ReferenceIdeal.RunR.run (F := Ideal) m ρ)

/-- The idealization rewrote no operation. -/
theorem preserves : Cert.preserves_Kernel_KernelIdeal := trivial

set_option maxHeartbeats 4000000 in
/-- From memories agreeing on the arguments, under the precondition, both idealized programs run and end with the same
    three results: the kernel program's, read off its one launch; the reference's equal them by Proof/Bridge.lean. -/
theorem algebraic : Cert.algebraic_KernelIdeal_ReferenceIdeal := by
  intro m ρ m' ρ' hpre hagree
  refine ⟨fun c => Cert.Bridge.kE m c, fun c => Cert.Bridge.kN m c, fun c => Cert.Bridge.kG m c, ?_, ?_⟩
  · exact (θ_run Cert.KernelIdeal.defs _ _).mono (fun r h c =>
      ⟨h c _ (Cert.KernelIdeal.Reg.mem_uc Cert.KernelIdeal.main_v14 (by decide)),
        h c _ (Cert.KernelIdeal.Reg.mem_uc Cert.KernelIdeal.main_v33 (by decide)),
        h c _ (Cert.KernelIdeal.Reg.mem_uc Cert.KernelIdeal.main_v49 (by decide)),
        (h c _ (Cert.KernelIdeal.Reg.mem_uc Cert.KernelIdeal.main_arg0 (by decide))).trans (Cert.KernelIdeal.Gen.V12_main_arg0 m (Cert.KernelIdeal.Reg.outs m) c),
        (h c _ (Cert.KernelIdeal.Reg.mem_uc Cert.KernelIdeal.main_arg1 (by decide))).trans (Cert.KernelIdeal.Gen.V12_main_arg1 m (Cert.KernelIdeal.Reg.outs m) c),
        (h c _ (Cert.KernelIdeal.Reg.mem_uc Cert.KernelIdeal.main_arg2 (by decide))).trans (Cert.KernelIdeal.Gen.V12_main_arg2 m (Cert.KernelIdeal.Reg.outs m) c),
        (h c _ (Cert.KernelIdeal.Reg.mem_uc Cert.KernelIdeal.main_arg3 (by decide))).trans (Cert.KernelIdeal.Gen.V12_main_arg3 m (Cert.KernelIdeal.Reg.outs m) c),
        (h c _ (Cert.KernelIdeal.Reg.mem_uc Cert.KernelIdeal.main_arg4 (by decide))).trans (Cert.KernelIdeal.Gen.V12_main_arg4 m (Cert.KernelIdeal.Reg.outs m) c),
        (h c _ (Cert.KernelIdeal.Reg.mem_uc Cert.KernelIdeal.main_arg5 (by decide))).trans (Cert.KernelIdeal.Gen.V12_main_arg5 m (Cert.KernelIdeal.Reg.outs m) c),
        (h c _ (Cert.KernelIdeal.Reg.mem_uc Cert.KernelIdeal.main_arg6 (by decide))).trans (Cert.KernelIdeal.Gen.V12_main_arg6 m (Cert.KernelIdeal.Reg.outs m) c),
        (h c _ (Cert.KernelIdeal.Reg.mem_uc Cert.KernelIdeal.main_arg7 (by decide))).trans (Cert.KernelIdeal.Gen.V12_main_arg7 m (Cert.KernelIdeal.Reg.outs m) c),
        (h c _ (Cert.KernelIdeal.Reg.mem_uc Cert.KernelIdeal.main_arg8 (by decide))).trans (Cert.KernelIdeal.Gen.V12_main_arg8 m (Cert.KernelIdeal.Reg.outs m) c),
        (h c _ (Cert.KernelIdeal.Reg.mem_uc Cert.KernelIdeal.main_arg9 (by decide))).trans (Cert.KernelIdeal.Gen.V12_main_arg9 m (Cert.KernelIdeal.Reg.outs m) c),
        (h c _ (Cert.KernelIdeal.Reg.mem_uc Cert.KernelIdeal.main_arg10 (by decide))).trans (Cert.KernelIdeal.Gen.V12_main_arg10 m (Cert.KernelIdeal.Reg.outs m) c),
        (h c _ (Cert.KernelIdeal.Reg.mem_uc Cert.KernelIdeal.main_arg11 (by decide))).trans (Cert.KernelIdeal.Gen.V12_main_arg11 m (Cert.KernelIdeal.Reg.outs m) c),
        (h c _ (Cert.KernelIdeal.Reg.mem_uc Cert.KernelIdeal.main_arg12 (by decide))).trans (Cert.KernelIdeal.Gen.V12_main_arg12 m (Cert.KernelIdeal.Reg.outs m) c),
        (h c _ (Cert.KernelIdeal.Reg.mem_uc Cert.KernelIdeal.main_arg13 (by decide))).trans (Cert.KernelIdeal.Gen.V12_main_arg13 m (Cert.KernelIdeal.Reg.outs m) c),
        (h c _ (Cert.KernelIdeal.Reg.mem_uc Cert.KernelIdeal.main_arg14 (by decide))).trans (Cert.KernelIdeal.Gen.V12_main_arg14 m (Cert.KernelIdeal.Reg.outs m) c),
        (h c _ (Cert.KernelIdeal.Reg.mem_uc Cert.KernelIdeal.main_arg15 (by decide))).trans (Cert.KernelIdeal.Gen.V12_main_arg15 m (Cert.KernelIdeal.Reg.outs m) c)⟩)
      (Cert.KernelIdeal.Reg.run_all m ρ)
  · refine (θ_run Cert.ReferenceIdeal.defs _ _).mono (fun r h c => ⟨?_, ?_, ?_, (h c).2.2.2⟩) (Cert.ReferenceIdeal.RunR.run (F := Ideal) m' ρ')
    · refine (h c).1.trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.1]
      exact Cert.Bridge.edge_eq m c hpre
    · refine (h c).2.1.trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1]
      exact Cert.Bridge.node_eq m c hpre
    · refine (h c).2.2.1.trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
      exact Cert.Bridge.glob_eq m c hpre

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
